-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000x64 : Shape := ⟨2, ![1200000, 64]⟩
abbrev S1x1 : Shape := ⟨2, ![1, 1]⟩
abbrev S100000 : Shape := ⟨1, ![100000]⟩
abbrev S128x64 : Shape := ⟨2, ![128, 64]⟩
abbrev S64 : Shape := ⟨1, ![64]⟩
abbrev S129x64 : Shape := ⟨2, ![129, 64]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S1x1 : S_.BroadcastsInDim S1x1 (![] : Fin 0 → Fin S1x1.rank)
  reducesTo_S1x1_S_d0_1 : S1x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S129x64 : S_.BroadcastsInDim S129x64 (![] : Fin 0 → Fin S129x64.rank)
  reducesTo_S129x64_S_d0_1 : S129x64.ReducesTo [0, 1] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S64x64 .f32) (main_arg14 : FVec F S64 .f32) (main_arg15 : FVec F S64 .f32) (main_arg16 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_v63 main_v67

def fn_part2 {F : FTy → Type} [FloatOps F] (main_arg9 : FVec F S129x64 .f32) (main_arg10 : FVec F S64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_v33 : IVec S_ 1) : IVec S_ 1 :=
  let main_v34 : FVec F S129x64 .f32 := Host.absf main_arg9
  let main_cst_12 : FVec F S_ .f32 := constant S_ .f32 0x7F800000#32
  let main_v35 : FVec F S129x64 .f32 := broadcastInDim S129x64 ![] bcast_S_S129x64 main_cst_12
  let main_v36 : IVec S129x64 1 := cmpf .olt main_v34 main_v35
  let main_c_13 : IVec S_ 1 := constantI S_ 1 1#1
  let main_v37 : IVec S_ 1 := (fun x v => Host.reduce IntOp.andi x v reducesTo_S129x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64 .f32) (main_arg8 : FVec F S64 .f32) (main_arg9 : FVec F S129x64 .f32) (main_arg10 : FVec F S64 .f32) (main_arg11 : FVec F S64 .f32) (main_arg12 : FVec F S64 .f32) (main_arg13 : FVec F S64x64 .f32) (main_arg14 : FVec F S64 .f32) (main_arg15 : FVec F S64 .f32) (main_arg16 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x64 .f32) (main_arg1 : IVec S2x1200000 32) (main_arg2 : FVec F S1200000x64 .f32) (main_arg3 : FVec F S1x1 .f32) (main_arg4 : IVec S100000 32) (main_arg5 : FVec F S128x64 .f32) (main_arg6 : FVec F S64 .f32) (main_arg7 : FVec F S64 .f32) (main_arg8 : FVec F S64 .f32) (main_arg9 : FVec F S129x64 .f32) (main_arg10 : FVec F S64 .f32) (main_arg11 : FVec F S64 .f32) (main_arg12 : FVec F S64 .f32) (main_arg13 : FVec F S64x64 .f32) (main_arg14 : FVec F S64 .f32) (main_arg15 : FVec F S64 .f32) (main_arg16 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x64 .f32 := Host.absf main_arg2
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S1x1 .f32 := Host.absf main_arg3
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1200000 : Shape := ⟨2, ![2, 1200000]⟩
abbrev S1200000x64 : Shape := ⟨2, ![1200000, 64]⟩
abbrev S1x1 : Shape := ⟨2, ![1, 1]⟩
abbrev S100000 : Shape := ⟨1, ![100000]⟩
abbrev S128x64 : Shape := ⟨2, ![128, 64]⟩
abbrev S64 : Shape := ⟨1, ![64]⟩
abbrev S129x64 : Shape := ⟨2, ![129, 64]⟩
abbrev S64x64 : Shape := ⟨2, ![64, 64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1x64 : Shape := ⟨2, ![1, 64]⟩
abbrev S8000x64 : Shape := ⟨2, ![8000, 64]⟩
abbrev S8000 : Shape := ⟨1, ![8000]⟩
abbrev S8000x1 : Shape := ⟨2, ![8000, 1]⟩
abbrev S100000x1 : Shape := ⟨2, ![100000, 1]⟩
abbrev S1 : Shape := ⟨1, ![1]⟩
abbrev S100000x66 : Shape := ⟨2, ![100000, 66]⟩
abbrev S5000x64 : Shape := ⟨2, ![5000, 64]⟩
abbrev S5000x66 : Shape := ⟨2, ![5000, 66]⟩
abbrev S5000x1 : Shape := ⟨2, ![5000, 1]⟩
abbrev S5000 : Shape := ⟨1, ![5000]⟩

abbrev nBuf : Space → Nat
  | .hbm => 64
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S1200000x64, .f32⟩
  | .hbm, ⟨3, _⟩ => ⟨S1x1, .f32⟩
  | .hbm, ⟨4, _⟩ => ⟨S100000, .i32⟩
  | .hbm, ⟨5, _⟩ => ⟨S128x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S129x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S1x1200000, .i32⟩
  | .hbm, ⟨18, _⟩ => ⟨S1200000, .i32⟩
  | .hbm, ⟨19, _⟩ => ⟨S1x1200000, .i32⟩
  | .hbm, ⟨20, _⟩ => ⟨S1200000, .i32⟩
  | .hbm, ⟨21, _⟩ => ⟨S100000x64, .bf16⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000x64, .bf16⟩
  | .hbm, ⟨31, _⟩ => ⟨S64x64, .f32⟩
  | .hbm, ⟨32, _⟩ => ⟨S64x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1200000x64, .bf16⟩
  | .hbm, ⟨37, _⟩ => ⟨S1200000x64, .f32⟩
  | .hbm, ⟨38, _⟩ => ⟨S_, .f32⟩
  | .hbm, ⟨39, _⟩ => ⟨S100000x64, .f32⟩
  | .hbm, ⟨40, _⟩ => ⟨S1200000x1, .i32⟩
  | .hbm, ⟨41, _⟩ => ⟨S100000x64, .f32⟩
  | .hbm, ⟨42, _⟩ => ⟨S_, .f32⟩
  | .hbm, ⟨43, _⟩ => ⟨S1200000, .f32⟩
  | .hbm, ⟨44, _⟩ => ⟨S_, .f32⟩
  | .hbm, ⟨45, _⟩ => ⟨S100000, .f32⟩
  | .hbm, ⟨46, _⟩ => ⟨S1200000x1, .i32⟩
  | .hbm, ⟨47, _⟩ => ⟨S100000, .f32⟩
  | .hbm, ⟨48, _⟩ => ⟨S100000x1, .f32⟩
  | .hbm, ⟨49, _⟩ => ⟨S1, .f32⟩
  | .hbm, ⟨50, _⟩ => ⟨S100000x1, .i32⟩
  | .hbm, ⟨51, _⟩ => ⟨S100000, .f32⟩
  | .hbm, ⟨52, _⟩ => ⟨S100000x1, .f32⟩
  | .hbm, ⟨53, _⟩ => ⟨S100000x66, .f32⟩
  | .hbm, ⟨54, _⟩ => ⟨S64x64, .f32⟩
  | .hbm, ⟨55, _⟩ => ⟨S64x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S1x64, .f32⟩
  | .hbm, ⟨62, _⟩ => ⟨S1x64, .f32⟩
  | .hbm, ⟨63, _⟩ => ⟨S100000x64, .f32⟩
  | .local _ .vmem, ⟨0, _⟩ => ⟨S8000x64, .bf16⟩
  | .local _ .vmem, ⟨1, _⟩ => ⟨S8000x64, .bf16⟩
  | .local _ .vmem, ⟨2, _⟩ => ⟨S8000x64, .f32⟩
  | .local _ .vmem, ⟨3, _⟩ => ⟨S8000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S8000x64, .bf16⟩
  | .local _ .vmem, ⟨10, _⟩ => ⟨S8000x64, .bf16⟩
  | .local _ .vmem, ⟨11, _⟩ => ⟨S5000x64, .f32⟩
  | .local _ .vmem, ⟨12, _⟩ => ⟨S5000x64, .f32⟩
  | .local _ .vmem, ⟨13, _⟩ => ⟨S5000x66, .f32⟩
  | .local _ .vmem, ⟨14, _⟩ => ⟨S5000x66, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S64x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call0_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg12_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem12_1 : DmaSem sig := 26

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x66 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S5000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bitsLt_bf16_f32 : FTy.bits .bf16 < FTy.bits .f32
  bcast_S_S1200000 : S_.BroadcastsInDim S1200000 (![] : Fin 0 → Fin S1200000.rank)
  bcast_S1200000_S1200000x1_0 : S1200000.BroadcastsInDim S1200000x1 (![0] : Fin 1 → Fin S1200000x1.rank)
  slices_S128x64_S64x64_0_0 : S128x64.Slices ![0, 0] S64x64
  slices_S128x64_S64x64_64_0 : S128x64.Slices ![64, 0] S64x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  reduces_S8000x64_S8000 : S8000x64.Reduces [1] S8000
  shapeCasts_S8000_S8000x1 : S8000.ShapeCasts S8000x1
  broadcasts_S8000x1_S8000x64 : S8000x1.Broadcasts S8000x64
  packedbf16_S8000x64_S8000x64_0_0 : (Rect.unit (s := S8000x64) ![0, 0] S8000x64.size inb_S8000x64_S8000x64_0_0).PackedRows (EltTy.packing .bf16)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S1x1_S1 : S1x1.ShapeCasts S1
  bcast_S100000_S100000x1_0 : S100000.BroadcastsInDim S100000x1 (![0] : Fin 1 → Fin S100000x1.rank)
  concatenates_S100000x64_S100000x1_S100000x1_S100000x66_d1 : Shape.Concatenates [S100000x64, S100000x1, S100000x1] S100000x66 1
  slices_S129x64_S64x64_0_0 : S129x64.Slices ![0, 0] S64x64
  slices_S129x64_S64x64_64_0 : S129x64.Slices ![64, 0] S64x64
  slices_S129x64_S1x64_128_0 : S129x64.Slices ![128, 0] S1x64
  inb_S5000x64_S5000x64_0_0 : ∀ a, (![0, 0] : Fin 2 → Nat) a + S5000x64.size a ≤ S5000x64.size a
  h_S5000x64 : 0 < S5000x64.numel
  inb_S5000x66_S5000x66_0_0 : ∀ a, (![0, 0] : Fin 2 → Nat) a + S5000x66.size a ≤ S5000x66.size a
  h_S5000x66 : 0 < S5000x66.numel
  shapeCasts_S5000x66_S5000x66 : S5000x66.ShapeCasts S5000x66
  slices_S5000x66_o0_0_S5000x64 : S5000x66.Slices ![0, 0] S5000x64
  slices_S5000x66_o0_64_S5000x1 : S5000x66.Slices ![0, 64] S5000x1
  slices_S5000x66_o0_65_S5000x1 : S5000x66.Slices ![0, 65] S5000x1
  broadcasts_S5000x1_S5000x64 : S5000x1.Broadcasts S5000x64
  broadcasts_S1x64_S5000x64 : S1x64.Broadcasts S5000x64
  reduces_S5000x64_S5000 : S5000x64.Reduces [1] S5000
  shapeCasts_S5000_S5000x1 : S5000.ShapeCasts S5000x1
  gather_S100000x64_S1200000x1_S1200000x64_1_0_n_n_0_1_164_wf : GatherDims.WF S100000x64 S1200000x1 S1200000x64 [1] [0] [] [0] [] 1 ![1, 64]
  dot_S8000x64_S64x64_S8000x64_1_0_0_1_n_n_wf : DotDims.WF S8000x64 S64x64 S8000x64 [1] [0] [0] [1] [] []
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  gather_S1_S100000x1_S100000_n_0_n_n_0_1_1_wf : GatherDims.WF S1 S100000x1 S100000 [] [0] [] [0] [] 1 ![1]
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1200000x64.size a
  hwx0_0 : ∀ i : grid0.Coords, EltTy.bits .bf16 = 32 ∨ (Rect.block (s := S1200000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1200000x64.size a
  hwx0_1 : ∀ i : grid0.Coords, EltTy.bits .f32 = 32 ∨ (Rect.block (s := S1200000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S1200000x64.size a
  hwx0_7 : ∀ i : grid0.Coords, EltTy.bits .bf16 = 32 ∨ (Rect.block (s := S1200000x64) S8000x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x66.size a ≤ S100000x66.size a
  hwx1_1 : ∀ i : grid1.Coords, EltTy.bits .f32 = 32 ∨ (Rect.block (s := S100000x66) S5000x66.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x64.size a ≤ S100000x64.size a
  hwx1_12 : ∀ i : grid1.Coords, EltTy.bits .f32 = 32 ∨ (Rect.block (s := S100000x64) S5000x64.size (cc1_transform_12 i) (hinb1_12 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S1_S100000x1_S100000_n_0_n_n_0_1_1 : GatherDims S1 S100000x1 S100000 where
  offsetDims := []
  collapsedSliceDims := [0]
  operandBatchingDims := []
  startIndicesBatchingDims := []
  startIndexMap := [0]
  indexVectorDim := 1
  sliceSizes := ![1]
  wf := gather_S1_S100000x1_S100000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v11) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x66.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg13) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v38) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v39) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v40) S5000x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000x64 : Shape := ⟨2, ![1200000, 64]⟩
abbrev S1x1 : Shape := ⟨2, ![1, 1]⟩
abbrev S100000 : Shape := ⟨1, ![100000]⟩
abbrev S128x64 : Shape := ⟨2, ![128, 64]⟩
abbrev S64 : Shape := ⟨1, ![64]⟩
abbrev S129x64 : Shape := ⟨2, ![129, 64]⟩
abbrev S64x64 : Shape := ⟨2, ![64, 64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x128 : Shape := ⟨2, ![1200000, 128]⟩
abbrev S1x64 : Shape := ⟨2, ![1, 64]⟩
abbrev S100000x1 : Shape := ⟨2, ![100000, 1]⟩
abbrev S100000x129 : Shape := ⟨2, ![100000, 129]⟩

abbrev nBuf : Space → Nat
  | .hbm => 163
  | .vmem => 0
  | .smem => 0
  | _ => 0

abbrev hbmTy0_0 (i : Nat) : BufTy := match i % 128 with
  | 0 => ⟨S100000x64, .f32⟩
  | 1 => ⟨S2x1200000, .i32⟩
  | 2 => ⟨S1200000x64, .f32⟩
  | 3 => ⟨S1x1, .f32⟩
  | 4 => ⟨S100000, .i32⟩
  | 5 => ⟨S128x64, .f32⟩
  | 6 => ⟨S64, .f32⟩
  | 7 => ⟨S64, .f32⟩
  | 8 => ⟨S64, .f32⟩
  | 9 => ⟨S129x64, .f32⟩
  | 10 => ⟨S64, .f32⟩
  | 11 => ⟨S64, .f32⟩
  | 12 => ⟨S64, .f32⟩
  | 13 => ⟨S64x64, .f32⟩
  | 14 => ⟨S64, .f32⟩
  | 15 => ⟨S64, .f32⟩
  | 16 => ⟨S64, .f32⟩
  | 17 => ⟨S1x1200000, .i32⟩
  | 18 => ⟨S1200000, .i32⟩
  | 19 => ⟨S1x1200000, .i32⟩
  | 20 => ⟨S1200000, .i32⟩
  | 21 => ⟨S_, .i32⟩
  | 22 => ⟨S1200000, .i32⟩
  | 23 => ⟨S1200000, .i1⟩
  | 24 => ⟨S_, .i32⟩
  | 25 => ⟨S1200000, .i32⟩
  | 26 => ⟨S1200000, .i32⟩
  | 27 => ⟨S1200000, .i32⟩
  | 28 => ⟨S1200000x1, .i32⟩
  | 29 => ⟨S1200000x64, .f32⟩
  | 30 => ⟨S1200000x128, .f32⟩
  | 31 => ⟨S1200000x64, .f32⟩
  | 32 => ⟨S1x64, .f32⟩
  | 33 => ⟨S1200000x64, .f32⟩
  | 34 => ⟨S1200000x64, .f32⟩
  | 35 => ⟨S_, .f32⟩
  | 36 => ⟨S1200000x64, .f32⟩
  | 37 => ⟨S1200000x64, .f32⟩
  | 38 => ⟨S_, .f32⟩
  | 39 => ⟨S1200000, .f32⟩
  | 40 => ⟨S1200000x1, .f32⟩
  | 41 => ⟨S_, .f32⟩
  | 42 => ⟨S1200000x1, .f32⟩
  | 43 => ⟨S1200000x1, .f32⟩
  | 44 => ⟨S1200000x64, .f32⟩
  | 45 => ⟨S1200000x64, .f32⟩
  | 46 => ⟨S1200000x64, .f32⟩
  | 47 => ⟨S_, .f32⟩
  | 48 => ⟨S1200000, .f32⟩
  | 49 => ⟨S1200000x1, .f32⟩
  | 50 => ⟨S_, .f32⟩
  | 51 => ⟨S1200000x1, .f32⟩
  | 52 => ⟨S1200000x1, .f32⟩
  | 53 => ⟨S1200000x64, .f32⟩
  | 54 => ⟨S1200000x64, .f32⟩
  | 55 => ⟨S_, .f32⟩
  | 56 => ⟨S1200000x1, .f32⟩
  | 57 => ⟨S1200000x1, .f32⟩
  | 58 => ⟨S1200000x1, .f32⟩
  | 59 => ⟨S1200000x64, .f32⟩
  | 60 => ⟨S1200000x64, .f32⟩
  | 61 => ⟨S1x64, .f32⟩
  | 62 => ⟨S1200000x64, .f32⟩
  | 63 => ⟨S1200000x64, .f32⟩
  | 64 => ⟨S1x64, .f32⟩
  | 65 => ⟨S1200000x64, .f32⟩
  | 66 => ⟨S1200000x64, .f32⟩
  | 67 => ⟨S_, .f32⟩
  | 68 => ⟨S100000x64, .f32⟩
  | 69 => ⟨S1200000x1, .i32⟩
  | 70 => ⟨S100000x64, .f32⟩
  | 71 => ⟨S_, .f32⟩
  | 72 => ⟨S1200000, .f32⟩
  | 73 => ⟨S_, .f32⟩
  | 74 => ⟨S100000, .f32⟩
  | 75 => ⟨S1200000x1, .i32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x64, .f32⟩
  | 82 => ⟨S100000x64, .f32⟩
  | 83 => ⟨S_, .i32⟩
  | 84 => ⟨S100000, .i32⟩
  | 85 => ⟨S100000, .i1⟩
  | 86 => ⟨S_, .i32⟩
  | 87 => ⟨S100000, .i32⟩
  | 88 => ⟨S100000, .i32⟩
  | 89 => ⟨S100000, .i32⟩
  | 90 => ⟨S100000x1, .i32⟩
  | 91 => ⟨S100000x1, .f32⟩
  | 92 => ⟨S100000x129, .f32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S_, .f32⟩
  | 101 => ⟨S100000, .f32⟩
  | 102 => ⟨S100000x1, .f32⟩
  | 103 => ⟨S_, .f32⟩
  | 104 => ⟨S100000x1, .f32⟩
  | 105 => ⟨S100000x1, .f32⟩
  | 106 => ⟨S100000x64, .f32⟩
  | 107 => ⟨S100000x64, .f32⟩
  | 108 => ⟨S100000x64, .f32⟩
  | 109 => ⟨S_, .f32⟩
  | 110 => ⟨S100000, .f32⟩
  | 111 => ⟨S100000x1, .f32⟩
  | 112 => ⟨S_, .f32⟩
  | 113 => ⟨S100000x1, .f32⟩
  | 114 => ⟨S100000x1, .f32⟩
  | 115 => ⟨S100000x64, .f32⟩
  | 116 => ⟨S100000x64, .f32⟩
  | 117 => ⟨S_, .f32⟩
  | 118 => ⟨S100000x1, .f32⟩
  | 119 => ⟨S100000x1, .f32⟩
  | 120 => ⟨S100000x1, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000, .f32⟩
  | 7 => ⟨S100000x1, .f32⟩
  | 8 => ⟨S_, .f32⟩
  | 9 => ⟨S100000x1, .f32⟩
  | 10 => ⟨S100000x1, .f32⟩
  | 11 => ⟨S100000x64, .f32⟩
  | 12 => ⟨S100000x64, .f32⟩
  | 13 => ⟨S100000x64, .f32⟩
  | 14 => ⟨S_, .f32⟩
  | 15 => ⟨S100000, .f32⟩
  | 16 => ⟨S100000x1, .f32⟩
  | 17 => ⟨S_, .f32⟩
  | 18 => ⟨S100000x1, .f32⟩
  | 19 => ⟨S100000x1, .f32⟩
  | 20 => ⟨S100000x64, .f32⟩
  | 21 => ⟨S100000x64, .f32⟩
  | 22 => ⟨S_, .f32⟩
  | 23 => ⟨S100000x1, .f32⟩
  | 24 => ⟨S100000x1, .f32⟩
  | 25 => ⟨S100000x1, .f32⟩
  | 26 => ⟨S100000x64, .f32⟩
  | 27 => ⟨S100000x64, .f32⟩
  | 28 => ⟨S1x64, .f32⟩
  | 29 => ⟨S100000x64, .f32⟩
  | 30 => ⟨S100000x64, .f32⟩
  | 31 => ⟨S1x64, .f32⟩
  | 32 => ⟨S100000x64, .f32⟩
  | 33 => ⟨S100000x64, .f32⟩
  | 34 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call0_cst : Ref sig .tc := ⟨.hbm, 35, rfl⟩
abbrev main_call0_v0 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_9 : Ref sig .tc := ⟨.hbm, 83, rfl⟩
abbrev main_v53 : Ref sig .tc := ⟨.hbm, 84, rfl⟩
abbrev main_v54 : Ref sig .tc := ⟨.hbm, 85, rfl⟩
abbrev main_c_10 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call1_cst : Ref sig .tc := ⟨.hbm, 97, rfl⟩
abbrev main_call1_v0 : Ref sig .tc := ⟨.hbm, 98, rfl⟩
abbrev main_v65 : Ref sig .tc := ⟨.hbm, 99, rfl⟩
abbrev main_cst_11 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_13 : Ref sig .tc := ⟨.hbm, 109, rfl⟩
abbrev main_v73 : Ref sig .tc := ⟨.hbm, 110, rfl⟩
abbrev main_v74 : Ref sig .tc := ⟨.hbm, 111, rfl⟩
abbrev main_cst_14 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_16 : Ref sig .tc := ⟨.hbm, 133, rfl⟩
abbrev main_v94 : Ref sig .tc := ⟨.hbm, 134, rfl⟩
abbrev main_v95 : Ref sig .tc := ⟨.hbm, 135, rfl⟩
abbrev main_cst_17 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_18 : Ref sig .tc := ⟨.hbm, 142, rfl⟩
abbrev main_v101 : Ref sig .tc := ⟨.hbm, 143, rfl⟩
abbrev main_v102 : Ref sig .tc := ⟨.hbm, 144, rfl⟩
abbrev main_cst_19 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_20 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  concatenates_S1200000x64_S1200000x64_S1200000x128_d1 : Shape.Concatenates [S1200000x64, S1200000x64] S1200000x128 1
  bcast_S64_S1x64_1 : S64.BroadcastsInDim S1x64 (![1] : Fin 1 → Fin S1x64.rank)
  bcast_S1x64_S1200000x64_0_1 : S1x64.BroadcastsInDim S1200000x64 (![0, 1] : Fin 2 → Fin S1200000x64.rank)
  bcast_S_S1200000x64 : S_.BroadcastsInDim S1200000x64 (![] : Fin 0 → Fin S1200000x64.rank)
  reducesTo_S1200000x64_S1200000_d1 : S1200000x64.ReducesTo [1] S1200000
  h_S_ : 0 < S_.numel
  bcast_S_S1200000x1 : S_.BroadcastsInDim S1200000x1 (![] : Fin 0 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x1_S100000x129_d1 : Shape.Concatenates [S100000x64, S100000x64, S100000x1] S100000x129 1
  bcast_S1x64_S100000x64_0_1 : S1x64.BroadcastsInDim S100000x64 (![0, 1] : Fin 2 → Fin S100000x64.rank)
  reducesTo_S100000x64_S100000_d1 : S100000x64.ReducesTo [1] S100000
  bcast_S_S100000x1 : S_.BroadcastsInDim S100000x1 (![] : Fin 0 → Fin S100000x1.rank)
  gather_S100000x64_S1200000x1_S1200000x64_1_0_n_n_0_1_164_wf : GatherDims.WF S100000x64 S1200000x1 S1200000x64 [1] [0] [] [0] [] 1 ![1, 64]
  dot_S1200000x128_S128x64_S1200000x64_1_0_0_1_n_n_wf : DotDims.WF S1200000x128 S128x64 S1200000x64 [1] [0] [0] [1] [] []
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  gather_S1x1_S100000x1_S100000x1_1_0_n_n_0_1_11_wf : GatherDims.WF S1x1 S100000x1 S100000x1 [1] [0] [] [0] [] 1 ![1, 1]
  dot_S100000x129_S129x64_S100000x64_1_0_0_1_n_n_wf : DotDims.WF S100000x129 S129x64 S100000x64 [1] [0] [0] [1] [] []
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1200000x128_S128x64_S1200000x64_1_0_0_1_n_n : DotDims S1200000x128 S128x64 S1200000x64 where
  lhsContracting := [1]
  rhsContracting := [0]
  lhsNonContracting := [0]
  rhsNonContracting := [1]
  lhsBatch := []
  rhsBatch := []
  wf := dot_S1200000x128_S128x64_S1200000x64_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S1x1_S100000x1_S100000x1_1_0_n_n_0_1_11 : GatherDims S1x1 S100000x1 S100000x1 where
  offsetDims := [1]
  collapsedSliceDims := [0]
  operandBatchingDims := []
  startIndicesBatchingDims := []
  startIndexMap := [0]
  indexVectorDim := 1
  sliceSizes := ![1, 1]
  wf := gather_S1x1_S100000x1_S100000x1_1_0_n_n_0_1_11_wf
def dot_S100000x129_S129x64_S100000x64_1_0_0_1_n_n : DotDims S100000x129 S129x64 S100000x64 where
  lhsContracting := [1]
  rhsContracting := [0]
  lhsNonContracting := [0]
  rhsNonContracting := [1]
  lhsBatch := []
  rhsBatch := []
  wf := dot_S100000x129_S129x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Kernel.EdgeRegion.lean ====
/-
  The edge stage as one pipelined region, at any float instance: what each grid point finds in its staging
  buffers, what its body leaves there, and the body's obligation to the pipeline.

  The region streams 150 blocks of 8000 edges.  At a point the pipeline hands the body the point's block of
  gathered source features and of edge features, and the five small operands whole (two 64×64 weight halves,
  bias, gain, offset; fetched once, at the first point, and found in place afterwards).  The body loads all
  seven, computes one vector value and stores it over the whole output block; it also reads the output buffer
  once before storing, a value nothing uses.  So after the body every input buffer still holds its block and
  the output buffer holds that one value of the input blocks.  All of it is stated at a parameter `V`, the
  contents of the core's buffers when the region is entered.
-/
import proofs.«418484_j28518582846165_3_alg».proof.Proof.Gen.Kernel.Launch
import proofs.«418484_j28518582846165_3_alg».proof.Proof.Gen.Kernel.Skeleton
import proofs.«418484_j28518582846165_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the pipeline fetched it there
    or left it from an earlier point (then its index has not moved), for any proof data whose array is `V`'s and
    whose body leaves the block in place.  One statement per input window. -/

theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)

/-! ## The body's accesses -/

/-- The whole 8000×64 block, the whole 64×64 weight half, the whole 1×64 row: every load and the store address one
    of these. -/
abbrev rEdge : Rect S8000x64 := Rect.unit (s := S8000x64) ![0, 0] S8000x64.size inb_S8000x64_S8000x64_0_0
abbrev rW : Rect S64x64 := Rect.unit (s := S64x64) ![0, 0] S64x64.size inb_S64x64_S64x64_0_0
abbrev rRow : Rect S1x64 := Rect.unit (s := S1x64) ![0, 0] S1x64.size inb_S1x64_S1x64_0_0

/-! ## What the body leaves in the output window's buffer -/

/-- The output block after the body, from the seven input blocks: its one store, over the whole block, of the
    body's value of the loaded blocks. -/
def edgeOut (x0 : Vec F S8000x64 .bf16) (x1 : Vec F S8000x64 .f32) (x2 x3 : Vec F S64x64 .f32) (x4 x5 x6 : Vec F S1x64 .f32) :
    Vec F S8000x64 .bf16 :=
  View.canon [⟨rEdge, k0_pay1 (k0_pay2 (View.ld x0 rEdge) (View.ld x1 rEdge) (View.ld x2 rW) (View.ld x3 rW) (View.ld x4 rRow) (View.ld x5 rRow)) (View.ld x6 rRow)⟩]

/-- The one store tiles the block, so it covers it. -/
theorem edgeCover (p0 : Vec F S8000x64 .bf16) (y : S8000x64.Idx) :
    ∃ pc ∈ ([⟨rEdge, p0⟩] : List (View.Piece (Elt F) S8000x64 .bf16)), y ∈ pc.1.set :=
  View.cover_of_tiled [⟨rEdge, p0⟩] S8000x64.size (by rfl) y

/-! ## The body's triple -/

set_option maxHeartbeats 4000000 in
/-- The body on whole staging buffers — the inputs' at contents `xW`, the output's at anything — runs to a state
    holding the inputs' as they were and the output's at `edgeOut` of the inputs'. -/
theorem edge_sound_kernel (c : Dev nD) (E : Set ℕ) (i : grid0.Coords)
    (arg1 : Memref sig .tc .vmem S8000x64 .bf16) (harg1 : arg1.IsWhole) (arg2 : Memref sig .tc .vmem S8000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S8000x64 .bf16) (harg8 : arg8.IsWhole)
    (x0 : Vec F S8000x64 .bf16) (x1 : Vec F S8000x64 .f32) (x2 x3 : Vec F S64x64 .f32) (x4 x5 x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (edgeOut x0 x1 x2 x3 x4 x5 x6)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (edgeCover _)

/-! ## The pipeline's proof data -/

/-- The proof data of the edge pipeline on core `c`: the arrays as the region finds them; after the body at point
    `t` each input's buffer at its block and the output's at `edgeOut` of the input blocks; the invariant is the
    scoped rest and the generator register, untouched; nothing owed; full shares. -/
def edgeDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => edgeOut (blk0 V c 0 t) (blk0 V c 1 t) (blk0 V c 2 t) (blk0 V c 3 t) (blk0 V c 4 t) (blk0 V c 5 t) (blk0 V c 6 t)
  Φ _ := Pipeline.ΦA spec0 c
  q _ := fullShare
  owed _ := 0

/-- The proof data's arrays are the region-entry contents. -/
theorem edgeDat_A (c : Dev nD) (w : Fin cfg0.W) : (edgeDat V c).A w = V c (Pipeline.arrRef spec0 w) := by
  dsimp only [edgeDat]

/-- What the body leaves, window by window. -/
theorem edgeAfter_0 (c : Dev nD) (t : Fin cfg0.N) : (edgeDat V c).after 0 t = blk0 V c 0 t := by dsimp only [edgeDat]
theorem edgeAfter_1 (c : Dev nD) (t : Fin cfg0.N) : (edgeDat V c).after 1 t = blk0 V c 1 t := by dsimp only [edgeDat]
theorem edgeAfter_2 (c : Dev nD) (t : Fin cfg0.N) : (edgeDat V c).after 2 t = blk0 V c 2 t := by dsimp only [edgeDat]
theorem edgeAfter_3 (c : Dev nD) (t : Fin cfg0.N) : (edgeDat V c).after 3 t = blk0 V c 3 t := by dsimp only [edgeDat]
theorem edgeAfter_4 (c : Dev nD) (t : Fin cfg0.N) : (edgeDat V c).after 4 t = blk0 V c 4 t := by dsimp only [edgeDat]
theorem edgeAfter_5 (c : Dev nD) (t : Fin cfg0.N) : (edgeDat V c).after 5 t = blk0 V c 5 t := by dsimp only [edgeDat]
theorem edgeAfter_6 (c : Dev nD) (t : Fin cfg0.N) : (edgeDat V c).after 6 t = blk0 V c 6 t := by dsimp only [edgeDat]
theorem edgeAfter_7 (c : Dev nD) (t : Fin cfg0.N) : (edgeDat V c).after 7 t
    = edgeOut (blk0 V c 0 t) (blk0 V c 1 t) (blk0 V c 2 t) (blk0 V c 3 t) (blk0 V c 4 t) (blk0 V c 5 t) (blk0 V c 6 t) := by dsimp only [edgeDat]

/-- Each input's current staging buffer holds its block at every point. -/
theorem edgeBefore_0 (c : Dev nD) (t : Fin cfg0.N) (d) : (edgeDat V c).before 0 t d = blk0 V c 0 t :=
  before0_0_of V (edgeDat V c) (edgeDat_A V c 0) (edgeAfter_0 V c) t d
theorem edgeBefore_1 (c : Dev nD) (t : Fin cfg0.N) (d) : (edgeDat V c).before 1 t d = blk0 V c 1 t :=
  before0_1_of V (edgeDat V c) (edgeDat_A V c 1) (edgeAfter_1 V c) t d
theorem edgeBefore_2 (c : Dev nD) (t : Fin cfg0.N) (d) : (edgeDat V c).before 2 t d = blk0 V c 2 t :=
  before0_2_of V (edgeDat V c) (edgeDat_A V c 2) (edgeAfter_2 V c) t d
theorem edgeBefore_3 (c : Dev nD) (t : Fin cfg0.N) (d) : (edgeDat V c).before 3 t d = blk0 V c 3 t :=
  before0_3_of V (edgeDat V c) (edgeDat_A V c 3) (edgeAfter_3 V c) t d
theorem edgeBefore_4 (c : Dev nD) (t : Fin cfg0.N) (d) : (edgeDat V c).before 4 t d = blk0 V c 4 t :=
  before0_4_of V (edgeDat V c) (edgeDat_A V c 4) (edgeAfter_4 V c) t d
theorem edgeBefore_5 (c : Dev nD) (t : Fin cfg0.N) (d) : (edgeDat V c).before 5 t d = blk0 V c 5 t :=
  before0_5_of V (edgeDat V c) (edgeDat_A V c 5) (edgeAfter_5 V c) t d
theorem edgeBefore_6 (c : Dev nD) (t : Fin cfg0.N) (d) : (edgeDat V c).before 6 t d = blk0 V c 6 t :=
  before0_6_of V (edgeDat V c) (edgeDat_A V c 6) (edgeAfter_6 V c) t d

/-! ## The body obligation, at a generic point -/

/-- What the body is called with at point `t`, the windows one by one, -/
def edgeBodyPre (c : Dev nD) (t : Fin cfg0.N) : sProp 𝕄 :=
  iprop((edgeDat V c).Φ t.castSucc ∗ (edgeDat V c).owesAt () t.castSucc
    ∗ (∃ d, owns (c : Thread nD τ) (st0_0 t) fullShare ((edgeDat V c).before 0 t d))
    ∗ (∃ d, owns (c : Thread nD τ) (st0_1 t) fullShare ((edgeDat V c).before 1 t d))
    ∗ (∃ d, owns (c : Thread nD τ) (st0_2 t) fullShare ((edgeDat V c).before 2 t d))
    ∗ (∃ d, owns (c : Thread nD τ) (st0_3 t) fullShare ((edgeDat V c).before 3 t d))
    ∗ (∃ d, owns (c : Thread nD τ) (st0_4 t) fullShare ((edgeDat V c).before 4 t d))
    ∗ (∃ d, owns (c : Thread nD τ) (st0_5 t) fullShare ((edgeDat V c).before 5 t d))
    ∗ (∃ d, owns (c : Thread nD τ) (st0_6 t) fullShare ((edgeDat V c).before 6 t d))
    ∗ (∃ d, owns (c : Thread nD τ) (st0_7 t) fullShare ((edgeDat V c).before 7 t d)))

/-- and what it returns. -/
def edgeBodyPost (c : Dev nD) (t : Fin cfg0.N) : sProp 𝕄 :=
  iprop((edgeDat V c).Φ t.succ ∗ (edgeDat V c).owesAt () t.succ
    ∗ owns (c : Thread nD τ) (st0_0 t) fullShare ((edgeDat V c).after 0 t)
    ∗ owns (c : Thread nD τ) (st0_1 t) fullShare ((edgeDat V c).after 1 t)
    ∗ owns (c : Thread nD τ) (st0_2 t) fullShare ((edgeDat V c).after 2 t)
    ∗ owns (c : Thread nD τ) (st0_3 t) fullShare ((edgeDat V c).after 3 t)
    ∗ owns (c : Thread nD τ) (st0_4 t) fullShare ((edgeDat V c).after 4 t)
    ∗ owns (c : Thread nD τ) (st0_5 t) fullShare ((edgeDat V c).after 5 t)
    ∗ owns (c : Thread nD τ) (st0_6 t) fullShare ((edgeDat V c).after 6 t)
    ∗ owns (c : Thread nD τ) (st0_7 t) fullShare ((edgeDat V c).after 7 t))

/-- The body at any point: the inputs' buffers hold their blocks, so the body's triple applies; the invariant and the
    core's dues pass through unread. -/
theorem edge_sound_body (c : Dev nD) (t : Fin cfg0.N) :
    edgeBodyPre V c t ⊢ wp frame (wpE (defs₀ (F := F)) Variants.none c none) Set.univ (bodyAt0 t) (fun _ => edgeBodyPost V c t) := by
  unfold edgeBodyPre edgeBodyPost bodyAt0
  simp only [edgeBefore_0, edgeBefore_1, edgeBefore_2, edgeBefore_3, edgeBefore_4, edgeBefore_5, edgeBefore_6]
  rw [show (edgeDat V c).Φ t.succ = (edgeDat V c).Φ t.castSucc from rfl,
    show (edgeDat V c).owesAt () t.succ = (edgeDat V c).owesAt () t.castSucc from rfl,
    edgeAfter_0, edgeAfter_1, edgeAfter_2, edgeAfter_3, edgeAfter_4, edgeAfter_5, edgeAfter_6, edgeAfter_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (edge_sound_kernel c Set.univ _ _ _ _ _ _ _ _ _ _ _ _ _ _ _ _ _ (blk0 V c 0 t) (blk0 V c 1 t) (blk0 V c 2 t) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem edge_body_obligation (c : Dev nD) : BodyObligation (edgeDat (F := F) V c) (defs₀ (F := F)) Variants.none () Set.univ := fun t => by
  rw [bigSep_W0, bigSep_W0]
  exact edge_sound_body V c t

end Cert.Kernel.Regions

end
-- ==== Proof.Kernel.NodeRegion.lean ====
/-
  The node stage as one pipelined region, at any float instance: what each grid point finds in its staging
  buffers, what its body leaves there, and the body's obligation to the pipeline.

  The region streams 20 blocks of 5000 nodes.  At a point the pipeline hands the body the point's block of node
  features and of the packed operand (64 lanes of summed messages, the edge count, the global scalar), and the ten
  small operands whole (two 64×64 pieces of the first weight, its last row, bias, gain, offset; the second weight,
  its bias, gain, offset; fetched once, at the first point, and found in place afterwards).  The body loads all
  twelve, computes one vector value and stores it over the whole output block; it also reads the output buffer
  once before storing, a value nothing uses.  So after the body every input buffer still holds its block and the
  output buffer holds that one value of the input blocks.  All of it is stated at a parameter `V`, the contents
  of the core's buffers when the region is entered.
-/
import proofs.«418484_j28518582846165_3_alg».proof.Proof.Gen.Kernel.Launch
import proofs.«418484_j28518582846165_3_alg».proof.Proof.Gen.Kernel.Skeleton
import proofs.«418484_j28518582846165_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched it there
    or left it from an earlier point (then its index has not moved), for any proof data whose array is `V`'s and
    whose body leaves the block in place.  One statement per input window. -/

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = blk1 V c 8 t) (t : Fin cfg1.N) (d) : dat.before 8 t d = blk1 V c 8 t :=
  (dat.before_in_eq_fetched 8 rfl (fun _ => rfl) (fun _ _ _ => rfl) (fun t => by rw [hafter]; unfold Dat.blockOf blk1; rw [hA]; try rfl) t d).trans
    (by unfold Dat.fetched Dat.blockOf blk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = blk1 V c 9 t) (t : Fin cfg1.N) (d) : dat.before 9 t d = blk1 V c 9 t :=
  (dat.before_in_eq_fetched 9 rfl (fun _ => rfl) (fun _ _ _ => rfl) (fun t => by rw [hafter]; unfold Dat.blockOf blk1; rw [hA]; try rfl) t d).trans
    (by unfold Dat.fetched Dat.blockOf blk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = blk1 V c 10 t) (t : Fin cfg1.N) (d) : dat.before 10 t d = blk1 V c 10 t :=
  (dat.before_in_eq_fetched 10 rfl (fun _ => rfl) (fun _ _ _ => rfl) (fun t => by rw [hafter]; unfold Dat.blockOf blk1; rw [hA]; try rfl) t d).trans
    (by unfold Dat.fetched Dat.blockOf blk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = blk1 V c 11 t) (t : Fin cfg1.N) (d) : dat.before 11 t d = blk1 V c 11 t :=
  (dat.before_in_eq_fetched 11 rfl (fun _ => rfl) (fun _ _ _ => rfl) (fun t => by rw [hafter]; unfold Dat.blockOf blk1; rw [hA]; try rfl) t d).trans
    (by unfold Dat.fetched Dat.blockOf blk1; rw [hA]; try rfl)

/-! ## The body's accesses -/

/-- The whole 5000×64 block, the whole 5000×66 packed block, the whole 64×64 weight piece, the whole 1×64 row: every
    load and the store address one of these. -/
abbrev rNode : Rect S5000x64 := Rect.unit (s := S5000x64) ![0, 0] S5000x64.size inb_S5000x64_S5000x64_0_0
abbrev rPacked : Rect S5000x66 := Rect.unit (s := S5000x66) ![0, 0] S5000x66.size inb_S5000x66_S5000x66_0_0
abbrev rW1 : Rect S64x64 := Rect.unit (s := S64x64) ![0, 0] S64x64.size inb_S64x64_S64x64_0_0
abbrev rRow1 : Rect S1x64 := Rect.unit (s := S1x64) ![0, 0] S1x64.size inb_S1x64_S1x64_0_0

/-! ## What the body leaves in the output window's buffer -/

/-- The output block after the body, from the twelve input blocks: its one store, over the whole block, of the
    body's value of the loaded blocks. -/
def nodeOut (x0 : Vec F S5000x64 .f32) (x1 : Vec F S5000x66 .f32) (x2 x3 : Vec F S64x64 .f32) (x4 x5 x6 x7 : Vec F S1x64 .f32)
    (x8 : Vec F S64x64 .f32) (x9 x10 x11 : Vec F S1x64 .f32) : Vec F S5000x64 .f32 :=
  View.canon [⟨rNode, k1_pay1 (View.ld x0 rNode)
    (k1_pay4 (k1_pay2 (View.ld x0 rNode) (View.ld x1 rPacked) (View.ld x2 rW1) (View.ld x3 rW1) (View.ld x4 rRow1) (View.ld x5 rRow1))
      (k1_pay3 (View.ld x0 rNode) (View.ld x1 rPacked) (View.ld x2 rW1) (View.ld x3 rW1) (View.ld x4 rRow1) (View.ld x5 rRow1))
      (View.ld x6 rRow1) (View.ld x7 rRow1) (View.ld x8 rW1) (View.ld x9 rRow1))
    (View.ld x10 rRow1) (View.ld x11 rRow1)⟩]

/-- The one store tiles the block, so it covers it. -/
theorem nodeCover (p0 : Vec F S5000x64 .f32) (y : S5000x64.Idx) :
    ∃ pc ∈ ([⟨rNode, p0⟩] : List (View.Piece (Elt F) S5000x64 .f32)), y ∈ pc.1.set :=
  View.cover_of_tiled [⟨rNode, p0⟩] S5000x64.size (by rfl) y

/-! ## The body's triple -/

set_option maxHeartbeats 8000000 in
/-- The body on whole staging buffers — the inputs' at contents `xW`, the output's at anything — runs to a state
    holding the inputs' as they were and the output's at `nodeOut` of the inputs'. -/
theorem node_sound_kernel (c : Dev nD) (E : Set ℕ) (i : grid1.Coords)
    (arg1 : Memref sig .tc .vmem S5000x64 .f32) (harg1 : arg1.IsWhole) (arg2 : Memref sig .tc .vmem S5000x66 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S64x64 .f32) (harg9 : arg9.IsWhole) (arg10 : Memref sig .tc .vmem S1x64 .f32) (harg10 : arg10.IsWhole)
    (arg11 : Memref sig .tc .vmem S1x64 .f32) (harg11 : arg11.IsWhole) (arg12 : Memref sig .tc .vmem S1x64 .f32) (harg12 : arg12.IsWhole)
    (arg13 : Memref sig .tc .vmem S5000x64 .f32) (harg13 : arg13.IsWhole)
    (x0 : Vec F S5000x64 .f32) (x1 : Vec F S5000x66 .f32) (x2 x3 : Vec F S64x64 .f32) (x4 x5 x6 x7 : Vec F S1x64 .f32)
    (x8 : Vec F S64x64 .f32) (x9 x10 x11 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare (nodeOut x0 x1 x2 x3 x4 x5 x6 x7 x8 x9 x10 x11)) -∗ K ⟨⟩))
      ⊢ wp frame (wpE (defs₀ (F := F)) Variants.none c none) E
          (cc1__node_kernel i arg1 harg1 arg2 harg2 arg3 harg3 arg4 harg4 arg5 harg5 arg6 harg6 arg7 harg7 arg8 harg8 arg9 harg9
            arg10 harg10 arg11 harg11 arg12 harg12 arg13 harg13) K := by
  simp only [cc1__node_kernel_eq_skeleton]; unfold cc1__node_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (nodeCover _)

/-! ## The pipeline's proof data -/

/-- The proof data of the node pipeline on core `c`: the arrays as the region finds them; after the body at point
    `t` each input's buffer at its block and the output's at `nodeOut` of the input blocks; the invariant is the
    scoped rest and the generator register, untouched; nothing owed; full shares. -/
def nodeDat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => blk1 V c 11 t
    | ⟨12, _⟩ => nodeOut (blk1 V c 0 t) (blk1 V c 1 t) (blk1 V c 2 t) (blk1 V c 3 t) (blk1 V c 4 t) (blk1 V c 5 t) (blk1 V c 6 t)
        (blk1 V c 7 t) (blk1 V c 8 t) (blk1 V c 9 t) (blk1 V c 10 t) (blk1 V c 11 t)
  Φ _ := Pipeline.ΦA spec1 c
  q _ := fullShare
  owed _ := 0

/-- The proof data's arrays are the region-entry contents. -/
theorem nodeDat_A (c : Dev nD) (w : Fin cfg1.W) : (nodeDat V c).A w = V c (Pipeline.arrRef spec1 w) := by
  dsimp only [nodeDat]

/-- What the body leaves, window by window. -/
theorem nodeAfter_0 (c : Dev nD) (t : Fin cfg1.N) : (nodeDat V c).after 0 t = blk1 V c 0 t := by dsimp only [nodeDat]
theorem nodeAfter_1 (c : Dev nD) (t : Fin cfg1.N) : (nodeDat V c).after 1 t = blk1 V c 1 t := by dsimp only [nodeDat]
theorem nodeAfter_2 (c : Dev nD) (t : Fin cfg1.N) : (nodeDat V c).after 2 t = blk1 V c 2 t := by dsimp only [nodeDat]
theorem nodeAfter_3 (c : Dev nD) (t : Fin cfg1.N) : (nodeDat V c).after 3 t = blk1 V c 3 t := by dsimp only [nodeDat]
theorem nodeAfter_4 (c : Dev nD) (t : Fin cfg1.N) : (nodeDat V c).after 4 t = blk1 V c 4 t := by dsimp only [nodeDat]
theorem nodeAfter_5 (c : Dev nD) (t : Fin cfg1.N) : (nodeDat V c).after 5 t = blk1 V c 5 t := by dsimp only [nodeDat]
theorem nodeAfter_6 (c : Dev nD) (t : Fin cfg1.N) : (nodeDat V c).after 6 t = blk1 V c 6 t := by dsimp only [nodeDat]
theorem nodeAfter_7 (c : Dev nD) (t : Fin cfg1.N) : (nodeDat V c).after 7 t = blk1 V c 7 t := by dsimp only [nodeDat]
theorem nodeAfter_8 (c : Dev nD) (t : Fin cfg1.N) : (nodeDat V c).after 8 t = blk1 V c 8 t := by dsimp only [nodeDat]
theorem nodeAfter_9 (c : Dev nD) (t : Fin cfg1.N) : (nodeDat V c).after 9 t = blk1 V c 9 t := by dsimp only [nodeDat]
theorem nodeAfter_10 (c : Dev nD) (t : Fin cfg1.N) : (nodeDat V c).after 10 t = blk1 V c 10 t := by dsimp only [nodeDat]
theorem nodeAfter_11 (c : Dev nD) (t : Fin cfg1.N) : (nodeDat V c).after 11 t = blk1 V c 11 t := by dsimp only [nodeDat]
theorem nodeAfter_12 (c : Dev nD) (t : Fin cfg1.N) : (nodeDat V c).after 12 t
    = nodeOut (blk1 V c 0 t) (blk1 V c 1 t) (blk1 V c 2 t) (blk1 V c 3 t) (blk1 V c 4 t) (blk1 V c 5 t) (blk1 V c 6 t)
        (blk1 V c 7 t) (blk1 V c 8 t) (blk1 V c 9 t) (blk1 V c 10 t) (blk1 V c 11 t) := by dsimp only [nodeDat]

/-- Each input's current staging buffer holds its block at every point. -/
theorem nodeBefore_0 (c : Dev nD) (t : Fin cfg1.N) (d) : (nodeDat V c).before 0 t d = blk1 V c 0 t :=
  before1_0_of V (nodeDat V c) (nodeDat_A V c 0) (nodeAfter_0 V c) t d
theorem nodeBefore_1 (c : Dev nD) (t : Fin cfg1.N) (d) : (nodeDat V c).before 1 t d = blk1 V c 1 t :=
  before1_1_of V (nodeDat V c) (nodeDat_A V c 1) (nodeAfter_1 V c) t d
theorem nodeBefore_2 (c : Dev nD) (t : Fin cfg1.N) (d) : (nodeDat V c).before 2 t d = blk1 V c 2 t :=
  before1_2_of V (nodeDat V c) (nodeDat_A V c 2) (nodeAfter_2 V c) t d
theorem nodeBefore_3 (c : Dev nD) (t : Fin cfg1.N) (d) : (nodeDat V c).before 3 t d = blk1 V c 3 t :=
  before1_3_of V (nodeDat V c) (nodeDat_A V c 3) (nodeAfter_3 V c) t d
theorem nodeBefore_4 (c : Dev nD) (t : Fin cfg1.N) (d) : (nodeDat V c).before 4 t d = blk1 V c 4 t :=
  before1_4_of V (nodeDat V c) (nodeDat_A V c 4) (nodeAfter_4 V c) t d
theorem nodeBefore_5 (c : Dev nD) (t : Fin cfg1.N) (d) : (nodeDat V c).before 5 t d = blk1 V c 5 t :=
  before1_5_of V (nodeDat V c) (nodeDat_A V c 5) (nodeAfter_5 V c) t d
theorem nodeBefore_6 (c : Dev nD) (t : Fin cfg1.N) (d) : (nodeDat V c).before 6 t d = blk1 V c 6 t :=
  before1_6_of V (nodeDat V c) (nodeDat_A V c 6) (nodeAfter_6 V c) t d
theorem nodeBefore_7 (c : Dev nD) (t : Fin cfg1.N) (d) : (nodeDat V c).before 7 t d = blk1 V c 7 t :=
  before1_7_of V (nodeDat V c) (nodeDat_A V c 7) (nodeAfter_7 V c) t d
theorem nodeBefore_8 (c : Dev nD) (t : Fin cfg1.N) (d) : (nodeDat V c).before 8 t d = blk1 V c 8 t :=
  before1_8_of V (nodeDat V c) (nodeDat_A V c 8) (nodeAfter_8 V c) t d
theorem nodeBefore_9 (c : Dev nD) (t : Fin cfg1.N) (d) : (nodeDat V c).before 9 t d = blk1 V c 9 t :=
  before1_9_of V (nodeDat V c) (nodeDat_A V c 9) (nodeAfter_9 V c) t d
theorem nodeBefore_10 (c : Dev nD) (t : Fin cfg1.N) (d) : (nodeDat V c).before 10 t d = blk1 V c 10 t :=
  before1_10_of V (nodeDat V c) (nodeDat_A V c 10) (nodeAfter_10 V c) t d
theorem nodeBefore_11 (c : Dev nD) (t : Fin cfg1.N) (d) : (nodeDat V c).before 11 t d = blk1 V c 11 t :=
  before1_11_of V (nodeDat V c) (nodeDat_A V c 11) (nodeAfter_11 V c) t d

/-! ## The body obligation, at a generic point -/

/-- What the body is called with at point `t`, the windows one by one, -/
def nodeBodyPre (c : Dev nD) (t : Fin cfg1.N) : sProp 𝕄 :=
  iprop((nodeDat V c).Φ t.castSucc ∗ (nodeDat V c).owesAt () t.castSucc
    ∗ (∃ d, owns (c : Thread nD τ) (st1_0 t) fullShare ((nodeDat V c).before 0 t d))
    ∗ (∃ d, owns (c : Thread nD τ) (st1_1 t) fullShare ((nodeDat V c).before 1 t d))
    ∗ (∃ d, owns (c : Thread nD τ) (st1_2 t) fullShare ((nodeDat V c).before 2 t d))
    ∗ (∃ d, owns (c : Thread nD τ) (st1_3 t) fullShare ((nodeDat V c).before 3 t d))
    ∗ (∃ d, owns (c : Thread nD τ) (st1_4 t) fullShare ((nodeDat V c).before 4 t d))
    ∗ (∃ d, owns (c : Thread nD τ) (st1_5 t) fullShare ((nodeDat V c).before 5 t d))
    ∗ (∃ d, owns (c : Thread nD τ) (st1_6 t) fullShare ((nodeDat V c).before 6 t d))
    ∗ (∃ d, owns (c : Thread nD τ) (st1_7 t) fullShare ((nodeDat V c).before 7 t d))
    ∗ (∃ d, owns (c : Thread nD τ) (st1_8 t) fullShare ((nodeDat V c).before 8 t d))
    ∗ (∃ d, owns (c : Thread nD τ) (st1_9 t) fullShare ((nodeDat V c).before 9 t d))
    ∗ (∃ d, owns (c : Thread nD τ) (st1_10 t) fullShare ((nodeDat V c).before 10 t d))
    ∗ (∃ d, owns (c : Thread nD τ) (st1_11 t) fullShare ((nodeDat V c).before 11 t d))
    ∗ (∃ d, owns (c : Thread nD τ) (st1_12 t) fullShare ((nodeDat V c).before 12 t d)))

/-- and what it returns. -/
def nodeBodyPost (c : Dev nD) (t : Fin cfg1.N) : sProp 𝕄 :=
  iprop((nodeDat V c).Φ t.succ ∗ (nodeDat V c).owesAt () t.succ
    ∗ owns (c : Thread nD τ) (st1_0 t) fullShare ((nodeDat V c).after 0 t)
    ∗ owns (c : Thread nD τ) (st1_1 t) fullShare ((nodeDat V c).after 1 t)
    ∗ owns (c : Thread nD τ) (st1_2 t) fullShare ((nodeDat V c).after 2 t)
    ∗ owns (c : Thread nD τ) (st1_3 t) fullShare ((nodeDat V c).after 3 t)
    ∗ owns (c : Thread nD τ) (st1_4 t) fullShare ((nodeDat V c).after 4 t)
    ∗ owns (c : Thread nD τ) (st1_5 t) fullShare ((nodeDat V c).after 5 t)
    ∗ owns (c : Thread nD τ) (st1_6 t) fullShare ((nodeDat V c).after 6 t)
    ∗ owns (c : Thread nD τ) (st1_7 t) fullShare ((nodeDat V c).after 7 t)
    ∗ owns (c : Thread nD τ) (st1_8 t) fullShare ((nodeDat V c).after 8 t)
    ∗ owns (c : Thread nD τ) (st1_9 t) fullShare ((nodeDat V c).after 9 t)
    ∗ owns (c : Thread nD τ) (st1_10 t) fullShare ((nodeDat V c).after 10 t)
    ∗ owns (c : Thread nD τ) (st1_11 t) fullShare ((nodeDat V c).after 11 t)
    ∗ owns (c : Thread nD τ) (st1_12 t) fullShare ((nodeDat V c).after 12 t))

/-- The body at any point: the inputs' buffers hold their blocks, so the body's triple applies; the invariant and the
    core's dues pass through unread. -/
theorem node_sound_body (c : Dev nD) (t : Fin cfg1.N) :
    nodeBodyPre V c t ⊢ wp frame (wpE (defs₀ (F := F)) Variants.none c none) Set.univ (bodyAt1 t) (fun _ => nodeBodyPost V c t) := by
  unfold nodeBodyPre nodeBodyPost bodyAt1
  simp only [nodeBefore_0, nodeBefore_1, nodeBefore_2, nodeBefore_3, nodeBefore_4, nodeBefore_5, nodeBefore_6, nodeBefore_7,
    nodeBefore_8, nodeBefore_9, nodeBefore_10, nodeBefore_11]
  rw [show (nodeDat V c).Φ t.succ = (nodeDat V c).Φ t.castSucc from rfl,
    show (nodeDat V c).owesAt () t.succ = (nodeDat V c).owesAt () t.castSucc from rfl,
    nodeAfter_0, nodeAfter_1, nodeAfter_2, nodeAfter_3, nodeAfter_4, nodeAfter_5, nodeAfter_6, nodeAfter_7, nodeAfter_8,
    nodeAfter_9, nodeAfter_10, nodeAfter_11, nodeAfter_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (node_sound_kernel c Set.univ _ _ _ _ _ _ _ _ _ _ _ _ _ _ _ _ _ _ _ _ _ _ _ _ _ _ _
    (blk1 V c 0 t) (blk1 V c 1 t) (blk1 V c 2 t) (blk1 V c 3 t) (blk1 V c 4 t) (blk1 V c 5 t) (blk1 V c 6 t) (blk1 V c 7 t)
    (blk1 V c 8 t) (blk1 V c 9 t) (blk1 V c 10 t) (blk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem node_body_obligation (c : Dev nD) : BodyObligation (nodeDat (F := F) V c) (defs₀ (F := F)) Variants.none () Set.univ := fun t => by
  rw [bigSep_W1, bigSep_W1]
  exact node_sound_body V c t

end Cert.Kernel.Regions

end
-- ==== Proof.Kernel.WholeRun.lean ====
/-
  The whole program as a run, at any float instance: @main is six segments — a stretch of host operations, the
  edge region, three stretches of host operations, the node region — and every weakly fair execution of it ends
  with each unscoped buffer of a core holding a value named here.

  Between two segments a core holds every unscoped buffer whole: at launch its launch contents; after a host
  stretch what the stretch's operations compute from the contents before it; after a region the contents before
  it except the region's output array, which holds what the pipeline's write-backs leave (the fold of the grid
  points' output blocks).  Beside the buffers ride the core's generator register, at some state, and its dues, at
  nothing.  A region takes its windows' arrays out of the unscoped buffers on entry and puts them back on exit;
  an input window's array comes back as it went in.
-/
import proofs.«418484_j28518582846165_3_alg».proof.Proof.Kernel.EdgeRegion
import proofs.«418484_j28518582846165_3_alg».proof.Proof.Kernel.NodeRegion
import proofs.«418484_j28518582846165_3_alg».proof.Proof.Gen.Kernel.Regions

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two regions -/

/-- What the edge region is entered from, read at the TensorCore's references. -/
abbrev entryE : (c : Dev nD) → (b : Ref sig .tc) → Buf (Elt F) ((c : Thread nD τ).loc b) := fun c b => V1 m c b

/-- What the edge region leaves: each of its windows' arrays at what the pipeline's write-backs leave there. -/
def leftE : Outs (F := F) := fun _ r c =>
  Pipeline.withArrays spec0 c (V1 m c) (fun w => (edgeDat (entryE m) c).arrAt w cfg0.N) (Proc.devRef .tc r)

/-- What the node region is entered from, read at the TensorCore's references. -/
abbrev entryN : (c : Dev nD) → (b : Ref sig .tc) → Buf (Elt F) ((c : Thread nD τ).loc b) := fun c b => V5 m (leftE m) c b

/-- What the two regions leave: the edge region's as above, the node region's likewise from its own entry. -/
def leftAll : Outs (F := F) := fun J r c =>
  if J = 6 then Pipeline.withArrays spec1 c (V5 m (leftE m) c) (fun w => (nodeDat (entryN m) c).arrAt w cfg1.N) (Proc.devRef .tc r)
  else leftE m J r c

theorem leftAll_two (r : Ref sig .tc) (c : Dev nD) : leftAll m 2 r c = leftE m 2 r c := if_neg (by decide)

theorem leftAll_six (r : Ref sig .tc) (c : Dev nD) : leftAll m 6 r c
    = Pipeline.withArrays spec1 c (V5 m (leftE m) c) (fun w => (nodeDat (entryN m) c).arrAt w cfg1.N) (Proc.devRef .tc r) := if_pos rfl

/-- The contents before the node region do not depend on what the node region leaves. -/
theorem V5_leftAll (c : Dev nD) : V5 m (leftAll m) c = V5 m (leftE m) c := by
  dsimp only [V5, V4, V3, V2]
  rw [leftAll_two]

/-- The contents the two regions are left at, read at the TensorCore's references. -/
abbrev exitE : (c : Dev nD) → (b : Ref sig .tc) → Buf (Elt F) ((c : Thread nD τ).loc b) := fun c b => V2 m (leftAll m) c b
abbrev exitN : (c : Dev nD) → (b : Ref sig .tc) → Buf (Elt F) ((c : Thread nD τ).loc b) := fun c b => V6 m (leftAll m) c b

/-- The edge region's output array after the region is what the write-backs leave. -/
theorem exitE_out (c : Dev nD) : V2 m (leftAll m) c main_v17 = (edgeDat (entryE m) c).arrAt 7 cfg0.N := by
  show Function.update (V1 m c) (Proc.devRef .tc main_v17) (leftAll m 2 main_v17 c) (Proc.devRef .tc main_v17) = _
  rw [Function.update_self, leftAll_two]
  unfold leftE
  exact Pipeline.withArrays_arr spec0 launch0.win.arr_inj c _ _ 7

/-- The node region's output array after the region is what the write-backs leave. -/
theorem exitN_out (c : Dev nD) : V6 m (leftAll m) c main_v40 = (nodeDat (entryN m) c).arrAt 12 cfg1.N := by
  show Function.update (V5 m (leftAll m) c) (Proc.devRef .tc main_v40) (leftAll m 6 main_v40 c) (Proc.devRef .tc main_v40) = _
  rw [Function.update_self, leftAll_six]
  exact Pipeline.withArrays_arr spec1 launch1.win.arr_inj c _ _ 12

/-- At the edge region's exit each of its arrays holds what the pipeline leaves: the output what the write-backs
    leave, an input what it held at entry. -/
theorem edge_left (c : Dev nD) (w : Fin cfg0.W) : (edgeDat (entryE m) c).arrAt w cfg0.N = exitE m c (Pipeline.arrRef spec0 w) :=
  match w with
  | ⟨0, _⟩ => (((edgeDat (entryE m) c).arrAt_in 0 rfl _).trans (edgeDat_A (entryE m) c 0)).trans (V2_of m (leftAll m) c main_v11 (by decide)).symm
  | ⟨1, _⟩ => (((edgeDat (entryE m) c).arrAt_in 1 rfl _).trans (edgeDat_A (entryE m) c 1)).trans (V2_of m (leftAll m) c main_arg2 (by decide)).symm
  | ⟨2, _⟩ => (((edgeDat (entryE m) c).arrAt_in 2 rfl _).trans (edgeDat_A (entryE m) c 2)).trans (V2_of m (leftAll m) c main_v12 (by decide)).symm
  | ⟨3, _⟩ => (((edgeDat (entryE m) c).arrAt_in 3 rfl _).trans (edgeDat_A (entryE m) c 3)).trans (V2_of m (leftAll m) c main_v13 (by decide)).symm
  | ⟨4, _⟩ => (((edgeDat (entryE m) c).arrAt_in 4 rfl _).trans (edgeDat_A (entryE m) c 4)).trans (V2_of m (leftAll m) c main_v14 (by decide)).symm
  | ⟨5, _⟩ => (((edgeDat (entryE m) c).arrAt_in 5 rfl _).trans (edgeDat_A (entryE m) c 5)).trans (V2_of m (leftAll m) c main_v15 (by decide)).symm
  | ⟨6, _⟩ => (((edgeDat (entryE m) c).arrAt_in 6 rfl _).trans (edgeDat_A (entryE m) c 6)).trans (V2_of m (leftAll m) c main_v16 (by decide)).symm
  | ⟨7, _⟩ => (exitE_out m c).symm
  | ⟨_ + 8, h⟩ => absurd h (Nat.not_lt.2 (Nat.le_add_left _ _))

/-- Every other buffer is as the edge region found it. -/
theorem edge_rest (c : Dev nD) : ∀ b, b ∉ Finset.univ.image (Pipeline.arrRef spec0) → exitE m c b = entryE m c b :=
  fun b hb => V2_of m (leftAll m) c b fun h => hb (by
    rw [List.mem_singleton] at h; subst h; exact Finset.mem_image.mpr ⟨7, Finset.mem_univ _, rfl⟩)

/-- An input window's array of the node region comes back as it went in. -/
theorem node_left_in (c : Dev nD) (w : Fin cfg1.W) (hin : (cfg1.win w).isOut = false)
    (hne : Pipeline.arrRef spec1 w ∉ ([main_v40] : List (Ref sig .tc))) :
    (nodeDat (entryN m) c).arrAt w cfg1.N = exitN m c (Pipeline.arrRef spec1 w) :=
  (((nodeDat (entryN m) c).arrAt_in w hin _).trans (nodeDat_A (entryN m) c w)).trans
    ((V6_of m (leftAll m) c (Pipeline.arrRef spec1 w) hne).trans (congrFun (V5_leftAll m c) _)).symm

set_option maxHeartbeats 4000000 in
/-- At the node region's exit each of its arrays holds what the pipeline leaves. -/
theorem node_left (c : Dev nD) (w : Fin cfg1.W) : (nodeDat (entryN m) c).arrAt w cfg1.N = exitN m c (Pipeline.arrRef spec1 w) :=
  match w with
  | ⟨0, _⟩ => node_left_in m c 0 rfl (by decide)
  | ⟨1, _⟩ => node_left_in m c 1 rfl (by decide)
  | ⟨2, _⟩ => node_left_in m c 2 rfl (by decide)
  | ⟨3, _⟩ => node_left_in m c 3 rfl (by decide)
  | ⟨4, _⟩ => node_left_in m c 4 rfl (by decide)
  | ⟨5, _⟩ => node_left_in m c 5 rfl (by decide)
  | ⟨6, _⟩ => node_left_in m c 6 rfl (by decide)
  | ⟨7, _⟩ => node_left_in m c 7 rfl (by decide)
  | ⟨8, _⟩ => node_left_in m c 8 rfl (by decide)
  | ⟨9, _⟩ => node_left_in m c 9 rfl (by decide)
  | ⟨10, _⟩ => node_left_in m c 10 rfl (by decide)
  | ⟨11, _⟩ => node_left_in m c 11 rfl (by decide)
  | ⟨12, _⟩ => (exitN_out m c).symm
  | ⟨_ + 13, h⟩ => absurd h (Nat.not_lt.2 (Nat.le_add_left _ _))

/-- Every other buffer is as the node region found it. -/
theorem node_rest (c : Dev nD) : ∀ b, b ∉ Finset.univ.image (Pipeline.arrRef spec1) → exitN m c b = entryN m c b :=
  fun b hb => (V6_of m (leftAll m) c b fun h => hb (by
    rw [List.mem_singleton] at h; subst h; exact Finset.mem_image.mpr ⟨12, Finset.mem_univ _, rfl⟩)).trans (congrFun (V5_leftAll m c) _)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => edgeDat (entryE m) c
  | ⟨1, _⟩ => fun c => nodeDat (entryN m) c

abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every segment: the core's generator register at some state and its dues,
    at nothing. -/
abbrev rides (c : Dev nD) : sProp 𝕄 := iprop((∃ r, prngReg c r) ∗ ∃ W, owes (c : Thread nD τ) (0 : CellTallies nD τ sig Unit) W)
/-- The same at each of the three places the host segments name. -/
abbrev ridesAt : Fin 3 → Dev nD → sProp 𝕄 := fun _ c => rides (F := F) c

/-- The last thread state without the dues: every unscoped buffer at the last contents, the generator register at some
    state. -/
abbrev lastState (c : Dev nD) : sProp 𝕄 :=
  iprop(StableHlo.held (c : Thread nD τ) (Pipeline.ucRefs τ sig) (V6 m (leftAll m) c) ∗ ∃ r, prngReg c r)

/-! ## The regions as segments -/

set_option backward.isDefEq.respectTransparency.types false in
/-- The edge region over the thread state: entered from every unscoped buffer at the contents after the first host
    stretch, left at those contents with the output array replaced.  Its arrays are split out of the unscoped buffers
    on entry and put back on exit; the generator register goes into the pipeline's invariant and comes back; nothing
    is owed; the kernel has no semaphore of its own. -/
def edgeSeg : RegionSeg (pcfgs (F := F)) adm (pdats m) () defs₀ noVariants noPairs noLevel 0 where
  win := launch0.win.to₀
  block_pos := launch0.block_pos
  stage_whole := launch0.stage_whole
  K := PEmpty
  osem k := k.elim
  ho := Pipeline.OwnSemFacts.none _
  hbody c := (edge_body_obligation (entryE m) c).loose
  hwaits := Pipeline.hwaits_of_owed_zero _ _ _ _ noPairs noLevel 0 fun _ _ => rfl
  pre c := iprop(StableHlo.held (c : Thread nD τ) (Pipeline.ucRefs τ sig) (V1 m c) ∗ rides c)
  post c := iprop(StableHlo.held (c : Thread nD τ) (Pipeline.ucRefs τ sig) (V2 m (leftAll m) c) ∗ rides c)
  X c := iprop(∃ r, prngReg c r)
  Y c := iprop(∃ r, prngReg c r)
  Z c := Pipeline.unscopedRest (Ix := Unit) (Name := ℕ) (U := UR sig nD τ) (Lvl := ℕ) spec0 c (entryE m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entryE m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entryE m c) (exitE m c) ((pdats m 0 c).arrAt · cfg0.N) (edge_left m c) (edge_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node region over the thread state: entered from every unscoped buffer at the contents after the last host
    stretch, left at those contents with the output array replaced, which is what the launch reads at the end. -/
def nodeSeg : RegionSeg (pcfgs (F := F)) adm (pdats m) () defs₀ noVariants noPairs noLevel 1 where
  win := launch1.win.to₀
  block_pos := launch1.block_pos
  stage_whole := launch1.stage_whole
  K := PEmpty
  osem k := k.elim
  ho := Pipeline.OwnSemFacts.none _
  hbody c := (node_body_obligation (entryN m) c).loose
  hwaits := Pipeline.hwaits_of_owed_zero _ _ _ _ noPairs noLevel 1 fun _ _ => rfl
  pre c := iprop(StableHlo.held (c : Thread nD τ) (Pipeline.ucRefs τ sig) (V5 m (leftE m) c) ∗ rides c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entryN m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entryN m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entryN m c) (exitN m c) ((pdats m 1 c).arrAt · cfg1.N) (node_left m c) (node_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last host stretch leaves the thread state the node region is entered from: the contents before the node region
    do not depend on what that region leaves. -/
theorem node_entry (c : Dev nD) :
    (iprop(StableHlo.held (c : Thread nD τ) (Pipeline.ucRefs τ sig) (V5 m (leftAll m) c) ∗ rides c) : sProp 𝕄)
      ⊢ iprop(StableHlo.held (c : Thread nD τ) (Pipeline.ucRefs τ sig) (V5 m (leftE m) c) ∗ rides c) := by
  rw [V5_leftAll]

set_option backward.isDefEq.respectTransparency.types false in
/-- THE RUN.  From any memory with zero counters every weakly fair execution of @main on the TensorCores terminates,
    nothing faulting, and in every final state each unscoped buffer of core `c` holds the last contents of the fold
    above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V6 m (leftAll m) c b) := by
  refine Pipeline.θ_run_regions_kit_dev (pcfgs (F := F)) adm (pdats m) () cellOf_inj emb₁ defs₀ noVariants noPairs noLevel m ρ main
    (segs m (leftAll m) noVariants noPairs noLevel (ridesAt (F := F)) () (pdats m) (edgeSeg m) (nodeSeg m))
    (fun c Q => by
      rewrite [main_chain c, Seg.run_eq_chain,
        show (segs m (leftAll m) noVariants noPairs noLevel (ridesAt (F := F)) () (pdats m) (edgeSeg m) (nodeSeg m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rides c)) (Tₙ := lastState m)
    (hch := fun c => ⟨.rfl, .rfl, .rfl, .rfl, .rfl, node_entry m c, .rfl⟩)
    (hinit := by
      refine Pipeline.initEach noPairs noLevel fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m (leftAll m) c b)
    (hfin := fun c s' => by
      iintro ⟨⟨Hh, -⟩, HSI⟩
      unfold StableHlo.held
      imodintro
      iapply (pointsTo_read_all (Pipeline.ucRefs τ sig) (fun b => (((c : Thread nD τ)).1, b)) (V6 m (leftAll m) c) s')
      isplitl [Hh] <;> iassumption)
    (hQ := fun s h c => h c)

/-! ## The frame and the result -/

/-- Every argument array ends holding its launch contents: no host operation writes one, no region may change one. -/
theorem args_kept (r : PUnit × MemSt nD τ sig (Elt F))
    (h : ∀ c : Dev nD, ∀ b ∈ Pipeline.ucRefs τ sig, r.2.mem (((c : Thread nD τ)).1, b) = V6 m (leftAll m) c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨(h c _ (mem_unscoped main_arg0 (by decide))).trans (V6_main_arg0 m (leftAll m) c),
   (h c _ (mem_unscoped main_arg1 (by decide))).trans (V6_main_arg1 m (leftAll m) c),
   (h c _ (mem_unscoped main_arg2 (by decide))).trans (V6_main_arg2 m (leftAll m) c),
   (h c _ (mem_unscoped main_arg3 (by decide))).trans (V6_main_arg3 m (leftAll m) c),
   (h c _ (mem_unscoped main_arg4 (by decide))).trans (V6_main_arg4 m (leftAll m) c),
   (h c _ (mem_unscoped main_arg5 (by decide))).trans (V6_main_arg5 m (leftAll m) c),
   (h c _ (mem_unscoped main_arg6 (by decide))).trans (V6_main_arg6 m (leftAll m) c),
   (h c _ (mem_unscoped main_arg7 (by decide))).trans (V6_main_arg7 m (leftAll m) c),
   (h c _ (mem_unscoped main_arg8 (by decide))).trans (V6_main_arg8 m (leftAll m) c),
   (h c _ (mem_unscoped main_arg9 (by decide))).trans (V6_main_arg9 m (leftAll m) c),
   (h c _ (mem_unscoped main_arg10 (by decide))).trans (V6_main_arg10 m (leftAll m) c),
   (h c _ (mem_unscoped main_arg11 (by decide))).trans (V6_main_arg11 m (leftAll m) c),
   (h c _ (mem_unscoped main_arg12 (by decide))).trans (V6_main_arg12 m (leftAll m) c),
   (h c _ (mem_unscoped main_arg13 (by decide))).trans (V6_main_arg13 m (leftAll m) c),
   (h c _ (mem_unscoped main_arg14 (by decide))).trans (V6_main_arg14 m (leftAll m) c),
   (h c _ (mem_unscoped main_arg15 (by decide))).trans (V6_main_arg15 m (leftAll m) c),
   (h c _ (mem_unscoped main_arg16 (by decide))).trans (V6_main_arg16 m (leftAll m) c)⟩

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => args_kept m r h c) (run_all m ρ)

/-- The result array ends at what the node pipeline's write-backs leave. -/
theorem result_at (r : PUnit × MemSt nD τ sig (Elt F))
    (h : ∀ c : Dev nD, ∀ b ∈ Pipeline.ucRefs τ sig, r.2.mem (((c : Thread nD τ)).1, b) = V6 m (leftAll m) c b) (c : Dev nD) :
    r.2.mem ((c.tc : Thread nD τ).loc main_v40) = (nodeDat (entryN m) c).arrAt 12 cfg1.N :=
  (h c _ (mem_unscoped main_v40 (by decide))).trans (exitN_out m c)

/-- THE RUN, READ: the result array at what the node pipeline's write-backs leave, every argument array as launched. -/
theorem run_result : θ_run defs (onTc (τ := τ) (main (F := F))) ⟨m, fun _ => 0, ρ⟩ (fun r => ∀ c : Dev nD,
      r.2.mem ((c.tc : Thread nD τ).loc main_v40) = (nodeDat (entryN m) c).arrAt 12 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨result_at m r h c, args_kept m r h c⟩) (run_all m ρ)

end Cert.Kernel.Regions

end
-- ==== Proof.KernelIdeal.EdgeRegion.lean ====
/-
  The edge stage as one pipelined region, at any float instance: what each grid point finds in its staging
  buffers, what its body leaves there, and the body's obligation to the pipeline.

  The region streams 150 blocks of 8000 edges.  At a point the pipeline hands the body the point's block of
  gathered source features and of edge features, and the five small operands whole (two 64×64 weight halves,
  bias, gain, offset; fetched once, at the first point, and found in place afterwards).  The body loads all
  seven, computes one vector value and stores it over the whole output block; it also reads the output buffer
  once before storing, a value nothing uses.  So after the body every input buffer still holds its block and
  the output buffer holds that one value of the input blocks.  All of it is stated at a parameter `V`, the
  contents of the core's buffers when the region is entered.
-/
import proofs.«418484_j28518582846165_3_alg».proof.Proof.Gen.KernelIdeal.Launch
import proofs.«418484_j28518582846165_3_alg».proof.Proof.Gen.KernelIdeal.Skeleton
import proofs.«418484_j28518582846165_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the pipeline fetched it there
    or left it from an earlier point (then its index has not moved), for any proof data whose array is `V`'s and
    whose body leaves the block in place.  One statement per input window. -/

theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)

/-! ## The body's accesses -/

/-- The whole 8000×64 block, the whole 64×64 weight half, the whole 1×64 row: every load and the store address one
    of these. -/
abbrev rEdge : Rect S8000x64 := Rect.unit (s := S8000x64) ![0, 0] S8000x64.size inb_S8000x64_S8000x64_0_0
abbrev rW : Rect S64x64 := Rect.unit (s := S64x64) ![0, 0] S64x64.size inb_S64x64_S64x64_0_0
abbrev rRow : Rect S1x64 := Rect.unit (s := S1x64) ![0, 0] S1x64.size inb_S1x64_S1x64_0_0

/-! ## What the body leaves in the output window's buffer -/

/-- The output block after the body, from the seven input blocks: its one store, over the whole block, of the
    body's value of the loaded blocks. -/
def edgeOut (x0 : Vec F S8000x64 .bf16) (x1 : Vec F S8000x64 .f32) (x2 x3 : Vec F S64x64 .f32) (x4 x5 x6 : Vec F S1x64 .f32) :
    Vec F S8000x64 .bf16 :=
  View.canon [⟨rEdge, k0_pay1 (k0_pay2 (View.ld x0 rEdge) (View.ld x1 rEdge) (View.ld x2 rW) (View.ld x3 rW) (View.ld x4 rRow) (View.ld x5 rRow)) (View.ld x6 rRow)⟩]

/-- The one store tiles the block, so it covers it. -/
theorem edgeCover (p0 : Vec F S8000x64 .bf16) (y : S8000x64.Idx) :
    ∃ pc ∈ ([⟨rEdge, p0⟩] : List (View.Piece (Elt F) S8000x64 .bf16)), y ∈ pc.1.set :=
  View.cover_of_tiled [⟨rEdge, p0⟩] S8000x64.size (by rfl) y

/-! ## The body's triple -/

set_option maxHeartbeats 4000000 in
/-- The body on whole staging buffers — the inputs' at contents `xW`, the output's at anything — runs to a state
    holding the inputs' as they were and the output's at `edgeOut` of the inputs'. -/
theorem edge_sound_kernel (c : Dev nD) (E : Set ℕ) (i : grid0.Coords)
    (arg1 : Memref sig .tc .vmem S8000x64 .bf16) (harg1 : arg1.IsWhole) (arg2 : Memref sig .tc .vmem S8000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S8000x64 .bf16) (harg8 : arg8.IsWhole)
    (x0 : Vec F S8000x64 .bf16) (x1 : Vec F S8000x64 .f32) (x2 x3 : Vec F S64x64 .f32) (x4 x5 x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (edgeOut x0 x1 x2 x3 x4 x5 x6)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8) K := by
  simp only [cc0__edge_kernel_eq_skeleton]; unfold cc0__edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (edgeCover _)

/-! ## The pipeline's proof data -/

/-- The proof data of the edge pipeline on core `c`: the arrays as the region finds them; after the body at point
    `t` each input's buffer at its block and the output's at `edgeOut` of the input blocks; the invariant is the
    scoped rest and the generator register, untouched; nothing owed; full shares. -/
def edgeDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => edgeOut (blk0 V c 0 t) (blk0 V c 1 t) (blk0 V c 2 t) (blk0 V c 3 t) (blk0 V c 4 t) (blk0 V c 5 t) (blk0 V c 6 t)
  Φ _ := Pipeline.ΦA spec0 c
  q _ := fullShare
  owed _ := 0

/-- The proof data's arrays are the region-entry contents. -/
theorem edgeDat_A (c : Dev nD) (w : Fin cfg0.W) : (edgeDat V c).A w = V c (Pipeline.arrRef spec0 w) := by
  dsimp only [edgeDat]

/-- What the body leaves, window by window. -/
theorem edgeAfter_0 (c : Dev nD) (t : Fin cfg0.N) : (edgeDat V c).after 0 t = blk0 V c 0 t := by dsimp only [edgeDat]
theorem edgeAfter_1 (c : Dev nD) (t : Fin cfg0.N) : (edgeDat V c).after 1 t = blk0 V c 1 t := by dsimp only [edgeDat]
theorem edgeAfter_2 (c : Dev nD) (t : Fin cfg0.N) : (edgeDat V c).after 2 t = blk0 V c 2 t := by dsimp only [edgeDat]
theorem edgeAfter_3 (c : Dev nD) (t : Fin cfg0.N) : (edgeDat V c).after 3 t = blk0 V c 3 t := by dsimp only [edgeDat]
theorem edgeAfter_4 (c : Dev nD) (t : Fin cfg0.N) : (edgeDat V c).after 4 t = blk0 V c 4 t := by dsimp only [edgeDat]
theorem edgeAfter_5 (c : Dev nD) (t : Fin cfg0.N) : (edgeDat V c).after 5 t = blk0 V c 5 t := by dsimp only [edgeDat]
theorem edgeAfter_6 (c : Dev nD) (t : Fin cfg0.N) : (edgeDat V c).after 6 t = blk0 V c 6 t := by dsimp only [edgeDat]
theorem edgeAfter_7 (c : Dev nD) (t : Fin cfg0.N) : (edgeDat V c).after 7 t
    = edgeOut (blk0 V c 0 t) (blk0 V c 1 t) (blk0 V c 2 t) (blk0 V c 3 t) (blk0 V c 4 t) (blk0 V c 5 t) (blk0 V c 6 t) := by dsimp only [edgeDat]

/-- Each input's current staging buffer holds its block at every point. -/
theorem edgeBefore_0 (c : Dev nD) (t : Fin cfg0.N) (d) : (edgeDat V c).before 0 t d = blk0 V c 0 t :=
  before0_0_of V (edgeDat V c) (edgeDat_A V c 0) (edgeAfter_0 V c) t d
theorem edgeBefore_1 (c : Dev nD) (t : Fin cfg0.N) (d) : (edgeDat V c).before 1 t d = blk0 V c 1 t :=
  before0_1_of V (edgeDat V c) (edgeDat_A V c 1) (edgeAfter_1 V c) t d
theorem edgeBefore_2 (c : Dev nD) (t : Fin cfg0.N) (d) : (edgeDat V c).before 2 t d = blk0 V c 2 t :=
  before0_2_of V (edgeDat V c) (edgeDat_A V c 2) (edgeAfter_2 V c) t d
theorem edgeBefore_3 (c : Dev nD) (t : Fin cfg0.N) (d) : (edgeDat V c).before 3 t d = blk0 V c 3 t :=
  before0_3_of V (edgeDat V c) (edgeDat_A V c 3) (edgeAfter_3 V c) t d
theorem edgeBefore_4 (c : Dev nD) (t : Fin cfg0.N) (d) : (edgeDat V c).before 4 t d = blk0 V c 4 t :=
  before0_4_of V (edgeDat V c) (edgeDat_A V c 4) (edgeAfter_4 V c) t d
theorem edgeBefore_5 (c : Dev nD) (t : Fin cfg0.N) (d) : (edgeDat V c).before 5 t d = blk0 V c 5 t :=
  before0_5_of V (edgeDat V c) (edgeDat_A V c 5) (edgeAfter_5 V c) t d
theorem edgeBefore_6 (c : Dev nD) (t : Fin cfg0.N) (d) : (edgeDat V c).before 6 t d = blk0 V c 6 t :=
  before0_6_of V (edgeDat V c) (edgeDat_A V c 6) (edgeAfter_6 V c) t d

/-! ## The body obligation, at a generic point -/

/-- What the body is called with at point `t`, the windows one by one, -/
def edgeBodyPre (c : Dev nD) (t : Fin cfg0.N) : sProp 𝕄 :=
  iprop((edgeDat V c).Φ t.castSucc ∗ (edgeDat V c).owesAt () t.castSucc
    ∗ (∃ d, owns (c : Thread nD τ) (st0_0 t) fullShare ((edgeDat V c).before 0 t d))
    ∗ (∃ d, owns (c : Thread nD τ) (st0_1 t) fullShare ((edgeDat V c).before 1 t d))
    ∗ (∃ d, owns (c : Thread nD τ) (st0_2 t) fullShare ((edgeDat V c).before 2 t d))
    ∗ (∃ d, owns (c : Thread nD τ) (st0_3 t) fullShare ((edgeDat V c).before 3 t d))
    ∗ (∃ d, owns (c : Thread nD τ) (st0_4 t) fullShare ((edgeDat V c).before 4 t d))
    ∗ (∃ d, owns (c : Thread nD τ) (st0_5 t) fullShare ((edgeDat V c).before 5 t d))
    ∗ (∃ d, owns (c : Thread nD τ) (st0_6 t) fullShare ((edgeDat V c).before 6 t d))
    ∗ (∃ d, owns (c : Thread nD τ) (st0_7 t) fullShare ((edgeDat V c).before 7 t d)))

/-- and what it returns. -/
def edgeBodyPost (c : Dev nD) (t : Fin cfg0.N) : sProp 𝕄 :=
  iprop((edgeDat V c).Φ t.succ ∗ (edgeDat V c).owesAt () t.succ
    ∗ owns (c : Thread nD τ) (st0_0 t) fullShare ((edgeDat V c).after 0 t)
    ∗ owns (c : Thread nD τ) (st0_1 t) fullShare ((edgeDat V c).after 1 t)
    ∗ owns (c : Thread nD τ) (st0_2 t) fullShare ((edgeDat V c).after 2 t)
    ∗ owns (c : Thread nD τ) (st0_3 t) fullShare ((edgeDat V c).after 3 t)
    ∗ owns (c : Thread nD τ) (st0_4 t) fullShare ((edgeDat V c).after 4 t)
    ∗ owns (c : Thread nD τ) (st0_5 t) fullShare ((edgeDat V c).after 5 t)
    ∗ owns (c : Thread nD τ) (st0_6 t) fullShare ((edgeDat V c).after 6 t)
    ∗ owns (c : Thread nD τ) (st0_7 t) fullShare ((edgeDat V c).after 7 t))

/-- The body at any point: the inputs' buffers hold their blocks, so the body's triple applies; the invariant and the
    core's dues pass through unread. -/
theorem edge_sound_body (c : Dev nD) (t : Fin cfg0.N) :
    edgeBodyPre V c t ⊢ wp frame (wpE (defs₀ (F := F)) Variants.none c none) Set.univ (bodyAt0 t) (fun _ => edgeBodyPost V c t) := by
  unfold edgeBodyPre edgeBodyPost bodyAt0
  simp only [edgeBefore_0, edgeBefore_1, edgeBefore_2, edgeBefore_3, edgeBefore_4, edgeBefore_5, edgeBefore_6]
  rw [show (edgeDat V c).Φ t.succ = (edgeDat V c).Φ t.castSucc from rfl,
    show (edgeDat V c).owesAt () t.succ = (edgeDat V c).owesAt () t.castSucc from rfl,
    edgeAfter_0, edgeAfter_1, edgeAfter_2, edgeAfter_3, edgeAfter_4, edgeAfter_5, edgeAfter_6, edgeAfter_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (edge_sound_kernel c Set.univ _ _ _ _ _ _ _ _ _ _ _ _ _ _ _ _ _ (blk0 V c 0 t) (blk0 V c 1 t) (blk0 V c 2 t) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem edge_body_obligation (c : Dev nD) : BodyObligation (edgeDat (F := F) V c) (defs₀ (F := F)) Variants.none () Set.univ := fun t => by
  rw [bigSep_W0, bigSep_W0]
  exact edge_sound_body V c t

end Cert.KernelIdeal.Regions

end
-- ==== Proof.KernelIdeal.NodeRegion.lean ====
/-
  The node stage as one pipelined region, at any float instance: what each grid point finds in its staging
  buffers, what its body leaves there, and the body's obligation to the pipeline.

  The region streams 20 blocks of 5000 nodes.  At a point the pipeline hands the body the point's block of node
  features and of the packed operand (64 lanes of summed messages, the edge count, the global scalar), and the ten
  small operands whole (two 64×64 pieces of the first weight, its last row, bias, gain, offset; the second weight,
  its bias, gain, offset; fetched once, at the first point, and found in place afterwards).  The body loads all
  twelve, computes one vector value and stores it over the whole output block; it also reads the output buffer
  once before storing, a value nothing uses.  So after the body every input buffer still holds its block and the
  output buffer holds that one value of the input blocks.  All of it is stated at a parameter `V`, the contents
  of the core's buffers when the region is entered.
-/
import proofs.«418484_j28518582846165_3_alg».proof.Proof.Gen.KernelIdeal.Launch
import proofs.«418484_j28518582846165_3_alg».proof.Proof.Gen.KernelIdeal.Skeleton
import proofs.«418484_j28518582846165_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the pipeline fetched it there
    or left it from an earlier point (then its index has not moved), for any proof data whose array is `V`'s and
    whose body leaves the block in place.  One statement per input window. -/

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = blk1 V c 8 t) (t : Fin cfg1.N) (d) : dat.before 8 t d = blk1 V c 8 t :=
  (dat.before_in_eq_fetched 8 rfl (fun _ => rfl) (fun _ _ _ => rfl) (fun t => by rw [hafter]; unfold Dat.blockOf blk1; rw [hA]; try rfl) t d).trans
    (by unfold Dat.fetched Dat.blockOf blk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = blk1 V c 9 t) (t : Fin cfg1.N) (d) : dat.before 9 t d = blk1 V c 9 t :=
  (dat.before_in_eq_fetched 9 rfl (fun _ => rfl) (fun _ _ _ => rfl) (fun t => by rw [hafter]; unfold Dat.blockOf blk1; rw [hA]; try rfl) t d).trans
    (by unfold Dat.fetched Dat.blockOf blk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = blk1 V c 10 t) (t : Fin cfg1.N) (d) : dat.before 10 t d = blk1 V c 10 t :=
  (dat.before_in_eq_fetched 10 rfl (fun _ => rfl) (fun _ _ _ => rfl) (fun t => by rw [hafter]; unfold Dat.blockOf blk1; rw [hA]; try rfl) t d).trans
    (by unfold Dat.fetched Dat.blockOf blk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = blk1 V c 11 t) (t : Fin cfg1.N) (d) : dat.before 11 t d = blk1 V c 11 t :=
  (dat.before_in_eq_fetched 11 rfl (fun _ => rfl) (fun _ _ _ => rfl) (fun t => by rw [hafter]; unfold Dat.blockOf blk1; rw [hA]; try rfl) t d).trans
    (by unfold Dat.fetched Dat.blockOf blk1; rw [hA]; try rfl)

/-! ## The body's accesses -/

/-- The whole 5000×64 block, the whole 5000×66 packed block, the whole 64×64 weight piece, the whole 1×64 row: every
    load and the store address one of these. -/
abbrev rNode : Rect S5000x64 := Rect.unit (s := S5000x64) ![0, 0] S5000x64.size inb_S5000x64_S5000x64_0_0
abbrev rPacked : Rect S5000x66 := Rect.unit (s := S5000x66) ![0, 0] S5000x66.size inb_S5000x66_S5000x66_0_0
abbrev rW1 : Rect S64x64 := Rect.unit (s := S64x64) ![0, 0] S64x64.size inb_S64x64_S64x64_0_0
abbrev rRow1 : Rect S1x64 := Rect.unit (s := S1x64) ![0, 0] S1x64.size inb_S1x64_S1x64_0_0

/-! ## What the body leaves in the output window's buffer -/

/-- The output block after the body, from the twelve input blocks: its one store, over the whole block, of the
    body's value of the loaded blocks. -/
def nodeOut (x0 : Vec F S5000x64 .f32) (x1 : Vec F S5000x66 .f32) (x2 x3 : Vec F S64x64 .f32) (x4 x5 x6 x7 : Vec F S1x64 .f32)
    (x8 : Vec F S64x64 .f32) (x9 x10 x11 : Vec F S1x64 .f32) : Vec F S5000x64 .f32 :=
  View.canon [⟨rNode, k1_pay1 (View.ld x0 rNode)
    (k1_pay4 (k1_pay2 (View.ld x0 rNode) (View.ld x1 rPacked) (View.ld x2 rW1) (View.ld x3 rW1) (View.ld x4 rRow1) (View.ld x5 rRow1))
      (k1_pay3 (View.ld x0 rNode) (View.ld x1 rPacked) (View.ld x2 rW1) (View.ld x3 rW1) (View.ld x4 rRow1) (View.ld x5 rRow1))
      (View.ld x6 rRow1) (View.ld x7 rRow1) (View.ld x8 rW1) (View.ld x9 rRow1))
    (View.ld x10 rRow1) (View.ld x11 rRow1)⟩]

/-- The one store tiles the block, so it covers it. -/
theorem nodeCover (p0 : Vec F S5000x64 .f32) (y : S5000x64.Idx) :
    ∃ pc ∈ ([⟨rNode, p0⟩] : List (View.Piece (Elt F) S5000x64 .f32)), y ∈ pc.1.set :=
  View.cover_of_tiled [⟨rNode, p0⟩] S5000x64.size (by rfl) y

/-! ## The body's triple -/

set_option maxHeartbeats 8000000 in
/-- The body on whole staging buffers — the inputs' at contents `xW`, the output's at anything — runs to a state
    holding the inputs' as they were and the output's at `nodeOut` of the inputs'. -/
theorem node_sound_kernel (c : Dev nD) (E : Set ℕ) (i : grid1.Coords)
    (arg1 : Memref sig .tc .vmem S5000x64 .f32) (harg1 : arg1.IsWhole) (arg2 : Memref sig .tc .vmem S5000x66 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S64x64 .f32) (harg9 : arg9.IsWhole) (arg10 : Memref sig .tc .vmem S1x64 .f32) (harg10 : arg10.IsWhole)
    (arg11 : Memref sig .tc .vmem S1x64 .f32) (harg11 : arg11.IsWhole) (arg12 : Memref sig .tc .vmem S1x64 .f32) (harg12 : arg12.IsWhole)
    (arg13 : Memref sig .tc .vmem S5000x64 .f32) (harg13 : arg13.IsWhole)
    (x0 : Vec F S5000x64 .f32) (x1 : Vec F S5000x66 .f32) (x2 x3 : Vec F S64x64 .f32) (x4 x5 x6 x7 : Vec F S1x64 .f32)
    (x8 : Vec F S64x64 .f32) (x9 x10 x11 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ (∃ d, owns (c : Thread nD τ) arg13 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare (nodeOut x0 x1 x2 x3 x4 x5 x6 x7 x8 x9 x10 x11)) -∗ K ⟨⟩))
      ⊢ wp frame (wpE (defs₀ (F := F)) Variants.none c none) E
          (cc1__node_kernel i arg1 harg1 arg2 harg2 arg3 harg3 arg4 harg4 arg5 harg5 arg6 harg6 arg7 harg7 arg8 harg8 arg9 harg9
            arg10 harg10 arg11 harg11 arg12 harg12 arg13 harg13) K := by
  simp only [cc1__node_kernel_eq_skeleton]; unfold cc1__node_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (nodeCover _)

/-! ## The pipeline's proof data -/

/-- The proof data of the node pipeline on core `c`: the arrays as the region finds them; after the body at point
    `t` each input's buffer at its block and the output's at `nodeOut` of the input blocks; the invariant is the
    scoped rest and the generator register, untouched; nothing owed; full shares. -/
def nodeDat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => blk1 V c 11 t
    | ⟨12, _⟩ => nodeOut (blk1 V c 0 t) (blk1 V c 1 t) (blk1 V c 2 t) (blk1 V c 3 t) (blk1 V c 4 t) (blk1 V c 5 t) (blk1 V c 6 t)
        (blk1 V c 7 t) (blk1 V c 8 t) (blk1 V c 9 t) (blk1 V c 10 t) (blk1 V c 11 t)
  Φ _ := Pipeline.ΦA spec1 c
  q _ := fullShare
  owed _ := 0

/-- The proof data's arrays are the region-entry contents. -/
theorem nodeDat_A (c : Dev nD) (w : Fin cfg1.W) : (nodeDat V c).A w = V c (Pipeline.arrRef spec1 w) := by
  dsimp only [nodeDat]

/-- What the body leaves, window by window. -/
theorem nodeAfter_0 (c : Dev nD) (t : Fin cfg1.N) : (nodeDat V c).after 0 t = blk1 V c 0 t := by dsimp only [nodeDat]
theorem nodeAfter_1 (c : Dev nD) (t : Fin cfg1.N) : (nodeDat V c).after 1 t = blk1 V c 1 t := by dsimp only [nodeDat]
theorem nodeAfter_2 (c : Dev nD) (t : Fin cfg1.N) : (nodeDat V c).after 2 t = blk1 V c 2 t := by dsimp only [nodeDat]
theorem nodeAfter_3 (c : Dev nD) (t : Fin cfg1.N) : (nodeDat V c).after 3 t = blk1 V c 3 t := by dsimp only [nodeDat]
theorem nodeAfter_4 (c : Dev nD) (t : Fin cfg1.N) : (nodeDat V c).after 4 t = blk1 V c 4 t := by dsimp only [nodeDat]
theorem nodeAfter_5 (c : Dev nD) (t : Fin cfg1.N) : (nodeDat V c).after 5 t = blk1 V c 5 t := by dsimp only [nodeDat]
theorem nodeAfter_6 (c : Dev nD) (t : Fin cfg1.N) : (nodeDat V c).after 6 t = blk1 V c 6 t := by dsimp only [nodeDat]
theorem nodeAfter_7 (c : Dev nD) (t : Fin cfg1.N) : (nodeDat V c).after 7 t = blk1 V c 7 t := by dsimp only [nodeDat]
theorem nodeAfter_8 (c : Dev nD) (t : Fin cfg1.N) : (nodeDat V c).after 8 t = blk1 V c 8 t := by dsimp only [nodeDat]
theorem nodeAfter_9 (c : Dev nD) (t : Fin cfg1.N) : (nodeDat V c).after 9 t = blk1 V c 9 t := by dsimp only [nodeDat]
theorem nodeAfter_10 (c : Dev nD) (t : Fin cfg1.N) : (nodeDat V c).after 10 t = blk1 V c 10 t := by dsimp only [nodeDat]
theorem nodeAfter_11 (c : Dev nD) (t : Fin cfg1.N) : (nodeDat V c).after 11 t = blk1 V c 11 t := by dsimp only [nodeDat]
theorem nodeAfter_12 (c : Dev nD) (t : Fin cfg1.N) : (nodeDat V c).after 12 t
    = nodeOut (blk1 V c 0 t) (blk1 V c 1 t) (blk1 V c 2 t) (blk1 V c 3 t) (blk1 V c 4 t) (blk1 V c 5 t) (blk1 V c 6 t)
        (blk1 V c 7 t) (blk1 V c 8 t) (blk1 V c 9 t) (blk1 V c 10 t) (blk1 V c 11 t) := by dsimp only [nodeDat]

/-- Each input's current staging buffer holds its block at every point. -/
theorem nodeBefore_0 (c : Dev nD) (t : Fin cfg1.N) (d) : (nodeDat V c).before 0 t d = blk1 V c 0 t :=
  before1_0_of V (nodeDat V c) (nodeDat_A V c 0) (nodeAfter_0 V c) t d
theorem nodeBefore_1 (c : Dev nD) (t : Fin cfg1.N) (d) : (nodeDat V c).before 1 t d = blk1 V c 1 t :=
  before1_1_of V (nodeDat V c) (nodeDat_A V c 1) (nodeAfter_1 V c) t d
theorem nodeBefore_2 (c : Dev nD) (t : Fin cfg1.N) (d) : (nodeDat V c).before 2 t d = blk1 V c 2 t :=
  before1_2_of V (nodeDat V c) (nodeDat_A V c 2) (nodeAfter_2 V c) t d
theorem nodeBefore_3 (c : Dev nD) (t : Fin cfg1.N) (d) : (nodeDat V c).before 3 t d = blk1 V c 3 t :=
  before1_3_of V (nodeDat V c) (nodeDat_A V c 3) (nodeAfter_3 V c) t d
theorem nodeBefore_4 (c : Dev nD) (t : Fin cfg1.N) (d) : (nodeDat V c).before 4 t d = blk1 V c 4 t :=
  before1_4_of V (nodeDat V c) (nodeDat_A V c 4) (nodeAfter_4 V c) t d
theorem nodeBefore_5 (c : Dev nD) (t : Fin cfg1.N) (d) : (nodeDat V c).before 5 t d = blk1 V c 5 t :=
  before1_5_of V (nodeDat V c) (nodeDat_A V c 5) (nodeAfter_5 V c) t d
theorem nodeBefore_6 (c : Dev nD) (t : Fin cfg1.N) (d) : (nodeDat V c).before 6 t d = blk1 V c 6 t :=
  before1_6_of V (nodeDat V c) (nodeDat_A V c 6) (nodeAfter_6 V c) t d
theorem nodeBefore_7 (c : Dev nD) (t : Fin cfg1.N) (d) : (nodeDat V c).before 7 t d = blk1 V c 7 t :=
  before1_7_of V (nodeDat V c) (nodeDat_A V c 7) (nodeAfter_7 V c) t d
theorem nodeBefore_8 (c : Dev nD) (t : Fin cfg1.N) (d) : (nodeDat V c).before 8 t d = blk1 V c 8 t :=
  before1_8_of V (nodeDat V c) (nodeDat_A V c 8) (nodeAfter_8 V c) t d
theorem nodeBefore_9 (c : Dev nD) (t : Fin cfg1.N) (d) : (nodeDat V c).before 9 t d = blk1 V c 9 t :=
  before1_9_of V (nodeDat V c) (nodeDat_A V c 9) (nodeAfter_9 V c) t d
theorem nodeBefore_10 (c : Dev nD) (t : Fin cfg1.N) (d) : (nodeDat V c).before 10 t d = blk1 V c 10 t :=
  before1_10_of V (nodeDat V c) (nodeDat_A V c 10) (nodeAfter_10 V c) t d
theorem nodeBefore_11 (c : Dev nD) (t : Fin cfg1.N) (d) : (nodeDat V c).before 11 t d = blk1 V c 11 t :=
  before1_11_of V (nodeDat V c) (nodeDat_A V c 11) (nodeAfter_11 V c) t d

/-! ## The body obligation, at a generic point -/

/-- What the body is called with at point `t`, the windows one by one, -/
def nodeBodyPre (c : Dev nD) (t : Fin cfg1.N) : sProp 𝕄 :=
  iprop((nodeDat V c).Φ t.castSucc ∗ (nodeDat V c).owesAt () t.castSucc
    ∗ (∃ d, owns (c : Thread nD τ) (st1_0 t) fullShare ((nodeDat V c).before 0 t d))
    ∗ (∃ d, owns (c : Thread nD τ) (st1_1 t) fullShare ((nodeDat V c).before 1 t d))
    ∗ (∃ d, owns (c : Thread nD τ) (st1_2 t) fullShare ((nodeDat V c).before 2 t d))
    ∗ (∃ d, owns (c : Thread nD τ) (st1_3 t) fullShare ((nodeDat V c).before 3 t d))
    ∗ (∃ d, owns (c : Thread nD τ) (st1_4 t) fullShare ((nodeDat V c).before 4 t d))
    ∗ (∃ d, owns (c : Thread nD τ) (st1_5 t) fullShare ((nodeDat V c).before 5 t d))
    ∗ (∃ d, owns (c : Thread nD τ) (st1_6 t) fullShare ((nodeDat V c).before 6 t d))
    ∗ (∃ d, owns (c : Thread nD τ) (st1_7 t) fullShare ((nodeDat V c).before 7 t d))
    ∗ (∃ d, owns (c : Thread nD τ) (st1_8 t) fullShare ((nodeDat V c).before 8 t d))
    ∗ (∃ d, owns (c : Thread nD τ) (st1_9 t) fullShare ((nodeDat V c).before 9 t d))
    ∗ (∃ d, owns (c : Thread nD τ) (st1_10 t) fullShare ((nodeDat V c).before 10 t d))
    ∗ (∃ d, owns (c : Thread nD τ) (st1_11 t) fullShare ((nodeDat V c).before 11 t d))
    ∗ (∃ d, owns (c : Thread nD τ) (st1_12 t) fullShare ((nodeDat V c).before 12 t d)))

/-- and what it returns. -/
def nodeBodyPost (c : Dev nD) (t : Fin cfg1.N) : sProp 𝕄 :=
  iprop((nodeDat V c).Φ t.succ ∗ (nodeDat V c).owesAt () t.succ
    ∗ owns (c : Thread nD τ) (st1_0 t) fullShare ((nodeDat V c).after 0 t)
    ∗ owns (c : Thread nD τ) (st1_1 t) fullShare ((nodeDat V c).after 1 t)
    ∗ owns (c : Thread nD τ) (st1_2 t) fullShare ((nodeDat V c).after 2 t)
    ∗ owns (c : Thread nD τ) (st1_3 t) fullShare ((nodeDat V c).after 3 t)
    ∗ owns (c : Thread nD τ) (st1_4 t) fullShare ((nodeDat V c).after 4 t)
    ∗ owns (c : Thread nD τ) (st1_5 t) fullShare ((nodeDat V c).after 5 t)
    ∗ owns (c : Thread nD τ) (st1_6 t) fullShare ((nodeDat V c).after 6 t)
    ∗ owns (c : Thread nD τ) (st1_7 t) fullShare ((nodeDat V c).after 7 t)
    ∗ owns (c : Thread nD τ) (st1_8 t) fullShare ((nodeDat V c).after 8 t)
    ∗ owns (c : Thread nD τ) (st1_9 t) fullShare ((nodeDat V c).after 9 t)
    ∗ owns (c : Thread nD τ) (st1_10 t) fullShare ((nodeDat V c).after 10 t)
    ∗ owns (c : Thread nD τ) (st1_11 t) fullShare ((nodeDat V c).after 11 t)
    ∗ owns (c : Thread nD τ) (st1_12 t) fullShare ((nodeDat V c).after 12 t))

/-- The body at any point: the inputs' buffers hold their blocks, so the body's triple applies; the invariant and the
    core's dues pass through unread. -/
theorem node_sound_body (c : Dev nD) (t : Fin cfg1.N) :
    nodeBodyPre V c t ⊢ wp frame (wpE (defs₀ (F := F)) Variants.none c none) Set.univ (bodyAt1 t) (fun _ => nodeBodyPost V c t) := by
  unfold nodeBodyPre nodeBodyPost bodyAt1
  simp only [nodeBefore_0, nodeBefore_1, nodeBefore_2, nodeBefore_3, nodeBefore_4, nodeBefore_5, nodeBefore_6, nodeBefore_7,
    nodeBefore_8, nodeBefore_9, nodeBefore_10, nodeBefore_11]
  rw [show (nodeDat V c).Φ t.succ = (nodeDat V c).Φ t.castSucc from rfl,
    show (nodeDat V c).owesAt () t.succ = (nodeDat V c).owesAt () t.castSucc from rfl,
    nodeAfter_0, nodeAfter_1, nodeAfter_2, nodeAfter_3, nodeAfter_4, nodeAfter_5, nodeAfter_6, nodeAfter_7, nodeAfter_8,
    nodeAfter_9, nodeAfter_10, nodeAfter_11, nodeAfter_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (node_sound_kernel c Set.univ _ _ _ _ _ _ _ _ _ _ _ _ _ _ _ _ _ _ _ _ _ _ _ _ _ _ _
    (blk1 V c 0 t) (blk1 V c 1 t) (blk1 V c 2 t) (blk1 V c 3 t) (blk1 V c 4 t) (blk1 V c 5 t) (blk1 V c 6 t) (blk1 V c 7 t)
    (blk1 V c 8 t) (blk1 V c 9 t) (blk1 V c 10 t) (blk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem node_body_obligation (c : Dev nD) : BodyObligation (nodeDat (F := F) V c) (defs₀ (F := F)) Variants.none () Set.univ := fun t => by
  rw [bigSep_W1, bigSep_W1]
  exact node_sound_body V c t

end Cert.KernelIdeal.Regions

end
-- ==== Proof.KernelIdeal.WholeRun.lean ====
/-
  The whole program as a run, at any float instance: @main is six segments — a stretch of host operations, the
  edge region, three stretches of host operations, the node region — and every weakly fair execution of it ends
  with each unscoped buffer of a core holding a value named here.

  Between two segments a core holds every unscoped buffer whole: at launch its launch contents; after a host
  stretch what the stretch's operations compute from the contents before it; after a region the contents before
  it except the region's output array, which holds what the pipeline's write-backs leave (the fold of the grid
  points' output blocks).  Beside the buffers ride the core's generator register, at some state, and its dues, at
  nothing.  A region takes its windows' arrays out of the unscoped buffers on entry and puts them back on exit;
  an input window's array comes back as it went in.
-/
import proofs.«418484_j28518582846165_3_alg».proof.Proof.KernelIdeal.EdgeRegion
import proofs.«418484_j28518582846165_3_alg».proof.Proof.KernelIdeal.NodeRegion
import proofs.«418484_j28518582846165_3_alg».proof.Proof.Gen.KernelIdeal.Regions

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two regions -/

/-- What the edge region is entered from, read at the TensorCore's references. -/
abbrev entryE : (c : Dev nD) → (b : Ref sig .tc) → Buf (Elt F) ((c : Thread nD τ).loc b) := fun c b => V1 m c b

/-- What the edge region leaves: each of its windows' arrays at what the pipeline's write-backs leave there. -/
def leftE : Outs (F := F) := fun _ r c =>
  Pipeline.withArrays spec0 c (V1 m c) (fun w => (edgeDat (entryE m) c).arrAt w cfg0.N) (Proc.devRef .tc r)

/-- What the node region is entered from, read at the TensorCore's references. -/
abbrev entryN : (c : Dev nD) → (b : Ref sig .tc) → Buf (Elt F) ((c : Thread nD τ).loc b) := fun c b => V5 m (leftE m) c b

/-- What the two regions leave: the edge region's as above, the node region's likewise from its own entry. -/
def leftAll : Outs (F := F) := fun J r c =>
  if J = 6 then Pipeline.withArrays spec1 c (V5 m (leftE m) c) (fun w => (nodeDat (entryN m) c).arrAt w cfg1.N) (Proc.devRef .tc r)
  else leftE m J r c

theorem leftAll_two (r : Ref sig .tc) (c : Dev nD) : leftAll m 2 r c = leftE m 2 r c := if_neg (by decide)

theorem leftAll_six (r : Ref sig .tc) (c : Dev nD) : leftAll m 6 r c
    = Pipeline.withArrays spec1 c (V5 m (leftE m) c) (fun w => (nodeDat (entryN m) c).arrAt w cfg1.N) (Proc.devRef .tc r) := if_pos rfl

/-- The contents before the node region do not depend on what the node region leaves. -/
theorem V5_leftAll (c : Dev nD) : V5 m (leftAll m) c = V5 m (leftE m) c := by
  dsimp only [V5, V4, V3, V2]
  rw [leftAll_two]

/-- The contents the two regions are left at, read at the TensorCore's references. -/
abbrev exitE : (c : Dev nD) → (b : Ref sig .tc) → Buf (Elt F) ((c : Thread nD τ).loc b) := fun c b => V2 m (leftAll m) c b
abbrev exitN : (c : Dev nD) → (b : Ref sig .tc) → Buf (Elt F) ((c : Thread nD τ).loc b) := fun c b => V6 m (leftAll m) c b

/-- The edge region's output array after the region is what the write-backs leave. -/
theorem exitE_out (c : Dev nD) : V2 m (leftAll m) c main_v17 = (edgeDat (entryE m) c).arrAt 7 cfg0.N := by
  show Function.update (V1 m c) (Proc.devRef .tc main_v17) (leftAll m 2 main_v17 c) (Proc.devRef .tc main_v17) = _
  rw [Function.update_self, leftAll_two]
  unfold leftE
  exact Pipeline.withArrays_arr spec0 launch0.win.arr_inj c _ _ 7

/-- The node region's output array after the region is what the write-backs leave. -/
theorem exitN_out (c : Dev nD) : V6 m (leftAll m) c main_v40 = (nodeDat (entryN m) c).arrAt 12 cfg1.N := by
  show Function.update (V5 m (leftAll m) c) (Proc.devRef .tc main_v40) (leftAll m 6 main_v40 c) (Proc.devRef .tc main_v40) = _
  rw [Function.update_self, leftAll_six]
  exact Pipeline.withArrays_arr spec1 launch1.win.arr_inj c _ _ 12

/-- At the edge region's exit each of its arrays holds what the pipeline leaves: the output what the write-backs
    leave, an input what it held at entry. -/
theorem edge_left (c : Dev nD) (w : Fin cfg0.W) : (edgeDat (entryE m) c).arrAt w cfg0.N = exitE m c (Pipeline.arrRef spec0 w) :=
  match w with
  | ⟨0, _⟩ => (((edgeDat (entryE m) c).arrAt_in 0 rfl _).trans (edgeDat_A (entryE m) c 0)).trans (V2_of m (leftAll m) c main_v11 (by decide)).symm
  | ⟨1, _⟩ => (((edgeDat (entryE m) c).arrAt_in 1 rfl _).trans (edgeDat_A (entryE m) c 1)).trans (V2_of m (leftAll m) c main_arg2 (by decide)).symm
  | ⟨2, _⟩ => (((edgeDat (entryE m) c).arrAt_in 2 rfl _).trans (edgeDat_A (entryE m) c 2)).trans (V2_of m (leftAll m) c main_v12 (by decide)).symm
  | ⟨3, _⟩ => (((edgeDat (entryE m) c).arrAt_in 3 rfl _).trans (edgeDat_A (entryE m) c 3)).trans (V2_of m (leftAll m) c main_v13 (by decide)).symm
  | ⟨4, _⟩ => (((edgeDat (entryE m) c).arrAt_in 4 rfl _).trans (edgeDat_A (entryE m) c 4)).trans (V2_of m (leftAll m) c main_v14 (by decide)).symm
  | ⟨5, _⟩ => (((edgeDat (entryE m) c).arrAt_in 5 rfl _).trans (edgeDat_A (entryE m) c 5)).trans (V2_of m (leftAll m) c main_v15 (by decide)).symm
  | ⟨6, _⟩ => (((edgeDat (entryE m) c).arrAt_in 6 rfl _).trans (edgeDat_A (entryE m) c 6)).trans (V2_of m (leftAll m) c main_v16 (by decide)).symm
  | ⟨7, _⟩ => (exitE_out m c).symm
  | ⟨_ + 8, h⟩ => absurd h (Nat.not_lt.2 (Nat.le_add_left _ _))

/-- Every other buffer is as the edge region found it. -/
theorem edge_rest (c : Dev nD) : ∀ b, b ∉ Finset.univ.image (Pipeline.arrRef spec0) → exitE m c b = entryE m c b :=
  fun b hb => V2_of m (leftAll m) c b fun h => hb (by
    rw [List.mem_singleton] at h; subst h; exact Finset.mem_image.mpr ⟨7, Finset.mem_univ _, rfl⟩)

/-- An input window's array of the node region comes back as it went in. -/
theorem node_left_in (c : Dev nD) (w : Fin cfg1.W) (hin : (cfg1.win w).isOut = false)
    (hne : Pipeline.arrRef spec1 w ∉ ([main_v40] : List (Ref sig .tc))) :
    (nodeDat (entryN m) c).arrAt w cfg1.N = exitN m c (Pipeline.arrRef spec1 w) :=
  (((nodeDat (entryN m) c).arrAt_in w hin _).trans (nodeDat_A (entryN m) c w)).trans
    ((V6_of m (leftAll m) c (Pipeline.arrRef spec1 w) hne).trans (congrFun (V5_leftAll m c) _)).symm

set_option maxHeartbeats 4000000 in
/-- At the node region's exit each of its arrays holds what the pipeline leaves. -/
theorem node_left (c : Dev nD) (w : Fin cfg1.W) : (nodeDat (entryN m) c).arrAt w cfg1.N = exitN m c (Pipeline.arrRef spec1 w) :=
  match w with
  | ⟨0, _⟩ => node_left_in m c 0 rfl (by decide)
  | ⟨1, _⟩ => node_left_in m c 1 rfl (by decide)
  | ⟨2, _⟩ => node_left_in m c 2 rfl (by decide)
  | ⟨3, _⟩ => node_left_in m c 3 rfl (by decide)
  | ⟨4, _⟩ => node_left_in m c 4 rfl (by decide)
  | ⟨5, _⟩ => node_left_in m c 5 rfl (by decide)
  | ⟨6, _⟩ => node_left_in m c 6 rfl (by decide)
  | ⟨7, _⟩ => node_left_in m c 7 rfl (by decide)
  | ⟨8, _⟩ => node_left_in m c 8 rfl (by decide)
  | ⟨9, _⟩ => node_left_in m c 9 rfl (by decide)
  | ⟨10, _⟩ => node_left_in m c 10 rfl (by decide)
  | ⟨11, _⟩ => node_left_in m c 11 rfl (by decide)
  | ⟨12, _⟩ => (exitN_out m c).symm
  | ⟨_ + 13, h⟩ => absurd h (Nat.not_lt.2 (Nat.le_add_left _ _))

/-- Every other buffer is as the node region found it. -/
theorem node_rest (c : Dev nD) : ∀ b, b ∉ Finset.univ.image (Pipeline.arrRef spec1) → exitN m c b = entryN m c b :=
  fun b hb => (V6_of m (leftAll m) c b fun h => hb (by
    rw [List.mem_singleton] at h; subst h; exact Finset.mem_image.mpr ⟨12, Finset.mem_univ _, rfl⟩)).trans (congrFun (V5_leftAll m c) _)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => edgeDat (entryE m) c
  | ⟨1, _⟩ => fun c => nodeDat (entryN m) c

abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through every segment: the core's generator register at some state and its dues,
    at nothing. -/
abbrev rides (c : Dev nD) : sProp 𝕄 := iprop((∃ r, prngReg c r) ∗ ∃ W, owes (c : Thread nD τ) (0 : CellTallies nD τ sig Unit) W)
/-- The same at each of the three places the host segments name. -/
abbrev ridesAt : Fin 3 → Dev nD → sProp 𝕄 := fun _ c => rides (F := F) c

/-- The last thread state without the dues: every unscoped buffer at the last contents, the generator register at some
    state. -/
abbrev lastState (c : Dev nD) : sProp 𝕄 :=
  iprop(StableHlo.held (c : Thread nD τ) (Pipeline.ucRefs τ sig) (V6 m (leftAll m) c) ∗ ∃ r, prngReg c r)

/-! ## The regions as segments -/

set_option backward.isDefEq.respectTransparency.types false in
/-- The edge region over the thread state: entered from every unscoped buffer at the contents after the first host
    stretch, left at those contents with the output array replaced.  Its arrays are split out of the unscoped buffers
    on entry and put back on exit; the generator register goes into the pipeline's invariant and comes back; nothing
    is owed; the kernel has no semaphore of its own. -/
def edgeSeg : RegionSeg (pcfgs (F := F)) adm (pdats m) () defs₀ noVariants noPairs noLevel 0 where
  win := launch0.win.to₀
  block_pos := launch0.block_pos
  stage_whole := launch0.stage_whole
  K := PEmpty
  osem k := k.elim
  ho := Pipeline.OwnSemFacts.none _
  hbody c := (edge_body_obligation (entryE m) c).loose
  hwaits := Pipeline.hwaits_of_owed_zero _ _ _ _ noPairs noLevel 0 fun _ _ => rfl
  pre c := iprop(StableHlo.held (c : Thread nD τ) (Pipeline.ucRefs τ sig) (V1 m c) ∗ rides c)
  post c := iprop(StableHlo.held (c : Thread nD τ) (Pipeline.ucRefs τ sig) (V2 m (leftAll m) c) ∗ rides c)
  X c := iprop(∃ r, prngReg c r)
  Y c := iprop(∃ r, prngReg c r)
  Z c := Pipeline.unscopedRest (Ix := Unit) (Name := ℕ) (U := UR sig nD τ) (Lvl := ℕ) spec0 c (entryE m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entryE m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entryE m c) (exitE m c) ((pdats m 0 c).arrAt · cfg0.N) (edge_left m c) (edge_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node region over the thread state: entered from every unscoped buffer at the contents after the last host
    stretch, left at those contents with the output array replaced, which is what the launch reads at the end. -/
def nodeSeg : RegionSeg (pcfgs (F := F)) adm (pdats m) () defs₀ noVariants noPairs noLevel 1 where
  win := launch1.win.to₀
  block_pos := launch1.block_pos
  stage_whole := launch1.stage_whole
  K := PEmpty
  osem k := k.elim
  ho := Pipeline.OwnSemFacts.none _
  hbody c := (node_body_obligation (entryN m) c).loose
  hwaits := Pipeline.hwaits_of_owed_zero _ _ _ _ noPairs noLevel 1 fun _ _ => rfl
  pre c := iprop(StableHlo.held (c : Thread nD τ) (Pipeline.ucRefs τ sig) (V5 m (leftE m) c) ∗ rides c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entryN m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entryN m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entryN m c) (exitN m c) ((pdats m 1 c).arrAt · cfg1.N) (node_left m c) (node_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last host stretch leaves the thread state the node region is entered from: the contents before the node region
    do not depend on what that region leaves. -/
theorem node_entry (c : Dev nD) :
    (iprop(StableHlo.held (c : Thread nD τ) (Pipeline.ucRefs τ sig) (V5 m (leftAll m) c) ∗ rides c) : sProp 𝕄)
      ⊢ iprop(StableHlo.held (c : Thread nD τ) (Pipeline.ucRefs τ sig) (V5 m (leftE m) c) ∗ rides c) := by
  rw [V5_leftAll]

set_option backward.isDefEq.respectTransparency.types false in
/-- THE RUN.  From any memory with zero counters every weakly fair execution of @main on the TensorCores terminates,
    nothing faulting, and in every final state each unscoped buffer of core `c` holds the last contents of the fold
    above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V6 m (leftAll m) c b) := by
  refine Pipeline.θ_run_regions_kit_dev (pcfgs (F := F)) adm (pdats m) () cellOf_inj emb₁ defs₀ noVariants noPairs noLevel m ρ main
    (segs m (leftAll m) noVariants noPairs noLevel (ridesAt (F := F)) () (pdats m) (edgeSeg m) (nodeSeg m))
    (fun c Q => by
      rewrite [main_chain c, Seg.run_eq_chain,
        show (segs m (leftAll m) noVariants noPairs noLevel (ridesAt (F := F)) () (pdats m) (edgeSeg m) (nodeSeg m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rides c)) (Tₙ := lastState m)
    (hch := fun c => ⟨.rfl, .rfl, .rfl, .rfl, .rfl, node_entry m c, .rfl⟩)
    (hinit := by
      refine Pipeline.initEach noPairs noLevel fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m (leftAll m) c b)
    (hfin := fun c s' => by
      iintro ⟨⟨Hh, -⟩, HSI⟩
      unfold StableHlo.held
      imodintro
      iapply (pointsTo_read_all (Pipeline.ucRefs τ sig) (fun b => (((c : Thread nD τ)).1, b)) (V6 m (leftAll m) c) s')
      isplitl [Hh] <;> iassumption)
    (hQ := fun s h c => h c)

/-! ## The frame and the result -/

/-- Every argument array ends holding its launch contents: no host operation writes one, no region may change one. -/
theorem args_kept (r : PUnit × MemSt nD τ sig (Elt F))
    (h : ∀ c : Dev nD, ∀ b ∈ Pipeline.ucRefs τ sig, r.2.mem (((c : Thread nD τ)).1, b) = V6 m (leftAll m) c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨(h c _ (mem_unscoped main_arg0 (by decide))).trans (V6_main_arg0 m (leftAll m) c),
   (h c _ (mem_unscoped main_arg1 (by decide))).trans (V6_main_arg1 m (leftAll m) c),
   (h c _ (mem_unscoped main_arg2 (by decide))).trans (V6_main_arg2 m (leftAll m) c),
   (h c _ (mem_unscoped main_arg3 (by decide))).trans (V6_main_arg3 m (leftAll m) c),
   (h c _ (mem_unscoped main_arg4 (by decide))).trans (V6_main_arg4 m (leftAll m) c),
   (h c _ (mem_unscoped main_arg5 (by decide))).trans (V6_main_arg5 m (leftAll m) c),
   (h c _ (mem_unscoped main_arg6 (by decide))).trans (V6_main_arg6 m (leftAll m) c),
   (h c _ (mem_unscoped main_arg7 (by decide))).trans (V6_main_arg7 m (leftAll m) c),
   (h c _ (mem_unscoped main_arg8 (by decide))).trans (V6_main_arg8 m (leftAll m) c),
   (h c _ (mem_unscoped main_arg9 (by decide))).trans (V6_main_arg9 m (leftAll m) c),
   (h c _ (mem_unscoped main_arg10 (by decide))).trans (V6_main_arg10 m (leftAll m) c),
   (h c _ (mem_unscoped main_arg11 (by decide))).trans (V6_main_arg11 m (leftAll m) c),
   (h c _ (mem_unscoped main_arg12 (by decide))).trans (V6_main_arg12 m (leftAll m) c),
   (h c _ (mem_unscoped main_arg13 (by decide))).trans (V6_main_arg13 m (leftAll m) c),
   (h c _ (mem_unscoped main_arg14 (by decide))).trans (V6_main_arg14 m (leftAll m) c),
   (h c _ (mem_unscoped main_arg15 (by decide))).trans (V6_main_arg15 m (leftAll m) c),
   (h c _ (mem_unscoped main_arg16 (by decide))).trans (V6_main_arg16 m (leftAll m) c)⟩

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => args_kept m r h c) (run_all m ρ)

/-- The result array ends at what the node pipeline's write-backs leave. -/
theorem result_at (r : PUnit × MemSt nD τ sig (Elt F))
    (h : ∀ c : Dev nD, ∀ b ∈ Pipeline.ucRefs τ sig, r.2.mem (((c : Thread nD τ)).1, b) = V6 m (leftAll m) c b) (c : Dev nD) :
    r.2.mem ((c.tc : Thread nD τ).loc main_v40) = (nodeDat (entryN m) c).arrAt 12 cfg1.N :=
  (h c _ (mem_unscoped main_v40 (by decide))).trans (exitN_out m c)

/-- THE RUN, READ: the result array at what the node pipeline's write-backs leave, every argument array as launched. -/
theorem run_result : θ_run defs (onTc (τ := τ) (main (F := F))) ⟨m, fun _ => 0, ρ⟩ (fun r => ∀ c : Dev nD,
      r.2.mem ((c.tc : Thread nD τ).loc main_v40) = (nodeDat (entryN m) c).arrAt 12 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨result_at m r h c, args_kept m r h c⟩) (run_all m ρ)

end Cert.KernelIdeal.Regions

end
-- ==== Proof.RowSpec.lean ====
/-
  The node model's arithmetic on one row of 64 features, over the extended reals.

  A message-passing layer: per edge, the source node's features joined with the edge's features go through a
  linear map, a rectifier and a layer normalisation; the messages are summed per destination node and divided by
  the number of incoming edges (at least one); per node, the node's features joined with that mean and one
  global scalar go through a linear map, a rectifier, a layer normalisation, a second linear map and a second
  layer normalisation, and the node's own features are added back.

  Everything here is stated for ONE row.  Each linear map is written twice: as the kernel computes it (one
  64-term product per joined piece, the products added) and as the reference computes it (one product over the
  joined row).  The two agree because a finite sum over the joined index splits into the sums over the pieces;
  only commutativity and associativity of addition on the extended reals are used, so nothing here needs the
  entries to be finite.
-/
import Idealize.ShloMosaic.PureOps.Ideal
import Mathlib.Algebra.BigOperators.Fin

noncomputable section

namespace Cert.RowSpec

open Idealize.ShloMosaic

/-- The four single-precision words both programs spell, read at the ideal values: 0, 1, 64 and the
    variance offset 9.99999974e-6. -/
abbrev zeroW : EReal := Ideal.ofBits .f32 0x00000000#32
abbrev oneW : EReal := Ideal.ofBits .f32 0x3F800000#32
abbrev w64 : EReal := Ideal.ofBits .f32 0x42800000#32
abbrev epsW : EReal := Ideal.ofBits .f32 0x3727C5AC#32

/-- The mean of a row: its sum divided by 64. -/
def mean (z : Fin 64 → EReal) : EReal := Ideal.div (∑ k, z k) w64

/-- A row less its mean. -/
def centred (z : Fin 64 → EReal) (k : Fin 64) : EReal := z k - mean z

/-- Layer normalisation of a row `z` with gain `g` and offset `b`:
    `(z - mean z) * rsqrt (mean ((z - mean z)²) + eps) * g + b`. -/
def layerNorm (z g b : Fin 64 → EReal) (j : Fin 64) : EReal :=
  centred z j * Ideal.rsqrt (mean (fun k => centred z k * centred z k) + epsW) * g j + b j

/-- The rectifier: the larger of the entry and zero. -/
def relu (z : Fin 64 → EReal) (j : Fin 64) : EReal := max (z j) zeroW

/-! ## The edge message -/

/-- The edge's pre-activation as two 64-term products: source features against the upper half of the weight,
    edge features against the lower half, then the bias. -/
def edgePre (xg ea : Fin 64 → EReal) (wa wb : Fin 64 → Fin 64 → EReal) (b1 : Fin 64 → EReal) (j : Fin 64) : EReal :=
  (∑ k, xg k * wa k j + ∑ k, ea k * wb k j) + b1 j

/-- The edge's message row. -/
def edgeRow (xg ea : Fin 64 → EReal) (wa wb : Fin 64 → Fin 64 → EReal) (b1 g1 be1 : Fin 64 → EReal) : Fin 64 → EReal :=
  layerNorm (relu (edgePre xg ea wa wb b1)) g1 be1

/-- The same pre-activation as one 128-term product over the joined row. -/
def edgePreJoined (cat : Fin 128 → EReal) (w : Fin 128 → Fin 64 → EReal) (b1 : Fin 64 → EReal) (j : Fin 64) : EReal :=
  (∑ k, cat k * w k j) + b1 j

/-- The edge's message row from the joined row. -/
def edgeRowJoined (cat : Fin 128 → EReal) (w : Fin 128 → Fin 64 → EReal) (b1 g1 be1 : Fin 64 → EReal) : Fin 64 → EReal :=
  layerNorm (relu (edgePreJoined cat w b1)) g1 be1

/-- A sum over the joined index of 128 is the sum over its first 64 entries plus the sum over its last 64. -/
theorem sum_join128 (f : Fin 128 → EReal) :
    ∑ k, f k = ∑ k : Fin 64, f ⟨k.val, by omega⟩ + ∑ k : Fin 64, f ⟨64 + k.val, by omega⟩ := by
  rw [show (∑ k : Fin 128, f k) = ∑ k : Fin (64 + 64), f k from rfl, Fin.sum_univ_add]
  rfl

/-- The joined product is the two products added, when the joined row and weight are the pieces laid end to end. -/
theorem edgeRowJoined_eq (cat : Fin 128 → EReal) (w : Fin 128 → Fin 64 → EReal) (xg ea : Fin 64 → EReal)
    (wa wb : Fin 64 → Fin 64 → EReal) (b1 g1 be1 : Fin 64 → EReal)
    (hx : ∀ k : Fin 64, cat ⟨k.val, by omega⟩ = xg k) (he : ∀ k : Fin 64, cat ⟨64 + k.val, by omega⟩ = ea k)
    (hwa : ∀ (k : Fin 64) j, w ⟨k.val, by omega⟩ j = wa k j) (hwb : ∀ (k : Fin 64) j, w ⟨64 + k.val, by omega⟩ j = wb k j) :
    edgeRowJoined cat w b1 g1 be1 = edgeRow xg ea wa wb b1 g1 be1 := by
  unfold edgeRowJoined edgeRow
  congr 2
  funext j
  unfold edgePreJoined edgePre
  rw [sum_join128]
  simp only [hx, he, hwa, hwb]

/-! ## The node update -/

/-- The mean message: the summed messages divided by the edge count, the count taken as at least one. -/
def meanMsg (s : Fin 64 → EReal) (cnt : EReal) (k : Fin 64) : EReal := Ideal.div (s k) (max cnt oneW)

/-- The node's first pre-activation as the kernel computes it: own features and mean message each against their
    64 rows of the weight, the global scalar against the last row, then the bias. -/
def nodePre (x agg : Fin 64 → EReal) (u : EReal) (wa wb : Fin 64 → Fin 64 → EReal) (wu b2 : Fin 64 → EReal) (j : Fin 64) : EReal :=
  ((∑ k, x k * wa k j + ∑ k, agg k * wb k j) + u * wu j) + b2 j

/-- The second linear map. -/
def nodePre2 (h : Fin 64 → EReal) (w3 : Fin 64 → Fin 64 → EReal) (b3 : Fin 64 → EReal) (j : Fin 64) : EReal :=
  (∑ k, h k * w3 k j) + b3 j

/-- From the first pre-activation to the node's new features: rectifier, normalisation, second map, second
    normalisation, the residual. -/
def nodeTail (pre x : Fin 64 → EReal) (g2 be2 : Fin 64 → EReal) (w3 : Fin 64 → Fin 64 → EReal) (b3 g3 be3 : Fin 64 → EReal)
    (j : Fin 64) : EReal :=
  layerNorm (nodePre2 (layerNorm (relu pre) g2 be2) w3 b3) g3 be3 j + x j

/-- The node's new features as the kernel computes them, from the summed messages `s`, the count and the scalar. -/
def nodeRow (x s : Fin 64 → EReal) (cnt u : EReal) (wa wb : Fin 64 → Fin 64 → EReal) (wu b2 g2 be2 : Fin 64 → EReal)
    (w3 : Fin 64 → Fin 64 → EReal) (b3 g3 be3 : Fin 64 → EReal) : Fin 64 → EReal :=
  nodeTail (nodePre x (meanMsg s cnt) u wa wb wu b2) x g2 be2 w3 b3 g3 be3

/-- The first pre-activation as one 129-term product over the joined row. -/
def nodePreJoined (cat : Fin 129 → EReal) (w : Fin 129 → Fin 64 → EReal) (b2 : Fin 64 → EReal) (j : Fin 64) : EReal :=
  (∑ k, cat k * w k j) + b2 j

/-- The node's new features from the joined row. -/
def nodeRowJoined (cat : Fin 129 → EReal) (x : Fin 64 → EReal) (w : Fin 129 → Fin 64 → EReal) (b2 g2 be2 : Fin 64 → EReal)
    (w3 : Fin 64 → Fin 64 → EReal) (b3 g3 be3 : Fin 64 → EReal) : Fin 64 → EReal :=
  nodeTail (nodePreJoined cat w b2) x g2 be2 w3 b3 g3 be3

/-- A sum over the joined index of 129 is the sum over entries 0–63, plus the sum over entries 64–127, plus
    entry 128. -/
theorem sum_join129 (f : Fin 129 → EReal) :
    ∑ k, f k = (∑ k : Fin 64, f ⟨k.val, by omega⟩ + ∑ k : Fin 64, f ⟨64 + k.val, by omega⟩) + f ⟨128, by omega⟩ := by
  rw [show (∑ k : Fin 129, f k) = ∑ k : Fin (64 + 64 + 1), f k from rfl, Fin.sum_univ_add, Fin.sum_univ_add,
    Fin.sum_univ_one]
  rfl

/-- The joined product is the three pieces' products added. -/
theorem nodeRowJoined_eq (cat : Fin 129 → EReal) (w : Fin 129 → Fin 64 → EReal) (x agg : Fin 64 → EReal) (u : EReal)
    (wa wb : Fin 64 → Fin 64 → EReal) (wu b2 g2 be2 : Fin 64 → EReal) (w3 : Fin 64 → Fin 64 → EReal) (b3 g3 be3 : Fin 64 → EReal)
    (hx : ∀ k : Fin 64, cat ⟨k.val, by omega⟩ = x k) (ha : ∀ k : Fin 64, cat ⟨64 + k.val, by omega⟩ = agg k)
    (hu : cat ⟨128, by omega⟩ = u)
    (hwa : ∀ (k : Fin 64) j, w ⟨k.val, by omega⟩ j = wa k j) (hwb : ∀ (k : Fin 64) j, w ⟨64 + k.val, by omega⟩ j = wb k j)
    (hwu : ∀ j, w ⟨128, by omega⟩ j = wu j) :
    nodeRowJoined cat x w b2 g2 be2 w3 b3 g3 be3 = nodeTail (nodePre x agg u wa wb wu b2) x g2 be2 w3 b3 g3 be3 := by
  unfold nodeRowJoined
  congr 1
  funext j
  unfold nodePreJoined nodePre
  rw [sum_join129]
  simp only [hx, ha, hu, hwa, hwb, hwu]

end Cert.RowSpec

end
-- ==== Proof.LibKeepdims.lean ====
/-
  General lemmas for a row reduction kept as a column (`jnp.sum(axis=1, keepdims=True)`): the cast of a
  length-`a` vector to an `[a, 1]` column read at an index, such a column broadcast across `b` lanes read at
  an index, and, at the ideal values, a float sum over axis 1 of an `[a, b]` array read at a row as the sum
  over the row's entries.  Stated over literal coordinates built by `ix1` / `ix2`.
-/
import Idealize.ShloMosaic.Lib.ValueIdx
import Idealize.ShloMosaic.Lib.Pipeline.Value
import Idealize.ShloMosaic.PureOps.Ideal.Laws

noncomputable section

namespace Idealize.ShloMosaic.ValueIdx

open Idealize.ShloMosaic

variable {α : Type}

/-- A length-`a` vector cast to an `[a, 1]` column reads, at `(i, u)`, the vector at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- At the ideal values a float sum over axis 1 of an `[a, b]` array, read at row `i`, is the sum over `d` of the
    entries `(i, d)`. The accumulator's evidence is taken as the equation of words a printed body carries. -/
theorem rowSum_apply {a b : ℕ} (y : FVec Ideal ⟨2, ![a, b]⟩ .f32) (h : Shape.Reduces ⟨2, ![a, b]⟩ [1] ⟨1, ![a]⟩)
    (hφ : FKind.Formats .f32) (hacc : (0x00000000#32 : BitVec 32) = 0x00000000#32) (i : Fin a) :
    multiReduction .add [1] ⟨1, ![a]⟩ y 0x00000000#32 h hφ hacc (ix1 i) = ∑ d : Fin b, y (ix2 i d) := by
  refine (Ideal.multiReduction_add_single y 0x00000000#32 h hφ hacc (ix1 i)).trans ?_
  refine Finset.sum_congr rfl fun d _ => congrArg y ?_
  funext c
  apply Fin.ext
  match c with
  | ⟨0, _⟩ => rfl
  | ⟨1, _⟩ => rfl

end Idealize.ShloMosaic.ValueIdx

end
-- ==== Proof.EdgePayload.lean ====
/-
  The edge kernel's stored block, read at one entry: row `r`, feature `j` of what a grid point writes back is
  the edge message row of `RowSpec` computed from row `r` of the point's two input blocks and the whole
  weight, bias, gain and offset blocks.  Every operation of the body acts within a row (the two matrix products
  contract over the row's 64 features, the two lane sums run along the row), so an entry depends on its own row only.
-/
import proofs.«418484_j28518582846165_3_alg».proof.Proof.Gen.KernelIdeal.Skeleton
import proofs.«418484_j28518582846165_3_alg».proof.Proof.RowSpec
import proofs.«418484_j28518582846165_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload.Edge

open Idealize.ShloMosaic Idealize.ShloMosaic.ValueIdx Cert.KernelIdeal Cert.KernelIdeal.Gen Cert.RowSpec

/-! ## The matrix product at an entry

The product contracts axis 1 of the block with axis 0 of the weight.  At output entry `i` and contraction index `q`
the block is read at `(i 0, q)` and the weight at `(q, i 1)`: the four coordinate facts below, then the sum over the
one-axis contraction index re-indexed by `Fin 64`. -/

theorem lhs_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- A product of an `[8000, 64]` block with a `[64, 64]` weight into the zero accumulator, read at `(r, j)`: row `r` of
    the block against column `j` of the weight. -/
theorem matmul_row {φ₁ φ₂ : FTy} (l : FVec Ideal S8000x64 φ₁) (w : FVec Ideal S64x64 φ₂) (r : Fin 8000) (j : Fin 64) :
    FloatOps.matmul dot_S8000x64_S64x64_S8000x64_1_0_0_1_n_n none l w (constant (F := Ideal) S8000x64 .f32 0x00000000#32) (ix2 r j)
      = ∑ k : Fin 64, l (ix2 r k) * w (ix2 k j) := by
  rw [Ideal.matmul_constant_zero_apply, ← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 r j) ((contrEquiv1 dot_S8000x64_S64x64_S8000x64_1_0_0_1_n_n 64 rfl rfl).symm k) = ix2 r k := funext fun a => Fin.ext (by
    match a with
    | ⟨0, _⟩ => exact lhs_0 _ _
    | ⟨1, _⟩ => exact (lhs_1 _ _).trans hk)
  have er : dot_S8000x64_S64x64_S8000x64_1_0_0_1_n_n.rhsIdx (ix2 r j) ((contrEquiv1 dot_S8000x64_S64x64_S8000x64_1_0_0_1_n_n 64 rfl rfl).symm k) = ix2 k j := funext fun a => Fin.ext (by
    match a with
    | ⟨0, _⟩ => exact (rhs_0 _ _).trans hk
    | ⟨1, _⟩ => exact rhs_1 _ _)
  rw [el, er]

/-! ## The body's layout forms, for any block

Three spellings recur in the body: a `[1, 64]` row laid over the 8000 rows; a block's lane sum divided by 64, kept
as a column and laid back over the 64 lanes; and the same column with the offset added and the reciprocal square
root taken.  Each is named here as the body writes it and read at an entry. -/

/-- A `[1, 64]` row, through its identity cast, laid over the 8000 rows. -/
abbrev rowOver (g : FVec Ideal S1x64 .f32) : FVec Ideal S8000x64 .f32 :=
  broadcastTo S8000x64 (shapeCast S1x64 g shapeCasts_S1x64_S1x64) broadcasts_S1x64_S8000x64

/-- A block's lane sums divided by 64, as an `[8000, 1]` column. -/
abbrev meanCol (z : FVec Ideal S8000x64 .f32) (hφ : FTy.f32 = FTy.f32 ∨ FTy.f32 = FTy.bf16)
    (hacc : (0x00000000#32 : BitVec 32) = 0x00000000#32) : FVec Ideal S8000x1 .f32 :=
  divf (shapeCast S8000x1 (multiReduction .add [1] S8000 z 0x00000000#32 reduces_S8000x64_S8000 hφ hacc) shapeCasts_S8000_S8000x1)
    (broadcast S8000x1 (FloatOps.ofBits (F := Ideal) .f32 0x42800000#32))

/-- The column of means laid back over the 64 lanes. -/
abbrev meanOver (z : FVec Ideal S8000x64 .f32) (hφ : FTy.f32 = FTy.f32 ∨ FTy.f32 = FTy.bf16)
    (hacc : (0x00000000#32 : BitVec 32) = 0x00000000#32) : FVec Ideal S8000x64 .f32 :=
  broadcastTo S8000x64 (meanCol z hφ hacc) broadcasts_S8000x1_S8000x64

/-- The column of means with the offset added, under the reciprocal square root, laid back over the 64 lanes. -/
abbrev rstdOver (q : FVec Ideal S8000x64 .f32) (hφ : FTy.f32 = FTy.f32 ∨ FTy.f32 = FTy.bf16)
    (hacc : (0x00000000#32 : BitVec 32) = 0x00000000#32) : FVec Ideal S8000x64 .f32 :=
  broadcastTo S8000x64
    (rsqrt (addf (meanCol q hφ hacc) (broadcast S8000x1 (FloatOps.ofBits (F := Ideal) .f32 0x3727C5AC#32))))
    broadcasts_S8000x1_S8000x64

/-- The row laid over the block reads, at `(r, j)`, the row's entry `j`. -/
theorem rowOver_apply (g : FVec Ideal S1x64 .f32) (r : Fin 8000) (j : Fin 64) :
    rowOver g (ix2 r j) = g (ix2 (0 : Fin 1) j) := by
  unfold rowOver
  rw [broadcastTo_1b_ab_apply, shapeCast_self]

/-- The column of means reads, in row `r`, the mean of row `r`: the lane sum at a row is the sum over the row. -/
theorem meanCol_apply (z : FVec Ideal S8000x64 .f32) (hφ : FTy.f32 = FTy.f32 ∨ FTy.f32 = FTy.bf16)
    (hacc : (0x00000000#32 : BitVec 32) = 0x00000000#32) (r : Fin 8000) :
    meanCol z hφ hacc (ix2 r (0 : Fin 1)) = mean (fun k => z (ix2 r k)) := by
  unfold meanCol
  rw [divf_apply, shapeCast_a_a1_apply, rowSum_apply z reduces_S8000x64_S8000 hφ hacc r]
  rfl

/-- Laid back over the lanes it reads the mean of row `r` at every `(r, j)`. -/
theorem meanOver_apply (z : FVec Ideal S8000x64 .f32) (hφ : FTy.f32 = FTy.f32 ∨ FTy.f32 = FTy.bf16)
    (hacc : (0x00000000#32 : BitVec 32) = 0x00000000#32) (r : Fin 8000) (j : Fin 64) :
    meanOver z hφ hacc (ix2 r j) = mean (fun k => z (ix2 r k)) := by
  unfold meanOver
  rw [broadcastTo_a1_ab_apply, meanCol_apply]

/-- The reciprocal-root form reads, at `(r, j)`, the reciprocal square root of row `r`'s mean plus the offset. -/
theorem rstdOver_apply (q : FVec Ideal S8000x64 .f32) (hφ : FTy.f32 = FTy.f32 ∨ FTy.f32 = FTy.bf16)
    (hacc : (0x00000000#32 : BitVec 32) = 0x00000000#32) (r : Fin 8000) (j : Fin 64) :
    rstdOver q hφ hacc (ix2 r j) = Ideal.rsqrt (mean (fun k => q (ix2 r k)) + epsW) := by
  unfold rstdOver
  rw [broadcastTo_a1_ab_apply]
  show Ideal.rsqrt (meanCol q hφ hacc (ix2 r (0 : Fin 1)) + epsW) = _
  rw [meanCol_apply]

/-! ## The layer normalisation at an entry -/

/-- The layer normalisation as the body spells it — the mean laid over the lanes subtracted, the centred block's
    squares through the reciprocal-root form, the gain row, the offset row, and the narrowing of the result, which is
    the identity on the ideal values — read at `(r, j)`: the normalisation of row `r`. -/
theorem layerNormOver_apply (z : FVec Ideal S8000x64 .f32) (g b : FVec Ideal S1x64 .f32)
    (hφ hφ' : FTy.f32 = FTy.f32 ∨ FTy.f32 = FTy.bf16) (hacc hacc' : (0x00000000#32 : BitVec 32) = 0x00000000#32)
    (r : Fin 8000) (j : Fin 64) :
    truncf .bf16
        (addf
          (mulf
            (mulf (subf z (meanOver z hφ hacc))
              (rstdOver (mulf (subf z (meanOver z hφ hacc)) (subf z (meanOver z hφ hacc))) hφ' hacc'))
            (rowOver g))
          (rowOver b))
        bitsLt_bf16_f32 (ix2 r j)
      = layerNorm (fun k => z (ix2 r k)) (fun k => g (ix2 (0 : Fin 1) k)) (fun k => b (ix2 (0 : Fin 1) k)) j := by
  have hc : ∀ k : Fin 64, subf z (meanOver z hφ hacc) (ix2 r k) = centred (fun k => z (ix2 r k)) k := fun k => by
    rw [subf_apply, meanOver_apply]
    rfl
  have hq : (fun k : Fin 64 => mulf (subf z (meanOver z hφ hacc)) (subf z (meanOver z hφ hacc)) (ix2 r k))
      = fun k => centred (fun k => z (ix2 r k)) k * centred (fun k => z (ix2 r k)) k :=
    funext fun k => by rw [mulf_apply, hc k]
  rw [truncf_apply, addf_apply, mulf_apply, mulf_apply, hc j, rstdOver_apply, hq, rowOver_apply, rowOver_apply]
  rfl

/-! ## The rectified pre-activation along a row -/

/-- The rectified pre-activation as the body spells it — the source block (through its identity cast) against the
    upper weight, the narrowed edge block against the lower weight, both into the zero accumulator, the sum, the bias
    row laid over the block, the maximum with the zero splat — read along row `r`.  Narrowing is the identity on the
    ideal values, and so are the casts of a shape to itself. -/
theorem reluPre_row (xg : FVec Ideal S8000x64 .bf16) (ea : FVec Ideal S8000x64 .f32) (wa wb : FVec Ideal S64x64 .f32)
    (b1 : FVec Ideal S1x64 .f32) (r : Fin 8000) :
    (fun k : Fin 64 =>
        maximumf
          (addf
            (addf
              (FloatOps.matmul dot_S8000x64_S64x64_S8000x64_1_0_0_1_n_n none (shapeCast S8000x64 xg shapeCasts_S8000x64_S8000x64)
                (truncf .bf16 (shapeCast S64x64 wa shapeCasts_S64x64_S64x64) bitsLt_bf16_f32)
                (constant (F := Ideal) S8000x64 .f32 0x00000000#32))
              (FloatOps.matmul dot_S8000x64_S64x64_S8000x64_1_0_0_1_n_n none (truncf .bf16 ea bitsLt_bf16_f32)
                (truncf .bf16 (shapeCast S64x64 wb shapeCasts_S64x64_S64x64) bitsLt_bf16_f32)
                (constant (F := Ideal) S8000x64 .f32 0x00000000#32)))
            (rowOver b1))
          (broadcast S8000x64 (FloatOps.ofBits (F := Ideal) .f32 0x00000000#32)) (ix2 r k))
      = relu (edgePre (fun k => xg (ix2 r k)) (fun k => ea (ix2 r k)) (fun k j => wa (ix2 k j)) (fun k j => wb (ix2 k j))
          (fun j => b1 (ix2 (0 : Fin 1) j))) :=
  funext fun k => by
    rw [maximumf_apply, addf_apply, addf_apply, matmul_row, matmul_row, rowOver_apply, shapeCast_self, shapeCast_self,
      shapeCast_self]
    rfl

end Cert.KernelIdeal.Payload.Edge

namespace Cert.KernelIdeal.Payload

open Idealize.ShloMosaic Idealize.ShloMosaic.ValueIdx Cert.KernelIdeal Cert.KernelIdeal.Gen Cert.RowSpec

/-- Entry `(r, j)` of the block the edge kernel stores, from the blocks it loads: source features `xg`, edge
    features `ea`, the two weight halves, bias, gain, offset. -/
theorem edgePayload_apply (xg : Vec Ideal S8000x64 .bf16) (ea : Vec Ideal S8000x64 .f32) (wa wb : Vec Ideal S64x64 .f32)
    (b1 g1 be1 : Vec Ideal S1x64 .f32) (r : Fin 8000) (j : Fin 64) :
    k0_pay1 (F := Ideal) (k0_pay2 (F := Ideal) xg ea wa wb b1 g1) be1 (ix2 r j)
      = edgeRow (fun k => xg (ix2 r k)) (fun k => ea (ix2 r k)) (fun k j => wa (ix2 k j)) (fun k j => wb (ix2 k j))
          (fun j => b1 (ix2 (0 : Fin 1) j)) (fun j => g1 (ix2 (0 : Fin 1) j)) (fun j => be1 (ix2 (0 : Fin 1) j)) j := by
  unfold k0_pay1 k0_pay2
  refine (Edge.layerNormOver_apply _ g1 be1 _ _ _ _ r j).trans ?_
  rw [Edge.reluPre_row xg ea wa wb b1 r]
  rfl

end Cert.KernelIdeal.Payload

end
-- ==== Proof.KernelIdeal.EdgeValue.lean ====
/-
  The edge region's output array after the run, at the ideal values: entry `(e, j)` is the message row of
  `RowSpec` computed from row `e` of the gathered source features and of the edge features and from the whole
  weight halves, bias, gain and offset, as the region finds them.

  Grid point `t` writes back rows `8000 t … 8000 t + 7999`: its output block is the body's value of its input
  blocks, whose entry `(r, j)` is the message row of row `r` of the two streamed blocks, and row `r` of a
  streamed block is row `8000 t + r` of its array, while the five small operands are their arrays whole.  The 150
  blocks cover the array, row `e` lying in block `e / 8000`.
-/
import proofs.«418484_j28518582846165_3_alg».proof.Proof.KernelIdeal.EdgeRegion
import proofs.«418484_j28518582846165_3_alg».proof.Proof.EdgePayload
import Idealize.ShloMosaic.Lib.Pipeline.Value
import Idealize.ShloMosaic.Lib.ValueIdx

set_option maxRecDepth 16384

noncomputable section

namespace Cert.KernelIdeal.Values

open Cert.KernelIdeal Cert.KernelIdeal.Gen Cert.KernelIdeal.Regions Cert.KernelIdeal.Payload Cert.RowSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- The messages of all edges as one array: row `e` from row `e` of the source features `xg` and of the edge
    features `ea`. -/
def edgeArr (xg : S1200000x64.Idx → EReal) (ea : S1200000x64.Idx → EReal) (wa wb : S64x64.Idx → EReal)
    (b1 g1 be1 : S1x64.Idx → EReal) : S1200000x64.Idx → EReal := fun i =>
  edgeRow (fun k => xg (ix2 (⟨(i 0).val, (i 0).isLt⟩ : Fin 1200000) k)) (fun k => ea (ix2 (⟨(i 0).val, (i 0).isLt⟩ : Fin 1200000) k))
    (fun k j => wa (ix2 k j)) (fun k j => wb (ix2 k j))
    (fun j => b1 (ix2 (0 : Fin 1) j)) (fun j => g1 (ix2 (0 : Fin 1) j)) (fun j => be1 (ix2 (0 : Fin 1) j))
    (⟨(i 1).val, (i 1).isLt⟩ : Fin 64)

/-- The printed index maps, decided over the grid: the two streamed inputs and the output move one block of rows per
    point; the five small operands stay at their one block. -/
theorem edge_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem edge_points (t : Fin cfg0.N) : t.val < 150 := by
  have h := t.isLt
  have hN : cfg0.N = 150 := N_0
  omega

/-! ## Each input block as rows of its array -/

/-- Row `r` of the source-feature block at point `t` is row `8000 t + r` of the gathered array. -/
theorem xgBlk_apply (c : Dev nD) (t : Fin cfg0.N) (r : Fin 8000) (k : Fin 64) :
    (blk0 V c 0 t : Vec Ideal S8000x64 .bf16) (ix2 r k)
      = (V c main_v11 : S1200000x64.Idx → EReal) (ix2 (⟨8000 * t.val + r.val, by have := edge_points t; omega⟩ : Fin 1200000) k) := by
  obtain ⟨e00, e01, -⟩ := edge_idx t
  unfold blk0
  rw [View.read_apply]
  show V c main_v11 _ = V c main_v11 _
  congr 1
  funext a
  apply Fin.ext
  match a with
  | ⟨0, _⟩ => show win0_0.index t (0 : Fin 2) * 8000 + 1 * r.val = 8000 * t.val + r.val; rw [e00]; omega
  | ⟨1, _⟩ => show win0_0.index t (1 : Fin 2) * 64 + 1 * k.val = k.val; rw [e01]; omega

/-- Row `r` of the edge-feature block at point `t` is row `8000 t + r` of the edge features. -/
theorem eaBlk_apply (c : Dev nD) (t : Fin cfg0.N) (r : Fin 8000) (k : Fin 64) :
    (blk0 V c 1 t : Vec Ideal S8000x64 .f32) (ix2 r k)
      = (V c main_arg2 : S1200000x64.Idx → EReal) (ix2 (⟨8000 * t.val + r.val, by have := edge_points t; omega⟩ : Fin 1200000) k) := by
  obtain ⟨-, -, e10, e11, -⟩ := edge_idx t
  unfold blk0
  rw [View.read_apply]
  show V c main_arg2 _ = V c main_arg2 _
  congr 1
  funext a
  apply Fin.ext
  match a with
  | ⟨0, _⟩ => show win0_1.index t (0 : Fin 2) * 8000 + 1 * r.val = 8000 * t.val + r.val; rw [e10]; omega
  | ⟨1, _⟩ => show win0_1.index t (1 : Fin 2) * 64 + 1 * k.val = k.val; rw [e11]; omega

/-- The upper weight half's block at any point is the array whole. -/
theorem waBlk_apply (c : Dev nD) (t : Fin cfg0.N) (k j : Fin 64) :
    (blk0 V c 2 t : Vec Ideal S64x64 .f32) (ix2 k j) = (V c main_v12 : S64x64.Idx → EReal) (ix2 k j) := by
  obtain ⟨-, -, -, -, e20, e21, -⟩ := edge_idx t
  unfold blk0
  rw [View.read_apply]
  show V c main_v12 _ = V c main_v12 _
  congr 1
  funext a
  apply Fin.ext
  match a with
  | ⟨0, _⟩ => show win0_2.index t (0 : Fin 2) * 64 + 1 * k.val = k.val; rw [e20]; omega
  | ⟨1, _⟩ => show win0_2.index t (1 : Fin 2) * 64 + 1 * j.val = j.val; rw [e21]; omega

/-- The lower weight half's block at any point is the array whole. -/
theorem wbBlk_apply (c : Dev nD) (t : Fin cfg0.N) (k j : Fin 64) :
    (blk0 V c 3 t : Vec Ideal S64x64 .f32) (ix2 k j) = (V c main_v13 : S64x64.Idx → EReal) (ix2 k j) := by
  obtain ⟨-, -, -, -, -, -, e30, e31, -⟩ := edge_idx t
  unfold blk0
  rw [View.read_apply]
  show V c main_v13 _ = V c main_v13 _
  congr 1
  funext a
  apply Fin.ext
  match a with
  | ⟨0, _⟩ => show win0_3.index t (0 : Fin 2) * 64 + 1 * k.val = k.val; rw [e30]; omega
  | ⟨1, _⟩ => show win0_3.index t (1 : Fin 2) * 64 + 1 * j.val = j.val; rw [e31]; omega

/-- The bias row's block at any point is the array whole. -/
theorem b1Blk_apply (c : Dev nD) (t : Fin cfg0.N) (j : Fin 64) :
    (blk0 V c 4 t : Vec Ideal S1x64 .f32) (ix2 (0 : Fin 1) j) = (V c main_v14 : S1x64.Idx → EReal) (ix2 (0 : Fin 1) j) := by
  obtain ⟨-, -, -, -, -, -, -, -, e40, e41, -⟩ := edge_idx t
  unfold blk0
  rw [View.read_apply]
  show V c main_v14 _ = V c main_v14 _
  congr 1
  funext a
  apply Fin.ext
  match a with
  | ⟨0, _⟩ => show win0_4.index t (0 : Fin 2) * 1 + 1 * 0 = 0; rw [e40]
  | ⟨1, _⟩ => show win0_4.index t (1 : Fin 2) * 64 + 1 * j.val = j.val; rw [e41]; omega

/-- The gain row's block at any point is the array whole. -/
theorem g1Blk_apply (c : Dev nD) (t : Fin cfg0.N) (j : Fin 64) :
    (blk0 V c 5 t : Vec Ideal S1x64 .f32) (ix2 (0 : Fin 1) j) = (V c main_v15 : S1x64.Idx → EReal) (ix2 (0 : Fin 1) j) := by
  obtain ⟨-, -, -, -, -, -, -, -, -, -, e50, e51, -⟩ := edge_idx t
  unfold blk0
  rw [View.read_apply]
  show V c main_v15 _ = V c main_v15 _
  congr 1
  funext a
  apply Fin.ext
  match a with
  | ⟨0, _⟩ => show win0_5.index t (0 : Fin 2) * 1 + 1 * 0 = 0; rw [e50]
  | ⟨1, _⟩ => show win0_5.index t (1 : Fin 2) * 64 + 1 * j.val = j.val; rw [e51]; omega

/-- The offset row's block at any point is the array whole. -/
theorem be1Blk_apply (c : Dev nD) (t : Fin cfg0.N) (j : Fin 64) :
    (blk0 V c 6 t : Vec Ideal S1x64 .f32) (ix2 (0 : Fin 1) j) = (V c main_v16 : S1x64.Idx → EReal) (ix2 (0 : Fin 1) j) := by
  obtain ⟨-, -, -, -, -, -, -, -, -, -, -, -, e60, e61, -⟩ := edge_idx t
  unfold blk0
  rw [View.read_apply]
  show V c main_v16 _ = V c main_v16 _
  congr 1
  funext a
  apply Fin.ext
  match a with
  | ⟨0, _⟩ => show win0_6.index t (0 : Fin 2) * 1 + 1 * 0 = 0; rw [e60]
  | ⟨1, _⟩ => show win0_6.index t (1 : Fin 2) * 64 + 1 * j.val = j.val; rw [e61]; omega

/-! ## What a point writes back, and the array -/

/-- The edge messages from the region's entry contents. -/
abbrev edgeMsgs (c : Dev nD) : S1200000x64.Idx → EReal :=
  edgeArr (V c main_v11) (V c main_arg2) (V c main_v12) (V c main_v13) (V c main_v14) (V c main_v15) (V c main_v16)

/-- What point `t` writes back is block `t` of the message array. -/
theorem edge_flushed (c : Dev nD) (t : Fin cfg0.N) :
    (edgeDat V c).flushed 7 t = ((cfg0.win 7).blk t).view.read (Elt Ideal) (edgeMsgs V c) := by
  show (cfg0.win 7).cut (grid0.coords t) ((edgeDat V c).after 7 t) = _
  rw [edgeAfter_7]
  unfold edgeOut
  rw [View.canon_unit_zero zeroOff]
  simp only [View.ld_unit_zero (S := S8000x64) zeroOff, View.ld_unit_zero (S := S64x64) zeroOff, View.ld_unit_zero (S := S1x64) zeroOff]
  obtain ⟨-, -, -, -, -, -, -, -, -, -, -, -, -, -, e70, e71⟩ := edge_idx t
  funext y
  obtain ⟨r, j, rfl⟩ : ∃ (r : Fin 8000) (j : Fin 64), y = ix2 r j := ⟨y 0, y 1, eq_ix2 y⟩
  rw [View.read_apply]
  refine (edgePayload_apply _ _ _ _ _ _ _ r j).trans ?_
  have hi : ((cfg0.win 7).blk t).view.emb (ix2 r j) = ix2 (⟨8000 * t.val + r.val, by have := edge_points t; omega⟩ : Fin 1200000) j := by
    funext a
    apply Fin.ext
    match a with
    | ⟨0, _⟩ => show win0_7.index t (0 : Fin 2) * 8000 + 1 * r.val = 8000 * t.val + r.val; rw [e70]; omega
    | ⟨1, _⟩ => show win0_7.index t (1 : Fin 2) * 64 + 1 * j.val = j.val; rw [e71]; omega
  rw [hi]
  unfold edgeMsgs edgeArr
  simp only [xgBlk_apply, eaBlk_apply, waBlk_apply, wbBlk_apply, b1Blk_apply, g1Blk_apply, be1Blk_apply]
  rfl

/-- An index of the array is in point `t`'s block iff each coordinate is in the block's range on its axis. -/
theorem edge_mem_blk (t : Fin cfg0.N) (i : S1200000x64.Idx) :
    i ∈ ((cfg0.win 7).blk t).view.set ↔ ∀ a : Fin 2, win0_7.index t a * S8000x64.size a ≤ (i a).val ∧ (i a).val < win0_7.index t a * S8000x64.size a + S8000x64.size a := by
  show i ∈ ((View.whole main_v17).slice (win0_7.rect t)).set ↔ _
  rw [View.set_slice_whole, Rect.mem_set_unit]
  exact Iff.rfl

/-- THE ARRAY after the region: the message array. -/
theorem edge_final (c : Dev nD) : (edgeDat V c).arrAt 7 cfg0.N = edgeMsgs V c :=
  (edgeDat V c).arrAt_eq_of_cover 7 (edgeMsgs V c) (fun t _ => edge_flushed V c t) fun i => by
    have hi0 : (i 0).val < 1200000 := (i 0).isLt
    have hi1 : (i 1).val < 64 := (i 1).isLt
    have hN : cfg0.N = 150 := N_0
    refine ⟨⟨(i 0).val / 8000, by omega⟩, flush0_7 _, ?_⟩
    rw [edge_mem_blk]
    obtain ⟨-, -, -, -, -, -, -, -, -, -, -, -, -, -, e70, e71⟩ := edge_idx ⟨(i 0).val / 8000, by omega⟩
    intro a
    match a with
    | ⟨0, _⟩ =>
      show win0_7.index _ (0 : Fin 2) * 8000 ≤ (i 0).val ∧ (i 0).val < win0_7.index _ (0 : Fin 2) * 8000 + 8000
      rw [e70]; show (i 0).val / 8000 * 8000 ≤ (i 0).val ∧ (i 0).val < (i 0).val / 8000 * 8000 + 8000; omega
    | ⟨1, _⟩ =>
      show win0_7.index _ (1 : Fin 2) * 64 ≤ (i 1).val ∧ (i 1).val < win0_7.index _ (1 : Fin 2) * 64 + 64
      rw [e71]; omega

end Cert.KernelIdeal.Values

end
-- ==== Proof.NodePayload.lean ====
/-
  The node kernel's stored block, read at one entry: row `r`, feature `j` of what a grid point writes back is
  the node row of `RowSpec` computed from row `r` of the point's feature block and of its packed block (64
  summed-message lanes, then the edge count in lane 64 and the global scalar in lane 65) and the whole weight,
  bias, gain and offset blocks.  Every operation of the body acts within a row.
-/
import proofs.«418484_j28518582846165_3_alg».proof.Proof.Gen.KernelIdeal.Skeleton
import proofs.«418484_j28518582846165_3_alg».proof.Proof.RowSpec
import proofs.«418484_j28518582846165_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.RowSpec

/-! ## The matrix product at an entry -/

/-- The left operand's row coordinate is the output's row. -/
theorem nodeLhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column coordinate is the contraction index. -/
theorem nodeLhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row coordinate is the contraction index. -/
theorem nodeRhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column coordinate is the output's column. -/
theorem nodeRhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A `[5000, 64]` by `[64, 64]` product accumulated into zero reads, at `(r, j)`, the 64-term sum of row `r` of the
    left operand against column `j` of the right. -/
theorem nodeMatmul_apply {φ₁ φ₂ : FTy} (l : FVec Ideal S5000x64 φ₁) (w : FVec Ideal S64x64 φ₂) (r : Fin 5000) (j : Fin 64) :
    matmul dot_S5000x64_S64x64_S5000x64_1_0_0_1_n_n none l w (constant (F := Ideal) S5000x64 .f32 0x00000000#32) (ix2 r j)
      = ∑ k : Fin 64, l (ix2 r k) * w (ix2 k j) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r j) ((ValueIdx.contrEquiv1 dot_S5000x64_S64x64_S5000x64_1_0_0_1_n_n 64 rfl rfl).symm k) = ix2 r k := funext fun a => Fin.ext (by
    match a with
    | ⟨0, _⟩ => exact nodeLhs_0 _ _
    | ⟨1, _⟩ => exact (nodeLhs_1 _ _).trans hk)
  have er : dot_S5000x64_S64x64_S5000x64_1_0_0_1_n_n.rhsIdx (ix2 r j) ((ValueIdx.contrEquiv1 dot_S5000x64_S64x64_S5000x64_1_0_0_1_n_n 64 rfl rfl).symm k) = ix2 k j := funext fun a => Fin.ext (by
    match a with
    | ⟨0, _⟩ => exact (nodeRhs_0 _ _).trans hk
    | ⟨1, _⟩ => exact nodeRhs_1 _ _)
  rw [el, er]

/-! ## Small layout and pointwise facts at an entry -/

/-- A reciprocal square root acts entry by entry. -/
theorem nodeRsqrt_apply {s : Shape} {φ : FTy} (a : FVec Ideal s φ) (i : s.Idx) : rsqrt a i = Ideal.rsqrt (a i) := rfl

/-- A `[1, 64]` row broadcast down the 5000 rows reads at `(r, j)` the row's entry `j`. -/
theorem nodeRowBcast_apply {α : Type} (g : S1x64.Idx → α) (r : Fin 5000) (j : Fin 64) :
    broadcastTo S5000x64 g broadcasts_S1x64_S5000x64 (ix2 r j) = g (ix2 (0 : Fin 1) j) :=
  broadcastTo_1b_ab_apply g broadcasts_S1x64_S5000x64 r j

/-- A `[5000, 1]` column broadcast across the 64 lanes reads at `(r, j)` the column's entry in row `r`. -/
theorem nodeColBcast_apply {α : Type} (v : S5000x1.Idx → α) (r : Fin 5000) (j : Fin 64) :
    broadcastTo S5000x64 v broadcasts_S5000x1_S5000x64 (ix2 r j) = v (ix2 r (0 : Fin 1)) :=
  broadcastTo_a1_ab_apply v broadcasts_S5000x1_S5000x64 r j

/-- The lane sum of a `[5000, 64]` value kept as a column reads, in row `r`, the sum of the row's 64 entries. -/
theorem nodeRowSumCol_apply (z : FVec Ideal S5000x64 .f32) (r : Fin 5000) :
    shapeCast S5000x1 (multiReduction (F := Ideal) .add [1] S5000 z 0x00000000#32 reduces_S5000x64_S5000 (.inl rfl) rfl) shapeCasts_S5000_S5000x1 (ix2 r (0 : Fin 1))
      = ∑ k : Fin 64, z (ix2 r k) := by
  rw [shapeCast_a_a1_apply, rowSum_apply]

/-! ## The second half of the body: from the centred value and its square to the second normalisation's scaled value -/

/-- From a value whose row `r` is `c` and a value whose row `r` is `c` squared entry by entry: the variance column, its
    reciprocal root, gain and offset (the first normalisation finished), the second linear map with its bias, and the
    second normalisation up to its scaled value — centred entry times the reciprocal root of variance plus offset. -/
theorem nodePay4_apply (v38 v39 : FVec Ideal S5000x64 .f32) (g2 be2 : Vec Ideal S1x64 .f32) (w3 : Vec Ideal S64x64 .f32) (b3 : Vec Ideal S1x64 .f32)
    (r : Fin 5000) (c : Fin 64 → EReal) (h38 : ∀ k, v38 (ix2 r k) = c k) (h39 : ∀ k, v39 (ix2 r k) = c k * c k) (j : Fin 64) :
    k1_pay4 (F := Ideal) v38 v39 g2 be2 w3 b3 (ix2 r j)
      = centred (nodePre2 (fun k => c k * Ideal.rsqrt (mean (fun k => c k * c k) + epsW) * g2 (ix2 (0 : Fin 1) k) + be2 (ix2 (0 : Fin 1) k))
            (fun k j => w3 (ix2 k j)) (fun j => b3 (ix2 (0 : Fin 1) j))) j
          * Ideal.rsqrt (mean (fun k => centred (nodePre2 (fun k => c k * Ideal.rsqrt (mean (fun k => c k * c k) + epsW) * g2 (ix2 (0 : Fin 1) k) + be2 (ix2 (0 : Fin 1) k))
            (fun k j => w3 (ix2 k j)) (fun j => b3 (ix2 (0 : Fin 1) j))) k * centred (nodePre2 (fun k => c k * Ideal.rsqrt (mean (fun k => c k * c k) + epsW) * g2 (ix2 (0 : Fin 1) k) + be2 (ix2 (0 : Fin 1) k))
            (fun k j => w3 (ix2 k j)) (fun j => b3 (ix2 (0 : Fin 1) j))) k) + epsW) := by
  unfold k1_pay4
  repeat (first
    | rw [nodeRowSumCol_apply]
    | simp only [mulf_apply, addf_apply, subf_apply, divf_apply, nodeRsqrt_apply, truncf_apply, broadcast_apply, nodeRowBcast_apply, nodeColBcast_apply,
        nodeMatmul_apply, shapeCast_self, h38, h39, Ideal.ofBits_def])
  unfold centred mean nodePre2
  rfl

/-! ## The packed block's three pieces at an entry -/

/-- Lanes 0–63 of the packed block. -/
theorem nodeSliceLanes_apply {α : Type} (X : S5000x66.Idx → α) (r : Fin 5000) (k : Fin 64) :
    extractStridedSlice S5000x64 ![0, 0] X slices_S5000x66_o0_0_S5000x64 (ix2 r k) = X (ix2 r (⟨k.val, by omega⟩ : Fin 66)) :=
  slice2_axis1_apply 0 X slices_S5000x66_o0_0_S5000x64 r k ⟨k.val, by omega⟩ (Nat.zero_add _).symm

/-- Lane 64 of the packed block, kept as a column. -/
theorem nodeSliceCount_apply {α : Type} (X : S5000x66.Idx → α) (r : Fin 5000) :
    extractStridedSlice S5000x1 ![0, 64] X slices_S5000x66_o0_64_S5000x1 (ix2 r (0 : Fin 1)) = X (ix2 r (64 : Fin 66)) :=
  slice2_axis1_apply 64 X slices_S5000x66_o0_64_S5000x1 r (0 : Fin 1) (64 : Fin 66) rfl

/-- Lane 65 of the packed block, kept as a column. -/
theorem nodeSliceScalar_apply {α : Type} (X : S5000x66.Idx → α) (r : Fin 5000) :
    extractStridedSlice S5000x1 ![0, 65] X slices_S5000x66_o0_65_S5000x1 (ix2 r (0 : Fin 1)) = X (ix2 r (65 : Fin 66)) :=
  slice2_axis1_apply 65 X slices_S5000x66_o0_65_S5000x1 r (0 : Fin 1) (65 : Fin 66) rfl

/-! ## The first half of the body: the first normalisation's centred value and its square -/

/-- The first half ends at the first normalisation's centred value: the rectified first pre-activation of row `r`
    less its mean. -/
theorem nodePay2_apply (x : Vec Ideal S5000x64 .f32) (cmb : Vec Ideal S5000x66 .f32) (wa wb : Vec Ideal S64x64 .f32) (wu b2 : Vec Ideal S1x64 .f32)
    (r : Fin 5000) (j : Fin 64) :
    k1_pay2 (F := Ideal) x cmb wa wb wu b2 (ix2 r j)
      = centred (relu (nodePre (fun k => x (ix2 r k))
            (meanMsg (fun k => cmb (ix2 r (⟨k.val, by omega⟩ : Fin 66))) (cmb (ix2 r (64 : Fin 66)))) (cmb (ix2 r (65 : Fin 66)))
            (fun k j => wa (ix2 k j)) (fun k j => wb (ix2 k j)) (fun j => wu (ix2 (0 : Fin 1) j)) (fun j => b2 (ix2 (0 : Fin 1) j)))) j := by
  unfold k1_pay2
  repeat (first
    | rw [nodeRowSumCol_apply]
    | simp only [mulf_apply, addf_apply, subf_apply, divf_apply, maximumf_apply, truncf_apply, broadcast_apply, nodeRowBcast_apply, nodeColBcast_apply,
        nodeMatmul_apply, shapeCast_self, nodeSliceLanes_apply, nodeSliceCount_apply, nodeSliceScalar_apply, Ideal.ofBits_def])
  unfold centred mean relu nodePre meanMsg
  rfl

/-- Its square, entry by entry. -/
theorem nodePay3_apply (x : Vec Ideal S5000x64 .f32) (cmb : Vec Ideal S5000x66 .f32) (wa wb : Vec Ideal S64x64 .f32) (wu b2 : Vec Ideal S1x64 .f32)
    (r : Fin 5000) (j : Fin 64) :
    k1_pay3 (F := Ideal) x cmb wa wb wu b2 (ix2 r j)
      = centred (relu (nodePre (fun k => x (ix2 r k))
            (meanMsg (fun k => cmb (ix2 r (⟨k.val, by omega⟩ : Fin 66))) (cmb (ix2 r (64 : Fin 66)))) (cmb (ix2 r (65 : Fin 66)))
            (fun k j => wa (ix2 k j)) (fun k j => wb (ix2 k j)) (fun j => wu (ix2 (0 : Fin 1) j)) (fun j => b2 (ix2 (0 : Fin 1) j)))) j
        * centred (relu (nodePre (fun k => x (ix2 r k))
            (meanMsg (fun k => cmb (ix2 r (⟨k.val, by omega⟩ : Fin 66))) (cmb (ix2 r (64 : Fin 66)))) (cmb (ix2 r (65 : Fin 66)))
            (fun k j => wa (ix2 k j)) (fun k j => wb (ix2 k j)) (fun j => wu (ix2 (0 : Fin 1) j)) (fun j => b2 (ix2 (0 : Fin 1) j)))) j := by
  unfold k1_pay3
  simp only [mulf_apply, nodePay2_apply]

/-! ## The stored block at an entry -/

/-- Entry `(r, j)` of the block the node kernel stores, from the blocks it loads: node features `x`, the packed
    block `cmb`, the two 64-row weight pieces, the scalar's weight row, bias, gain, offset, the second weight,
    its bias, gain and offset. -/
theorem nodePayload_apply (x : Vec Ideal S5000x64 .f32) (cmb : Vec Ideal S5000x66 .f32) (wa wb : Vec Ideal S64x64 .f32)
    (wu b2 g2 be2 : Vec Ideal S1x64 .f32) (w3 : Vec Ideal S64x64 .f32) (b3 g3 be3 : Vec Ideal S1x64 .f32)
    (r : Fin 5000) (j : Fin 64) :
    k1_pay1 (F := Ideal) x (k1_pay4 (F := Ideal) (k1_pay2 (F := Ideal) x cmb wa wb wu b2) (k1_pay3 (F := Ideal) x cmb wa wb wu b2) g2 be2 w3 b3) g3 be3 (ix2 r j)
      = nodeRow (fun k => x (ix2 r k)) (fun k => cmb (ix2 r (⟨k.val, by omega⟩ : Fin 66))) (cmb (ix2 r (64 : Fin 66))) (cmb (ix2 r (65 : Fin 66)))
          (fun k j => wa (ix2 k j)) (fun k j => wb (ix2 k j))
          (fun j => wu (ix2 (0 : Fin 1) j)) (fun j => b2 (ix2 (0 : Fin 1) j)) (fun j => g2 (ix2 (0 : Fin 1) j)) (fun j => be2 (ix2 (0 : Fin 1) j))
          (fun k j => w3 (ix2 k j)) (fun j => b3 (ix2 (0 : Fin 1) j)) (fun j => g3 (ix2 (0 : Fin 1) j)) (fun j => be3 (ix2 (0 : Fin 1) j)) j := by
  unfold k1_pay1
  simp only [mulf_apply, addf_apply, nodeRowBcast_apply, shapeCast_self]
  rw [nodePay4_apply _ _ g2 be2 w3 b3 r _ (fun k => nodePay2_apply x cmb wa wb wu b2 r k) (fun k => nodePay3_apply x cmb wa wb wu b2 r k) j]
  unfold nodeRow nodeTail layerNorm
  rfl

end Cert.KernelIdeal.Payload

end
-- ==== Proof.KernelIdeal.NodeValue.lean ====
/-
  The node region's output array after the run, at the ideal values: entry `(n, j)` is the node row of `RowSpec`
  computed from row `n` of the node features and of the packed operand (64 lanes of summed messages, the edge count
  in lane 64, the global scalar in lane 65) and from the whole weights, biases, gains and offsets, as the region finds
  them.

  Grid point `t` writes back rows `5000 t … 5000 t + 4999`: its output block is the body's value of its input
  blocks, whose entry `(r, j)` is the node row of row `r` of the two streamed blocks, and row `r` of a streamed
  block is row `5000 t + r` of its array, while the ten small operands are their arrays whole.  The 20 blocks cover
  the array, row `n` lying in block `n / 5000`.
-/
import proofs.«418484_j28518582846165_3_alg».proof.Proof.KernelIdeal.NodeRegion
import proofs.«418484_j28518582846165_3_alg».proof.Proof.NodePayload
import Idealize.ShloMosaic.Lib.Pipeline.Value
import Idealize.ShloMosaic.Lib.ValueIdx

set_option maxRecDepth 16384

noncomputable section

namespace Cert.KernelIdeal.Values

open Cert.KernelIdeal Cert.KernelIdeal.Gen Cert.KernelIdeal.Regions Cert.KernelIdeal.Payload Cert.RowSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The new features of all nodes as one array: row `n` from row `n` of the node features `x` and of the packed
    operand `cmb`. -/
def nodeArr (x : S100000x64.Idx → EReal) (cmb : S100000x66.Idx → EReal) (wa wb : S64x64.Idx → EReal)
    (wu b2 g2 be2 : S1x64.Idx → EReal) (w3 : S64x64.Idx → EReal) (b3 g3 be3 : S1x64.Idx → EReal) : S100000x64.Idx → EReal := fun i =>
  nodeRow (fun k => x (ix2 (⟨(i 0).val, (i 0).isLt⟩ : Fin 100000) k))
    (fun k => cmb (ix2 (⟨(i 0).val, (i 0).isLt⟩ : Fin 100000) (⟨k.val, by omega⟩ : Fin 66)))
    (cmb (ix2 (⟨(i 0).val, (i 0).isLt⟩ : Fin 100000) (64 : Fin 66)))
    (cmb (ix2 (⟨(i 0).val, (i 0).isLt⟩ : Fin 100000) (65 : Fin 66)))
    (fun k j => wa (ix2 k j)) (fun k j => wb (ix2 k j))
    (fun j => wu (ix2 (0 : Fin 1) j)) (fun j => b2 (ix2 (0 : Fin 1) j)) (fun j => g2 (ix2 (0 : Fin 1) j)) (fun j => be2 (ix2 (0 : Fin 1) j))
    (fun k j => w3 (ix2 k j)) (fun j => b3 (ix2 (0 : Fin 1) j)) (fun j => g3 (ix2 (0 : Fin 1) j)) (fun j => be3 (ix2 (0 : Fin 1) j))
    (⟨(i 1).val, (i 1).isLt⟩ : Fin 64)

/-- The nodes' new features from the region's entry contents. -/
abbrev nodeNew (c : Dev nD) : S100000x64.Idx → EReal :=
  nodeArr (V c main_arg0) (V c main_v30) (V c main_v31) (V c main_v32) (V c main_v33) (V c main_v34) (V c main_v35) (V c main_v36)
    (V c main_arg13) (V c main_v37) (V c main_v38) (V c main_v39)

/-! ## The index maps and the grid -/

theorem node_zeroOff : (![0, 0] : Fin 2 → Nat) = fun _ => 0 := funext fun a => by fin_cases a <;> rfl

/-- The grid has 20 points. -/
theorem node_points (t : Fin cfg1.N) : t.val < 20 := by
  have h := t.isLt
  have hN : cfg1.N = 20 := N_1
  omega

/-- The printed index maps, decided over the grid.  The two streamed inputs and the output move one block of rows
    per point: -/
theorem node_idx_0 : ∀ t : Fin cfg1.N, win1_0.index t (0 : Fin 2) = t.val ∧ win1_0.index t (1 : Fin 2) = 0 :=
  (by decide +kernel : ∀ t : Fin grid1.N, _)
theorem node_idx_1 : ∀ t : Fin cfg1.N, win1_1.index t (0 : Fin 2) = t.val ∧ win1_1.index t (1 : Fin 2) = 0 :=
  (by decide +kernel : ∀ t : Fin grid1.N, _)
theorem node_idx_12 : ∀ t : Fin cfg1.N, win1_12.index t (0 : Fin 2) = t.val ∧ win1_12.index t (1 : Fin 2) = 0 :=
  (by decide +kernel : ∀ t : Fin grid1.N, _)
/-- the ten small operands stay at their one block. -/
theorem node_idx_2 : ∀ t : Fin cfg1.N, win1_2.index t (0 : Fin 2) = 0 ∧ win1_2.index t (1 : Fin 2) = 0 :=
  (by decide +kernel : ∀ t : Fin grid1.N, _)
theorem node_idx_3 : ∀ t : Fin cfg1.N, win1_3.index t (0 : Fin 2) = 0 ∧ win1_3.index t (1 : Fin 2) = 0 :=
  (by decide +kernel : ∀ t : Fin grid1.N, _)
theorem node_idx_4 : ∀ t : Fin cfg1.N, win1_4.index t (0 : Fin 2) = 0 ∧ win1_4.index t (1 : Fin 2) = 0 :=
  (by decide +kernel : ∀ t : Fin grid1.N, _)
theorem node_idx_5 : ∀ t : Fin cfg1.N, win1_5.index t (0 : Fin 2) = 0 ∧ win1_5.index t (1 : Fin 2) = 0 :=
  (by decide +kernel : ∀ t : Fin grid1.N, _)
theorem node_idx_6 : ∀ t : Fin cfg1.N, win1_6.index t (0 : Fin 2) = 0 ∧ win1_6.index t (1 : Fin 2) = 0 :=
  (by decide +kernel : ∀ t : Fin grid1.N, _)
theorem node_idx_7 : ∀ t : Fin cfg1.N, win1_7.index t (0 : Fin 2) = 0 ∧ win1_7.index t (1 : Fin 2) = 0 :=
  (by decide +kernel : ∀ t : Fin grid1.N, _)
theorem node_idx_8 : ∀ t : Fin cfg1.N, win1_8.index t (0 : Fin 2) = 0 ∧ win1_8.index t (1 : Fin 2) = 0 :=
  (by decide +kernel : ∀ t : Fin grid1.N, _)
theorem node_idx_9 : ∀ t : Fin cfg1.N, win1_9.index t (0 : Fin 2) = 0 ∧ win1_9.index t (1 : Fin 2) = 0 :=
  (by decide +kernel : ∀ t : Fin grid1.N, _)
theorem node_idx_10 : ∀ t : Fin cfg1.N, win1_10.index t (0 : Fin 2) = 0 ∧ win1_10.index t (1 : Fin 2) = 0 :=
  (by decide +kernel : ∀ t : Fin grid1.N, _)
theorem node_idx_11 : ∀ t : Fin cfg1.N, win1_11.index t (0 : Fin 2) = 0 ∧ win1_11.index t (1 : Fin 2) = 0 :=
  (by decide +kernel : ∀ t : Fin grid1.N, _)

/-! ## Each input block as rows of its array -/

/-- Row `r` of the node-feature block at point `t` is row `5000 t + r` of the node features. -/
theorem xBlk_apply (c : Dev nD) (t : Fin cfg1.N) (r : Fin 5000) (k : Fin 64) :
    (blk1 V c 0 t : Vec Ideal S5000x64 .f32) (ix2 r k)
      = (V c main_arg0 : S100000x64.Idx → EReal) (ix2 (⟨5000 * t.val + r.val, by have := node_points t; omega⟩ : Fin 100000) k) := by
  obtain ⟨e0, e1⟩ := node_idx_0 t
  unfold blk1
  rw [View.read_apply]
  show V c main_arg0 _ = V c main_arg0 _
  congr 1
  funext a
  apply Fin.ext
  match a with
  | ⟨0, _⟩ => show win1_0.index t (0 : Fin 2) * 5000 + 1 * r.val = 5000 * t.val + r.val; rw [e0]; omega
  | ⟨1, _⟩ => show win1_0.index t (1 : Fin 2) * 64 + 1 * k.val = k.val; rw [e1]; omega

/-- Row `r` of the packed block at point `t` is row `5000 t + r` of the packed operand. -/
theorem cmbBlk_apply (c : Dev nD) (t : Fin cfg1.N) (r : Fin 5000) (k : Fin 66) :
    (blk1 V c 1 t : Vec Ideal S5000x66 .f32) (ix2 r k)
      = (V c main_v30 : S100000x66.Idx → EReal) (ix2 (⟨5000 * t.val + r.val, by have := node_points t; omega⟩ : Fin 100000) k) := by
  obtain ⟨e0, e1⟩ := node_idx_1 t
  unfold blk1
  rw [View.read_apply]
  show V c main_v30 _ = V c main_v30 _
  congr 1
  funext a
  apply Fin.ext
  match a with
  | ⟨0, _⟩ => show win1_1.index t (0 : Fin 2) * 5000 + 1 * r.val = 5000 * t.val + r.val; rw [e0]; omega
  | ⟨1, _⟩ => show win1_1.index t (1 : Fin 2) * 66 + 1 * k.val = k.val; rw [e1]; omega

/-- The first weight's upper piece: its block at any point is the array whole. -/
theorem w2aBlk_apply (c : Dev nD) (t : Fin cfg1.N) (k j : Fin 64) :
    (blk1 V c 2 t : Vec Ideal S64x64 .f32) (ix2 k j) = (V c main_v31 : S64x64.Idx → EReal) (ix2 k j) := by
  obtain ⟨e0, e1⟩ := node_idx_2 t
  unfold blk1
  rw [View.read_apply]
  show V c main_v31 _ = V c main_v31 _
  congr 1
  funext a
  apply Fin.ext
  match a with
  | ⟨0, _⟩ => show win1_2.index t (0 : Fin 2) * 64 + 1 * k.val = k.val; rw [e0]; omega
  | ⟨1, _⟩ => show win1_2.index t (1 : Fin 2) * 64 + 1 * j.val = j.val; rw [e1]; omega

/-- The first weight's lower piece: its block at any point is the array whole. -/
theorem w2bBlk_apply (c : Dev nD) (t : Fin cfg1.N) (k j : Fin 64) :
    (blk1 V c 3 t : Vec Ideal S64x64 .f32) (ix2 k j) = (V c main_v32 : S64x64.Idx → EReal) (ix2 k j) := by
  obtain ⟨e0, e1⟩ := node_idx_3 t
  unfold blk1
  rw [View.read_apply]
  show V c main_v32 _ = V c main_v32 _
  congr 1
  funext a
  apply Fin.ext
  match a with
  | ⟨0, _⟩ => show win1_3.index t (0 : Fin 2) * 64 + 1 * k.val = k.val; rw [e0]; omega
  | ⟨1, _⟩ => show win1_3.index t (1 : Fin 2) * 64 + 1 * j.val = j.val; rw [e1]; omega

/-- The scalar's weight row: its block at any point is the array whole. -/
theorem wuBlk_apply (c : Dev nD) (t : Fin cfg1.N) (j : Fin 64) :
    (blk1 V c 4 t : Vec Ideal S1x64 .f32) (ix2 (0 : Fin 1) j) = (V c main_v33 : S1x64.Idx → EReal) (ix2 (0 : Fin 1) j) := by
  obtain ⟨e0, e1⟩ := node_idx_4 t
  unfold blk1
  rw [View.read_apply]
  show V c main_v33 _ = V c main_v33 _
  congr 1
  funext a
  apply Fin.ext
  match a with
  | ⟨0, _⟩ => show win1_4.index t (0 : Fin 2) * 1 + 1 * 0 = 0; rw [e0]
  | ⟨1, _⟩ => show win1_4.index t (1 : Fin 2) * 64 + 1 * j.val = j.val; rw [e1]; omega

/-- The first bias row: its block at any point is the array whole. -/
theorem b2Blk_apply (c : Dev nD) (t : Fin cfg1.N) (j : Fin 64) :
    (blk1 V c 5 t : Vec Ideal S1x64 .f32) (ix2 (0 : Fin 1) j) = (V c main_v34 : S1x64.Idx → EReal) (ix2 (0 : Fin 1) j) := by
  obtain ⟨e0, e1⟩ := node_idx_5 t
  unfold blk1
  rw [View.read_apply]
  show V c main_v34 _ = V c main_v34 _
  congr 1
  funext a
  apply Fin.ext
  match a with
  | ⟨0, _⟩ => show win1_5.index t (0 : Fin 2) * 1 + 1 * 0 = 0; rw [e0]
  | ⟨1, _⟩ => show win1_5.index t (1 : Fin 2) * 64 + 1 * j.val = j.val; rw [e1]; omega

/-- The first gain row: its block at any point is the array whole. -/
theorem g2Blk_apply (c : Dev nD) (t : Fin cfg1.N) (j : Fin 64) :
    (blk1 V c 6 t : Vec Ideal S1x64 .f32) (ix2 (0 : Fin 1) j) = (V c main_v35 : S1x64.Idx → EReal) (ix2 (0 : Fin 1) j) := by
  obtain ⟨e0, e1⟩ := node_idx_6 t
  unfold blk1
  rw [View.read_apply]
  show V c main_v35 _ = V c main_v35 _
  congr 1
  funext a
  apply Fin.ext
  match a with
  | ⟨0, _⟩ => show win1_6.index t (0 : Fin 2) * 1 + 1 * 0 = 0; rw [e0]
  | ⟨1, _⟩ => show win1_6.index t (1 : Fin 2) * 64 + 1 * j.val = j.val; rw [e1]; omega

/-- The first offset row: its block at any point is the array whole. -/
theorem be2Blk_apply (c : Dev nD) (t : Fin cfg1.N) (j : Fin 64) :
    (blk1 V c 7 t : Vec Ideal S1x64 .f32) (ix2 (0 : Fin 1) j) = (V c main_v36 : S1x64.Idx → EReal) (ix2 (0 : Fin 1) j) := by
  obtain ⟨e0, e1⟩ := node_idx_7 t
  unfold blk1
  rw [View.read_apply]
  show V c main_v36 _ = V c main_v36 _
  congr 1
  funext a
  apply Fin.ext
  match a with
  | ⟨0, _⟩ => show win1_7.index t (0 : Fin 2) * 1 + 1 * 0 = 0; rw [e0]
  | ⟨1, _⟩ => show win1_7.index t (1 : Fin 2) * 64 + 1 * j.val = j.val; rw [e1]; omega

/-- The second weight: its block at any point is the array whole. -/
theorem w3Blk_apply (c : Dev nD) (t : Fin cfg1.N) (k j : Fin 64) :
    (blk1 V c 8 t : Vec Ideal S64x64 .f32) (ix2 k j) = (V c main_arg13 : S64x64.Idx → EReal) (ix2 k j) := by
  obtain ⟨e0, e1⟩ := node_idx_8 t
  unfold blk1
  rw [View.read_apply]
  show V c main_arg13 _ = V c main_arg13 _
  congr 1
  funext a
  apply Fin.ext
  match a with
  | ⟨0, _⟩ => show win1_8.index t (0 : Fin 2) * 64 + 1 * k.val = k.val; rw [e0]; omega
  | ⟨1, _⟩ => show win1_8.index t (1 : Fin 2) * 64 + 1 * j.val = j.val; rw [e1]; omega

/-- The second bias row: its block at any point is the array whole. -/
theorem b3Blk_apply (c : Dev nD) (t : Fin cfg1.N) (j : Fin 64) :
    (blk1 V c 9 t : Vec Ideal S1x64 .f32) (ix2 (0 : Fin 1) j) = (V c main_v37 : S1x64.Idx → EReal) (ix2 (0 : Fin 1) j) := by
  obtain ⟨e0, e1⟩ := node_idx_9 t
  unfold blk1
  rw [View.read_apply]
  show V c main_v37 _ = V c main_v37 _
  congr 1
  funext a
  apply Fin.ext
  match a with
  | ⟨0, _⟩ => show win1_9.index t (0 : Fin 2) * 1 + 1 * 0 = 0; rw [e0]
  | ⟨1, _⟩ => show win1_9.index t (1 : Fin 2) * 64 + 1 * j.val = j.val; rw [e1]; omega

/-- The second gain row: its block at any point is the array whole. -/
theorem g3Blk_apply (c : Dev nD) (t : Fin cfg1.N) (j : Fin 64) :
    (blk1 V c 10 t : Vec Ideal S1x64 .f32) (ix2 (0 : Fin 1) j) = (V c main_v38 : S1x64.Idx → EReal) (ix2 (0 : Fin 1) j) := by
  obtain ⟨e0, e1⟩ := node_idx_10 t
  unfold blk1
  rw [View.read_apply]
  show V c main_v38 _ = V c main_v38 _
  congr 1
  funext a
  apply Fin.ext
  match a with
  | ⟨0, _⟩ => show win1_10.index t (0 : Fin 2) * 1 + 1 * 0 = 0; rw [e0]
  | ⟨1, _⟩ => show win1_10.index t (1 : Fin 2) * 64 + 1 * j.val = j.val; rw [e1]; omega

/-- The second offset row: its block at any point is the array whole. -/
theorem be3Blk_apply (c : Dev nD) (t : Fin cfg1.N) (j : Fin 64) :
    (blk1 V c 11 t : Vec Ideal S1x64 .f32) (ix2 (0 : Fin 1) j) = (V c main_v39 : S1x64.Idx → EReal) (ix2 (0 : Fin 1) j) := by
  obtain ⟨e0, e1⟩ := node_idx_11 t
  unfold blk1
  rw [View.read_apply]
  show V c main_v39 _ = V c main_v39 _
  congr 1
  funext a
  apply Fin.ext
  match a with
  | ⟨0, _⟩ => show win1_11.index t (0 : Fin 2) * 1 + 1 * 0 = 0; rw [e0]
  | ⟨1, _⟩ => show win1_11.index t (1 : Fin 2) * 64 + 1 * j.val = j.val; rw [e1]; omega

/-! ## What a point writes back, and the array -/

/-- What point `t` writes back is block `t` of the array of new features. -/
theorem node_flushed (c : Dev nD) (t : Fin cfg1.N) :
    (nodeDat V c).flushed 12 t = ((cfg1.win 12).blk t).view.read (Elt Ideal) (nodeNew V c) := by
  show (cfg1.win 12).cut (grid1.coords t) ((nodeDat V c).after 12 t) = _
  rw [nodeAfter_12]
  unfold nodeOut
  rw [View.canon_unit_zero node_zeroOff]
  simp only [View.ld_unit_zero (S := S5000x64) node_zeroOff, View.ld_unit_zero (S := S5000x66) node_zeroOff,
    View.ld_unit_zero (S := S64x64) node_zeroOff, View.ld_unit_zero (S := S1x64) node_zeroOff]
  obtain ⟨e0, e1⟩ := node_idx_12 t
  funext y
  obtain ⟨r, j, rfl⟩ : ∃ (r : Fin 5000) (j : Fin 64), y = ix2 r j := ⟨y 0, y 1, eq_ix2 y⟩
  rw [View.read_apply]
  refine (nodePayload_apply _ _ _ _ _ _ _ _ _ _ _ _ r j).trans ?_
  have hi : ((cfg1.win 12).blk t).view.emb (ix2 r j) = ix2 (⟨5000 * t.val + r.val, by have := node_points t; omega⟩ : Fin 100000) j := by
    funext a
    apply Fin.ext
    match a with
    | ⟨0, _⟩ => show win1_12.index t (0 : Fin 2) * 5000 + 1 * r.val = 5000 * t.val + r.val; rw [e0]; omega
    | ⟨1, _⟩ => show win1_12.index t (1 : Fin 2) * 64 + 1 * j.val = j.val; rw [e1]; omega
  rw [hi]
  unfold nodeNew nodeArr
  simp only [xBlk_apply, cmbBlk_apply, w2aBlk_apply, w2bBlk_apply, wuBlk_apply, b2Blk_apply, g2Blk_apply, be2Blk_apply, w3Blk_apply,
    b3Blk_apply, g3Blk_apply, be3Blk_apply]
  rfl

/-- An index of the array is in point `t`'s block iff each coordinate is in the block's range on its axis. -/
theorem node_mem_blk (t : Fin cfg1.N) (i : S100000x64.Idx) :
    i ∈ ((cfg1.win 12).blk t).view.set ↔ ∀ a : Fin 2, win1_12.index t a * S5000x64.size a ≤ (i a).val ∧ (i a).val < win1_12.index t a * S5000x64.size a + S5000x64.size a := by
  show i ∈ ((View.whole main_v40).slice (win1_12.rect t)).set ↔ _
  rw [View.set_slice_whole, Rect.mem_set_unit]
  exact Iff.rfl

/-- THE ARRAY after the region: the nodes' new features. -/
theorem node_final (c : Dev nD) : (nodeDat V c).arrAt 12 cfg1.N = nodeNew V c :=
  (nodeDat V c).arrAt_eq_of_cover 12 (nodeNew V c) (fun t _ => node_flushed V c t) fun i => by
    have hi0 : (i 0).val < 100000 := (i 0).isLt
    have hi1 : (i 1).val < 64 := (i 1).isLt
    have hN : cfg1.N = 20 := N_1
    refine ⟨⟨(i 0).val / 5000, by omega⟩, flush1_12 _, ?_⟩
    rw [node_mem_blk]
    obtain ⟨e0, e1⟩ := node_idx_12 ⟨(i 0).val / 5000, by omega⟩
    intro a
    match a with
    | ⟨0, _⟩ =>
      show win1_12.index _ (0 : Fin 2) * 5000 ≤ (i 0).val ∧ (i 0).val < win1_12.index _ (0 : Fin 2) * 5000 + 5000
      rw [e0]; show (i 0).val / 5000 * 5000 ≤ (i 0).val ∧ (i 0).val < (i 0).val / 5000 * 5000 + 5000; omega
    | ⟨1, _⟩ =>
      show win1_12.index _ (1 : Fin 2) * 64 ≤ (i 1).val ∧ (i 1).val < win1_12.index _ (1 : Fin 2) * 64 + 64
      rw [e1]; omega

end Cert.KernelIdeal.Values

end
-- ==== Proof.KernelIdeal.HostValues.lean ====
/-
  What the kernel program's host operations compute, one stretch at a time, over whatever the core's buffers hold
  before the stretch (`W`), at the ideal values.

  Before the edge region: the gathered source features (the node features, their change of format being the identity
  here, read at each edge's source index: a negative index is taken from the end, and the gather clamps it into the
  table), the destination indices, the two halves of the first weight, and the bias, gain and offset as rows.
  Between the regions: the messages summed per destination node, the count of edges per destination node, the global
  scalar read per node from its one-entry table (a gather clamps its index into the table, so every node reads the
  one entry), these three joined lane by lane into the packed operand; the three pieces of the second weight; the
  remaining biases, gains and offsets as rows.
-/
import proofs.«418484_j28518582846165_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import proofs.«418484_j28518582846165_3_alg».proof.Proof.LibKeepdims

noncomputable section

namespace Cert.KernelIdeal.Values

open Cert.KernelIdeal Cert.KernelIdeal.Gen
open Idealize.ShloMosaic Idealize.ShloMosaic.TcCoe Idealize.ShloMosaic.ValueIdx Idealize.SL.Sem Idealize.ShloMosaic.StableHlo

/-! ## An index fact the readings below use -/

/-- A one-entry table has one index: any two indices of it are equal. -/
theorem idxS1_eq (p q : S1.Idx) : p = q := by
  funext a
  match a with
  | ⟨0, _⟩ =>
    have hp : (p ⟨0, Nat.one_pos⟩).val < 1 := (p ⟨0, Nat.one_pos⟩).isLt
    have hq : (q ⟨0, Nat.one_pos⟩).val < 1 := (q ⟨0, Nat.one_pos⟩).isLt
    exact Fin.ext (by omega)

variable (W : Valuation τ sig (Elt Ideal))

/-! ## Before the edge region -/

/-- The edges' source indices made ready for the gather: row 0 of the index pair, a negative entry moved up by the
    number of nodes, as one column. -/
def srcIdx (x1 : S2x1200000.Idx → BitVec 32) : S1200000x1.Idx → BitVec 32 :=
  broadcastInDim S1200000x1 ![0] bcast_S1200000_S1200000x1_0
    (select (cmpi .slt (shapeCast S1200000 (extractStridedSlice S1x1200000 ![0, 0] x1 slices_S2x1200000_S1x1200000_0_0) shapeCasts_S1x1200000_S1200000)
        (broadcastInDim S1200000 ![] bcast_S_S1200000 (constantI S_ 32 0#32)))
      (addi (shapeCast S1200000 (extractStridedSlice S1x1200000 ![0, 0] x1 slices_S2x1200000_S1x1200000_0_0) shapeCasts_S1x1200000_S1200000)
        (broadcastInDim S1200000 ![] bcast_S_S1200000 (constantI S_ 32 100000#32)))
      (shapeCast S1200000 (extractStridedSlice S1x1200000 ![0, 0] x1 slices_S2x1200000_S1x1200000_0_0) shapeCasts_S1x1200000_S1200000))

/-- The edges' destination indices: row 1 of the index pair. -/
def dstIdx (x1 : S2x1200000.Idx → BitVec 32) : S1200000.Idx → BitVec 32 :=
  shapeCast S1200000 (extractStridedSlice S1x1200000 ![1, 0] x1 slices_S2x1200000_S1x1200000_1_0) shapeCasts_S1x1200000_S1200000

/-- The gathered source features. -/
theorem srcFeat_eq : (after hostOps0 W main_v11 : S1200000x64.Idx → EReal)
    = Host.gather gather_S100000x64_S1200000x1_S1200000x64_1_0_n_n_0_1_164 (W main_arg0 : S100000x64.Idx → EReal) (srcIdx (W main_arg1)) := by
  show StableHlo.after hostOps0 W (Proc.devRef .tc main_v11) = _
  after_results
  -- the change of format is the identity at the ideal values, and the index operand is `srcIdx` spelt out
  rfl

/-- The destination indices. -/
theorem dst_eq : (after hostOps0 W main_v3 : S1200000.Idx → BitVec 32) = dstIdx (W main_arg1) := by
  show StableHlo.after hostOps0 W (Proc.devRef .tc main_v3) = _
  after_results
  rfl

/-- The upper half of the first weight. -/
theorem w1a_apply (k j : Fin 64) : (after hostOps0 W main_v12 : S64x64.Idx → EReal) (ix2 k j)
    = (W main_arg5 : S128x64.Idx → EReal) (ix2 (⟨k.val, by omega⟩ : Fin 128) j) := by
  show StableHlo.after hostOps0 W (Proc.devRef .tc main_v12) (ix2 k j) = _
  after_results
  exact slice2_axis0_apply 0 (W (Proc.devRef .tc main_arg5) : S128x64.Idx → EReal) slices_S128x64_S64x64_0_0 k j _ (Nat.zero_add _).symm

/-- The lower half of the first weight. -/
theorem w1b_apply (k j : Fin 64) : (after hostOps0 W main_v13 : S64x64.Idx → EReal) (ix2 k j)
    = (W main_arg5 : S128x64.Idx → EReal) (ix2 (⟨64 + k.val, by omega⟩ : Fin 128) j) := by
  show StableHlo.after hostOps0 W (Proc.devRef .tc main_v13) (ix2 k j) = _
  after_results
  exact slice2_axis0_apply 64 (W (Proc.devRef .tc main_arg5) : S128x64.Idx → EReal) slices_S128x64_S64x64_64_0 k j _ rfl

/-- The first bias, gain and offset as rows. -/
theorem b1_apply (j : Fin 64) : (after hostOps0 W main_v14 : S1x64.Idx → EReal) (ix2 (0 : Fin 1) j) = (W main_arg6 : S64.Idx → EReal) (ix1 j) := by
  show StableHlo.after hostOps0 W (Proc.devRef .tc main_v14) (ix2 (0 : Fin 1) j) = _
  after_results
  exact shapeCast_a_1a_apply (W (Proc.devRef .tc main_arg6) : S64.Idx → EReal) shapeCasts_S64_S1x64 0 j
theorem g1_apply (j : Fin 64) : (after hostOps0 W main_v15 : S1x64.Idx → EReal) (ix2 (0 : Fin 1) j) = (W main_arg7 : S64.Idx → EReal) (ix1 j) := by
  show StableHlo.after hostOps0 W (Proc.devRef .tc main_v15) (ix2 (0 : Fin 1) j) = _
  after_results
  exact shapeCast_a_1a_apply (W (Proc.devRef .tc main_arg7) : S64.Idx → EReal) shapeCasts_S64_S1x64 0 j
theorem be1_apply (j : Fin 64) : (after hostOps0 W main_v16 : S1x64.Idx → EReal) (ix2 (0 : Fin 1) j) = (W main_arg8 : S64.Idx → EReal) (ix1 j) := by
  show StableHlo.after hostOps0 W (Proc.devRef .tc main_v16) (ix2 (0 : Fin 1) j) = _
  after_results
  exact shapeCast_a_1a_apply (W (Proc.devRef .tc main_arg8) : S64.Idx → EReal) shapeCasts_S64_S1x64 0 j

/-! ## Between the regions -/

/-- The messages summed per destination node: a scatter-add of the message array (its change of format the identity)
    into zeros along the destination indices. -/
theorem summed_eq : (after hostOps1 W main_v21 : S100000x64.Idx → EReal)
    = Host.scatterAdd scatter_S100000x64_S1200000x1_S1200000x64_1_0_0_1
        (broadcastInDim S100000x64 ![] bcast_S_S100000x64 (constant (F := Ideal) S_ .f32 0x00000000#32))
        (broadcastInDim S1200000x1 ![0] bcast_S1200000_S1200000x1_0 (W main_v3 : S1200000.Idx → BitVec 32))
        (W main_v17 : S1200000x64.Idx → EReal) := by
  show StableHlo.after hostOps1 W (Proc.devRef .tc main_v21) = _
  after_results
  -- the change of format of the messages is the identity at the ideal values
  rfl

/-- The count of edges per destination node, kept as a column: a scatter-add of ones into zeros. -/
theorem count_apply (n : Fin 100000) : (after hostOps1 W main_v26 : S100000x1.Idx → EReal) (ix2 n (0 : Fin 1))
    = Host.scatterAdd scatter_S100000_S1200000x1_S1200000_n_0_0_1
        (broadcastInDim S100000 ![] bcast_S_S100000 (constant (F := Ideal) S_ .f32 0x00000000#32))
        (broadcastInDim S1200000x1 ![0] bcast_S1200000_S1200000x1_0 (W main_v3 : S1200000.Idx → BitVec 32))
        (broadcastInDim S1200000 ![] bcast_S_S1200000 (constant (F := Ideal) S_ .f32 0x3F800000#32)) (ix1 n) := by
  show StableHlo.after hostOps1 W (Proc.devRef .tc main_v26) (ix2 n (0 : Fin 1)) = _
  after_results
  exact shapeCast_a_a1_apply _ shapeCasts_S100000_S100000x1 n 0

/-- The one-entry table of the global scalar. -/
theorem table_apply : (after hostOps1 W main_v27 : S1.Idx → EReal) (ix1 (0 : Fin 1)) = (W main_arg3 : S1x1.Idx → EReal) (ix2 (0 : Fin 1) (0 : Fin 1)) := by
  show StableHlo.after hostOps1 W (Proc.devRef .tc main_v27) (ix1 (0 : Fin 1)) = _
  after_results
  exact shapeCast_1a_a_apply (W (Proc.devRef .tc main_arg3) : S1x1.Idx → EReal) shapeCasts_S1x1_S1 (0 : Fin 1)

/-- Every node reads the table's one entry. -/
theorem scalar_apply (n : Fin 100000) : (after hostOps1_1 W main_v28 : S100000.Idx → EReal) (ix1 n) = (W main_v27 : S1.Idx → EReal) (ix1 (0 : Fin 1)) := by
  show StableHlo.after hostOps1_1 W (Proc.devRef .tc main_v28) (ix1 n) = _
  after_results
  show Host.gather gather_S1_S100000x1_S100000_n_0_n_n_0_1_1 (W (Proc.devRef .tc main_v27) : S1.Idx → EReal) _ (ix1 n) = _
  -- the gather reads the table at an index of the table, and the table has one
  unfold Host.gather
  exact congrArg (W (Proc.devRef .tc main_v27) : S1.Idx → EReal) (idxS1_eq _ _)

/-- The packed operand's first 64 lanes are the summed messages, -/
theorem packed_msg (n : Fin 100000) (k : Fin 64) : (after hostOps1_2 W main_v30 : S100000x66.Idx → EReal) (ix2 n (⟨k.val, by omega⟩ : Fin 66))
    = (W main_v21 : S100000x64.Idx → EReal) (ix2 n k) := by
  show StableHlo.after hostOps1_2 W (Proc.devRef .tc main_v30) (ix2 n (⟨k.val, by omega⟩ : Fin 66)) = _
  after_results
  dsimp only [Matrix.cons_val]
  repeat (first | rw [reshape_result] | (rw [reshape_result_ne]; rotate_left; decide))
  -- lanes 0 to 63 fall in the first of the three pieces laid end to end
  refine concatenate_apply_piece (t := S100000x66) (1 : Fin 2) _ _ (ix2 n (⟨k.val, by omega⟩ : Fin 66))
    0 ?_ S100000x64 (W (Proc.devRef .tc main_v21) : S100000x64.Idx → EReal) ?_ rfl 0 ?_ (ix2 n k)
    (fun b hb => match b with | ⟨0, _⟩ => rfl | ⟨1, _⟩ => absurd rfl hb) (Nat.zero_add _)
  · show (0 : ℕ) < 3; omega
  · rfl
  · rfl
/-- lane 64 the count, -/
theorem packed_count (n : Fin 100000) : (after hostOps1_2 W main_v30 : S100000x66.Idx → EReal) (ix2 n (64 : Fin 66))
    = (W main_v26 : S100000x1.Idx → EReal) (ix2 n (0 : Fin 1)) := by
  show StableHlo.after hostOps1_2 W (Proc.devRef .tc main_v30) (ix2 n (64 : Fin 66)) = _
  after_results
  dsimp only [Matrix.cons_val]
  repeat (first | rw [reshape_result] | (rw [reshape_result_ne]; rotate_left; decide))
  -- lane 64 is the second piece's one lane: 64 lanes lie before it
  refine concatenate_apply_piece (t := S100000x66) (1 : Fin 2) _ _ (ix2 n (64 : Fin 66))
    1 ?_ S100000x1 (W (Proc.devRef .tc main_v26) : S100000x1.Idx → EReal) ?_ rfl 64 ?_ (ix2 n (0 : Fin 1))
    (fun b hb => match b with | ⟨0, _⟩ => rfl | ⟨1, _⟩ => absurd rfl hb) rfl
  · show (1 : ℕ) < 3; omega
  · rfl
  · rfl
/-- lane 65 the scalar. -/
theorem packed_scalar (n : Fin 100000) : (after hostOps1_2 W main_v30 : S100000x66.Idx → EReal) (ix2 n (65 : Fin 66))
    = (W main_v28 : S100000.Idx → EReal) (ix1 n) := by
  show StableHlo.after hostOps1_2 W (Proc.devRef .tc main_v30) (ix2 n (65 : Fin 66)) = _
  after_results
  dsimp only [Matrix.cons_val]
  repeat (first | rw [reshape_result] | (rw [reshape_result_ne]; rotate_left; decide))
  -- lane 65 is the third piece's one lane (65 lanes lie before it): the scalars, stood up as a column
  refine (concatenate_apply_piece (t := S100000x66) (1 : Fin 2) _ _ (ix2 n (65 : Fin 66))
    2 ?_ S100000x1 (shapeCast S100000x1 (W (Proc.devRef .tc main_v28) : S100000.Idx → EReal) shapeCasts_S100000_S100000x1) ?_ rfl 65 ?_ (ix2 n (0 : Fin 1))
    (fun b hb => match b with | ⟨0, _⟩ => rfl | ⟨1, _⟩ => absurd rfl hb) rfl).trans ?_
  · show (2 : ℕ) < 3; omega
  · rfl
  · rfl
  · exact shapeCast_a_a1_apply _ shapeCasts_S100000_S100000x1 n 0

/-- The three pieces of the second weight. -/
theorem w2a_apply (k j : Fin 64) : (after hostOps1_2 W main_v31 : S64x64.Idx → EReal) (ix2 k j)
    = (W main_arg9 : S129x64.Idx → EReal) (ix2 (⟨k.val, by omega⟩ : Fin 129) j) := by
  show StableHlo.after hostOps1_2 W (Proc.devRef .tc main_v31) (ix2 k j) = _
  after_results
  exact slice2_axis0_apply 0 (W (Proc.devRef .tc main_arg9) : S129x64.Idx → EReal) slices_S129x64_S64x64_0_0 k j _ (Nat.zero_add _).symm
theorem w2b_apply (k j : Fin 64) : (after hostOps1_2 W main_v32 : S64x64.Idx → EReal) (ix2 k j)
    = (W main_arg9 : S129x64.Idx → EReal) (ix2 (⟨64 + k.val, by omega⟩ : Fin 129) j) := by
  show StableHlo.after hostOps1_2 W (Proc.devRef .tc main_v32) (ix2 k j) = _
  after_results
  exact slice2_axis0_apply 64 (W (Proc.devRef .tc main_arg9) : S129x64.Idx → EReal) slices_S129x64_S64x64_64_0 k j _ rfl
theorem w2u_apply (j : Fin 64) : (after hostOps1_2 W main_v33 : S1x64.Idx → EReal) (ix2 (0 : Fin 1) j)
    = (W main_arg9 : S129x64.Idx → EReal) (ix2 (⟨128, by omega⟩ : Fin 129) j) := by
  show StableHlo.after hostOps1_2 W (Proc.devRef .tc main_v33) (ix2 (0 : Fin 1) j) = _
  after_results
  exact slice2_axis0_apply 128 (W (Proc.devRef .tc main_arg9) : S129x64.Idx → EReal) slices_S129x64_S1x64_128_0 (0 : Fin 1) j _ rfl

/-- The remaining biases, gains and offsets as rows. -/
theorem b2_apply (j : Fin 64) : (after hostOps1_2 W main_v34 : S1x64.Idx → EReal) (ix2 (0 : Fin 1) j) = (W main_arg10 : S64.Idx → EReal) (ix1 j) := by
  show StableHlo.after hostOps1_2 W (Proc.devRef .tc main_v34) (ix2 (0 : Fin 1) j) = _
  after_results
  exact shapeCast_a_1a_apply (W (Proc.devRef .tc main_arg10) : S64.Idx → EReal) shapeCasts_S64_S1x64 0 j
theorem g2_apply (j : Fin 64) : (after hostOps1_2 W main_v35 : S1x64.Idx → EReal) (ix2 (0 : Fin 1) j) = (W main_arg11 : S64.Idx → EReal) (ix1 j) := by
  show StableHlo.after hostOps1_2 W (Proc.devRef .tc main_v35) (ix2 (0 : Fin 1) j) = _
  after_results
  exact shapeCast_a_1a_apply (W (Proc.devRef .tc main_arg11) : S64.Idx → EReal) shapeCasts_S64_S1x64 0 j
theorem be2_apply (j : Fin 64) : (after hostOps1_2 W main_v36 : S1x64.Idx → EReal) (ix2 (0 : Fin 1) j) = (W main_arg12 : S64.Idx → EReal) (ix1 j) := by
  show StableHlo.after hostOps1_2 W (Proc.devRef .tc main_v36) (ix2 (0 : Fin 1) j) = _
  after_results
  exact shapeCast_a_1a_apply (W (Proc.devRef .tc main_arg12) : S64.Idx → EReal) shapeCasts_S64_S1x64 0 j
theorem b3_apply (j : Fin 64) : (after hostOps1_2 W main_v37 : S1x64.Idx → EReal) (ix2 (0 : Fin 1) j) = (W main_arg14 : S64.Idx → EReal) (ix1 j) := by
  show StableHlo.after hostOps1_2 W (Proc.devRef .tc main_v37) (ix2 (0 : Fin 1) j) = _
  after_results
  exact shapeCast_a_1a_apply (W (Proc.devRef .tc main_arg14) : S64.Idx → EReal) shapeCasts_S64_S1x64 0 j
theorem g3_apply (j : Fin 64) : (after hostOps1_2 W main_v38 : S1x64.Idx → EReal) (ix2 (0 : Fin 1) j) = (W main_arg15 : S64.Idx → EReal) (ix1 j) := by
  show StableHlo.after hostOps1_2 W (Proc.devRef .tc main_v38) (ix2 (0 : Fin 1) j) = _
  after_results
  exact shapeCast_a_1a_apply (W (Proc.devRef .tc main_arg15) : S64.Idx → EReal) shapeCasts_S64_S1x64 0 j
theorem be3_apply (j : Fin 64) : (after hostOps1_2 W main_v39 : S1x64.Idx → EReal) (ix2 (0 : Fin 1) j) = (W main_arg16 : S64.Idx → EReal) (ix1 j) := by
  show StableHlo.after hostOps1_2 W (Proc.devRef .tc main_v39) (ix2 (0 : Fin 1) j) = _
  after_results
  exact shapeCast_a_1a_apply (W (Proc.devRef .tc main_arg16) : S64.Idx → EReal) shapeCasts_S64_S1x64 0 j

end Cert.KernelIdeal.Values

end
-- ==== Proof.RefEdge.lean ====
/-
  The reference's edge messages, read at one entry: entry `(e, j)` of the message array is the message row of
  `RowSpec`, in its one-product form, of row `e` of the joined array (gathered source features, then edge features)
  and of the whole weight, bias, gain and offset; and the joined array's row `e` is row `e` of the gathered array
  followed by row `e` of the edge features.
-/
import proofs.«418484_j28518582846165_3_alg».proof.Proof.Gen.ReferenceIdeal.Read
import proofs.«418484_j28518582846165_3_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Rows

open Idealize.ShloMosaic Idealize.ShloMosaic.ValueIdx Cert.ReferenceIdeal Cert.ReferenceIdeal.Gen Cert.ReferenceIdeal.Read Cert.RowSpec

/-- Entry `(e, k)` of the rectified pre-activation: the 128-term product of the joined row with column `k` of the
    weight, plus the bias, the larger of that and zero. -/
theorem msg_relu_apply (x0 : (⟨S100000x64, .f32⟩ : BufTy).Contents (Elt Ideal)) (x1 : (⟨S2x1200000, .i32⟩ : BufTy).Contents (Elt Ideal))
    (x2 : (⟨S1200000x64, .f32⟩ : BufTy).Contents (Elt Ideal)) (x5 : (⟨S128x64, .f32⟩ : BufTy).Contents (Elt Ideal))
    (x6 : (⟨S64, .f32⟩ : BufTy).Contents (Elt Ideal)) (e : Fin 1200000) (k : Fin 64) :
    val_main_v16 (F := Ideal) x0 x1 x2 x5 x6 (ix2 e k)
      = relu (edgePreJoined (fun k => val_main_v11 (F := Ideal) x0 x1 x2 (ix2 e k)) (fun k j => x5 (ix2 k j))
          (fun j => x6 (ix1 j))) k := by
  have hl : ∀ k' : Fin 128, lidx_main_v12 (ix2 e k) k' = ix2 e k' := fun k' =>
    funext fun a => Fin.ext (by match a with | ⟨0, _⟩ => rfl | ⟨1, _⟩ => rfl)
  have hr : ∀ k' : Fin 128, ridx_main_v12 (ix2 e k) k' = ix2 k' k := fun k' =>
    funext fun a => Fin.ext (by match a with | ⟨0, _⟩ => rfl | ⟨1, _⟩ => rfl)
  have hb : idx_main_v13 (idx_main_v14 (ix2 e k)) = ix1 k :=
    funext fun a => Fin.ext (by match a with | ⟨0, _⟩ => rfl)
  rw [val_main_v16_apply, val_main_v15_apply, val_main_v12_apply, val_main_v14_apply, val_main_v13_apply,
    val_main_call0_v0_apply, val_main_call0_cst_apply]
  simp only [hl, hr, hb, Ideal.addf_def, Ideal.maximumf_def, Ideal.ofBits_def]
  rfl

/-- The reference's value %20 at row `e` is the mean of row `e` of the rectified pre-activation (its value %16). -/
theorem msg_mean_apply (x0 : (⟨S100000x64, .f32⟩ : BufTy).Contents (Elt Ideal)) (x1 : (⟨S2x1200000, .i32⟩ : BufTy).Contents (Elt Ideal))
    (x2 : (⟨S1200000x64, .f32⟩ : BufTy).Contents (Elt Ideal)) (x5 : (⟨S128x64, .f32⟩ : BufTy).Contents (Elt Ideal))
    (x6 : (⟨S64, .f32⟩ : BufTy).Contents (Elt Ideal)) (e : Fin 1200000) (c : Fin 1) :
    val_main_v20 (F := Ideal) x0 x1 x2 x5 x6 (ix2 e c) = mean (fun k => val_main_v16 (F := Ideal) x0 x1 x2 x5 x6 (ix2 e k)) := by
  have h : ∀ k : Fin 64, idx_main_v17 (idx_main_v18 (ix2 e c)) k = ix2 e k := fun k =>
    funext fun a => Fin.ext (by match a with | ⟨0, _⟩ => rfl | ⟨1, _⟩ => rfl)
  rw [val_main_v20_apply, val_main_v18_apply, val_main_v17_apply, val_main_v19_apply, val_main_cst_1_apply,
    val_main_cst_apply]
  simp only [h, Ideal.hostDivf_def, Ideal.ofBits_def, Ideal.ofBits_zero_f32, zero_add]
  rfl

/-- The reference's value %22 at `(e, k)`: the rectified row less its mean, as the variance reads it. -/
theorem msg_centred_apply (x0 : (⟨S100000x64, .f32⟩ : BufTy).Contents (Elt Ideal)) (x1 : (⟨S2x1200000, .i32⟩ : BufTy).Contents (Elt Ideal))
    (x2 : (⟨S1200000x64, .f32⟩ : BufTy).Contents (Elt Ideal)) (x5 : (⟨S128x64, .f32⟩ : BufTy).Contents (Elt Ideal))
    (x6 : (⟨S64, .f32⟩ : BufTy).Contents (Elt Ideal)) (e : Fin 1200000) (k : Fin 64) :
    val_main_v22 (F := Ideal) x0 x1 x2 x5 x6 (ix2 e k) = centred (fun k => val_main_v16 (F := Ideal) x0 x1 x2 x5 x6 (ix2 e k)) k := by
  have h : idx_main_v21 (ix2 e k) = ix2 e (0 : Fin 1) :=
    funext fun a => Fin.ext (by match a with | ⟨0, _⟩ => rfl | ⟨1, _⟩ => rfl)
  rw [val_main_v22_apply, val_main_v21_apply, h, msg_mean_apply]
  rfl

/-- The reference's value %29 at `(e, k)`: the rectified row less its mean, as the normalised entry reads it. -/
theorem msg_centred2_apply (x0 : (⟨S100000x64, .f32⟩ : BufTy).Contents (Elt Ideal)) (x1 : (⟨S2x1200000, .i32⟩ : BufTy).Contents (Elt Ideal))
    (x2 : (⟨S1200000x64, .f32⟩ : BufTy).Contents (Elt Ideal)) (x5 : (⟨S128x64, .f32⟩ : BufTy).Contents (Elt Ideal))
    (x6 : (⟨S64, .f32⟩ : BufTy).Contents (Elt Ideal)) (e : Fin 1200000) (k : Fin 64) :
    val_main_v29 (F := Ideal) x0 x1 x2 x5 x6 (ix2 e k) = centred (fun k => val_main_v16 (F := Ideal) x0 x1 x2 x5 x6 (ix2 e k)) k := by
  have h : idx_main_v28 (ix2 e k) = ix2 e (0 : Fin 1) :=
    funext fun a => Fin.ext (by match a with | ⟨0, _⟩ => rfl | ⟨1, _⟩ => rfl)
  rw [val_main_v29_apply, val_main_v28_apply, h, msg_mean_apply]
  rfl

/-- The reference's value %31 at row `e`: the mean of the squared centred row, plus the variance offset. -/
theorem msg_var_apply (x0 : (⟨S100000x64, .f32⟩ : BufTy).Contents (Elt Ideal)) (x1 : (⟨S2x1200000, .i32⟩ : BufTy).Contents (Elt Ideal))
    (x2 : (⟨S1200000x64, .f32⟩ : BufTy).Contents (Elt Ideal)) (x5 : (⟨S128x64, .f32⟩ : BufTy).Contents (Elt Ideal))
    (x6 : (⟨S64, .f32⟩ : BufTy).Contents (Elt Ideal)) (e : Fin 1200000) (c : Fin 1) :
    val_main_v31 (F := Ideal) x0 x1 x2 x5 x6 (ix2 e c)
      = mean (fun k => centred (fun k => val_main_v16 (F := Ideal) x0 x1 x2 x5 x6 (ix2 e k)) k * centred (fun k => val_main_v16 (F := Ideal) x0 x1 x2 x5 x6 (ix2 e k)) k) + epsW := by
  have h : ∀ k : Fin 64, idx_main_v24 (idx_main_v25 (ix2 e c)) k = ix2 e k := fun k =>
    funext fun a => Fin.ext (by match a with | ⟨0, _⟩ => rfl | ⟨1, _⟩ => rfl)
  rw [val_main_v31_apply, val_main_v27_apply, val_main_v25_apply, val_main_v24_apply, val_main_v26_apply,
    val_main_cst_3_apply, val_main_v30_apply, val_main_cst_4_apply, val_main_cst_2_apply]
  simp only [h, val_main_v23_apply, msg_centred_apply, Ideal.addf_def, Ideal.mulf_def, Ideal.hostDivf_def,
    Ideal.ofBits_def, Ideal.ofBits_zero_f32, zero_add]
  rfl

/-- Entry `(e, j)` of the message array is the layer normalisation of row `e` of the rectified pre-activation. -/
theorem msg_norm_apply (x0 : (⟨S100000x64, .f32⟩ : BufTy).Contents (Elt Ideal)) (x1 : (⟨S2x1200000, .i32⟩ : BufTy).Contents (Elt Ideal))
    (x2 : (⟨S1200000x64, .f32⟩ : BufTy).Contents (Elt Ideal)) (x5 : (⟨S128x64, .f32⟩ : BufTy).Contents (Elt Ideal))
    (x6 : (⟨S64, .f32⟩ : BufTy).Contents (Elt Ideal)) (x7 x8 : (⟨S64, .f32⟩ : BufTy).Contents (Elt Ideal)) (e : Fin 1200000) (j : Fin 64) :
    val_main_v40 (F := Ideal) x0 x1 x2 x5 x6 x7 x8 (ix2 e j)
      = layerNorm (fun k => val_main_v16 (F := Ideal) x0 x1 x2 x5 x6 (ix2 e k)) (fun j => x7 (ix1 j)) (fun j => x8 (ix1 j)) j := by
  have hs : idx_main_v33 (ix2 e j) = ix2 e (0 : Fin 1) :=
    funext fun a => Fin.ext (by match a with | ⟨0, _⟩ => rfl | ⟨1, _⟩ => rfl)
  have hg : idx_main_v35 (idx_main_v36 (ix2 e j)) = ix1 j :=
    funext fun a => Fin.ext (by match a with | ⟨0, _⟩ => rfl)
  have hb : idx_main_v38 (idx_main_v39 (ix2 e j)) = ix1 j :=
    funext fun a => Fin.ext (by match a with | ⟨0, _⟩ => rfl)
  rw [val_main_v40_apply, val_main_v37_apply, val_main_v34_apply, val_main_v33_apply, val_main_v32_apply, hs,
    msg_var_apply, msg_centred2_apply, val_main_v36_apply, val_main_v35_apply, hg, val_main_v39_apply,
    val_main_v38_apply, hb]
  rfl

/-- Entry `(e, j)` of the reference's message array from row `e` of its joined array. -/
theorem msg_apply (x0 : (⟨S100000x64, .f32⟩ : BufTy).Contents (Elt Ideal)) (x1 : (⟨S2x1200000, .i32⟩ : BufTy).Contents (Elt Ideal))
    (x2 : (⟨S1200000x64, .f32⟩ : BufTy).Contents (Elt Ideal)) (x5 : (⟨S128x64, .f32⟩ : BufTy).Contents (Elt Ideal))
    (x6 x7 x8 : (⟨S64, .f32⟩ : BufTy).Contents (Elt Ideal)) (e : Fin 1200000) (j : Fin 64) :
    val_main_v40 (F := Ideal) x0 x1 x2 x5 x6 x7 x8 (ix2 e j)
      = edgeRowJoined (fun k => val_main_v11 (F := Ideal) x0 x1 x2 (ix2 e k)) (fun k j => x5 (ix2 k j))
          (fun j => x6 (ix1 j)) (fun j => x7 (ix1 j)) (fun j => x8 (ix1 j)) j := by
  rw [msg_norm_apply]
  unfold edgeRowJoined
  exact congrFun (congrArg (fun z => layerNorm z (fun j => x7 (ix1 j)) (fun j => x8 (ix1 j)))
    (funext fun k => msg_relu_apply x0 x1 x2 x5 x6 e k)) j

/-- The first 64 entries of a joined row are the gathered source features. -/
theorem joined_left (x0 : (⟨S100000x64, .f32⟩ : BufTy).Contents (Elt Ideal)) (x1 : (⟨S2x1200000, .i32⟩ : BufTy).Contents (Elt Ideal))
    (x2 : (⟨S1200000x64, .f32⟩ : BufTy).Contents (Elt Ideal)) (e : Fin 1200000) (k : Fin 64) :
    val_main_v11 (F := Ideal) x0 x1 x2 (ix2 e (⟨k.val, by omega⟩ : Fin 128)) = val_main_v10 (F := Ideal) x0 x1 (ix2 e k) := by
  unfold val_main_v11
  exact concatenate_pair_apply_left (t := S1200000x128) (s₁ := S1200000x64) (s₂ := S1200000x64) 1
    (val_main_v10 (F := Ideal) x0 x1) x2 concatenates_S1200000x64_S1200000x64_S1200000x128_d1
    (ix2 e (⟨k.val, by omega⟩ : Fin 128)) rfl (ix2 e k)
    (fun b => by match b with | ⟨0, _⟩ => rfl | ⟨1, _⟩ => rfl)

/-- The last 64 entries of a joined row are the edge's own features. -/
theorem joined_right (x0 : (⟨S100000x64, .f32⟩ : BufTy).Contents (Elt Ideal)) (x1 : (⟨S2x1200000, .i32⟩ : BufTy).Contents (Elt Ideal))
    (x2 : (⟨S1200000x64, .f32⟩ : BufTy).Contents (Elt Ideal)) (e : Fin 1200000) (k : Fin 64) :
    val_main_v11 (F := Ideal) x0 x1 x2 (ix2 e (⟨64 + k.val, by omega⟩ : Fin 128)) = x2 (ix2 e k) := by
  unfold val_main_v11
  exact concatenate_pair_apply_right (t := S1200000x128) (s₁ := S1200000x64) (s₂ := S1200000x64) 1
    (val_main_v10 (F := Ideal) x0 x1) x2 concatenates_S1200000x64_S1200000x64_S1200000x128_d1
    (ix2 e (⟨64 + k.val, by omega⟩ : Fin 128)) rfl rfl (ix2 e k)
    (fun b hb => by match b with | ⟨0, _⟩ => rfl | ⟨1, _⟩ => exact absurd rfl hb)
    (by show k.val + 64 = 64 + k.val; omega)

end Cert.ReferenceIdeal.Rows

end
-- ==== Proof.RefNode.lean ====
/-
  The reference's result, read at one entry: entry `(n, j)` is the node row of `RowSpec`, in its one-product form,
  of row `n` of the joined array (node features, mean message, global scalar) and of the weights, biases, gains and
  offsets; the joined array's row `n` is row `n` of the node features, then row `n` of the mean messages, then the
  gathered scalar; the mean message is the summed message divided by the count taken as at least one; and the scalar
  gathered from a one-entry table is that entry whatever the index, a gather clamping its start index into the table.
-/
import proofs.«418484_j28518582846165_3_alg».proof.Proof.Gen.ReferenceIdeal.Read
import proofs.«418484_j28518582846165_3_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Rows

open Idealize.ShloMosaic Idealize.ShloMosaic.ValueIdx Cert.ReferenceIdeal Cert.ReferenceIdeal.Gen Cert.ReferenceIdeal.Read Cert.RowSpec

section
variable (x0 : (⟨S100000x64, .f32⟩ : BufTy).Contents (Elt Ideal)) (x1 : (⟨S2x1200000, .i32⟩ : BufTy).Contents (Elt Ideal))
  (x2 : (⟨S1200000x64, .f32⟩ : BufTy).Contents (Elt Ideal)) (x3 : (⟨S1x1, .f32⟩ : BufTy).Contents (Elt Ideal))
  (x4 : (⟨S100000, .i32⟩ : BufTy).Contents (Elt Ideal)) (x5 : (⟨S128x64, .f32⟩ : BufTy).Contents (Elt Ideal))
  (x6 x7 x8 : (⟨S64, .f32⟩ : BufTy).Contents (Elt Ideal)) (x9 : (⟨S129x64, .f32⟩ : BufTy).Contents (Elt Ideal))
  (x10 x11 x12 : (⟨S64, .f32⟩ : BufTy).Contents (Elt Ideal)) (x13 : (⟨S64x64, .f32⟩ : BufTy).Contents (Elt Ideal))
  (x14 x15 x16 : (⟨S64, .f32⟩ : BufTy).Contents (Elt Ideal))

/-! ## The one-entry table has one index -/

/-- Any two indices of a `[1, 1]` array are equal: each coordinate is below 1. -/
theorem outIdx11_eq (p q : S1x1.Idx) : p = q := by
  funext a
  apply Fin.ext
  match a with
  | ⟨0, h⟩ =>
    have hp : (p ⟨0, h⟩).val < 1 := (p ⟨0, h⟩).isLt
    have hq : (q ⟨0, h⟩).val < 1 := (q ⟨0, h⟩).isLt
    omega
  | ⟨1, h⟩ =>
    have hp : (p ⟨1, h⟩).val < 1 := (p ⟨1, h⟩).isLt
    have hq : (q ⟨1, h⟩).val < 1 := (q ⟨1, h⟩).isLt
    omega

/-! ## Rows of 64 broadcast down the nodes -/

/-- The first bias, spread over the nodes, reads its entry `j`. -/
theorem outRow10 (n : Fin 100000) (j : Fin 64) : val_main_v63 (F := Ideal) x10 (ix2 n j) = x10 (ix1 j) := by
  rw [val_main_v63_apply, val_main_v62_apply]
  exact congrArg x10 (funext fun a => Fin.ext (by match a with | ⟨0, _⟩ => rfl))

/-- The first gain likewise. -/
theorem outRow11 (n : Fin 100000) (j : Fin 64) : val_main_v85 (F := Ideal) x11 (ix2 n j) = x11 (ix1 j) := by
  rw [val_main_v85_apply, val_main_v84_apply]
  exact congrArg x11 (funext fun a => Fin.ext (by match a with | ⟨0, _⟩ => rfl))

/-- The first offset likewise. -/
theorem outRow12 (n : Fin 100000) (j : Fin 64) : val_main_v88 (F := Ideal) x12 (ix2 n j) = x12 (ix1 j) := by
  rw [val_main_v88_apply, val_main_v87_apply]
  exact congrArg x12 (funext fun a => Fin.ext (by match a with | ⟨0, _⟩ => rfl))

/-- The second bias likewise. -/
theorem outRow14 (n : Fin 100000) (j : Fin 64) : val_main_v92 (F := Ideal) x14 (ix2 n j) = x14 (ix1 j) := by
  rw [val_main_v92_apply, val_main_v91_apply]
  exact congrArg x14 (funext fun a => Fin.ext (by match a with | ⟨0, _⟩ => rfl))

/-- The second gain likewise. -/
theorem outRow15 (n : Fin 100000) (j : Fin 64) : val_main_v113 (F := Ideal) x15 (ix2 n j) = x15 (ix1 j) := by
  rw [val_main_v113_apply, val_main_v112_apply]
  exact congrArg x15 (funext fun a => Fin.ext (by match a with | ⟨0, _⟩ => rfl))

/-- The second offset likewise. -/
theorem outRow16 (n : Fin 100000) (j : Fin 64) : val_main_v116 (F := Ideal) x16 (ix2 n j) = x16 (ix1 j) := by
  rw [val_main_v116_apply, val_main_v115_apply]
  exact congrArg x16 (funext fun a => Fin.ext (by match a with | ⟨0, _⟩ => rfl))

/-! ## The two products at an entry -/

/-- The first product: row `n` of the joined array against column `j` of the 129-row weight. -/
theorem outDot1 (n : Fin 100000) (j : Fin 64) :
    val_main_v61 (F := Ideal) x0 x1 x2 x3 x4 x5 x6 x7 x8 x9 (ix2 n j) = ∑ k : Fin 129, val_main_v60 (F := Ideal) x0 x1 x2 x3 x4 x5 x6 x7 x8 (ix2 n k) * x9 (ix2 k j) := by
  have hl : ∀ k : Fin 129, lidx_main_v61 (ix2 n j) k = ix2 n k := fun k =>
    funext fun a => Fin.ext (by match a with | ⟨0, _⟩ => rfl | ⟨1, _⟩ => rfl)
  have hr : ∀ k : Fin 129, ridx_main_v61 (ix2 n j) k = ix2 k j := fun k =>
    funext fun a => Fin.ext (by match a with | ⟨0, _⟩ => rfl | ⟨1, _⟩ => rfl)
  rw [val_main_v61_apply]
  simp only [hl, hr]

/-- The second product: row `n` of the first normalisation's result against column `j` of the second weight. -/
theorem outDot2 (n : Fin 100000) (j : Fin 64) :
    val_main_v90 (F := Ideal) x0 x1 x2 x3 x4 x5 x6 x7 x8 x9 x10 x11 x12 x13 (ix2 n j) = ∑ k : Fin 64, val_main_v89 (F := Ideal) x0 x1 x2 x3 x4 x5 x6 x7 x8 x9 x10 x11 x12 (ix2 n k) * x13 (ix2 k j) := by
  have hl : ∀ k : Fin 64, lidx_main_v90 (ix2 n j) k = ix2 n k := fun k =>
    funext fun a => Fin.ext (by match a with | ⟨0, _⟩ => rfl | ⟨1, _⟩ => rfl)
  have hr : ∀ k : Fin 64, ridx_main_v90 (ix2 n j) k = ix2 k j := fun k =>
    funext fun a => Fin.ext (by match a with | ⟨0, _⟩ => rfl | ⟨1, _⟩ => rfl)
  rw [val_main_v90_apply]
  simp only [hl, hr]

/-! ## The rectified first pre-activation -/

/-- Entry `(n, j)` of the rectified first pre-activation, from row `n` of the joined array. -/
theorem outRelu (n : Fin 100000) (j : Fin 64) :
    val_main_v65 (F := Ideal) x0 x1 x2 x3 x4 x5 x6 x7 x8 x9 x10 (ix2 n j)
      = relu (nodePreJoined (fun k => val_main_v60 (F := Ideal) x0 x1 x2 x3 x4 x5 x6 x7 x8 (ix2 n k)) (fun k j => x9 (ix2 k j)) (fun j => x10 (ix1 j))) j := by
  rw [val_main_v65_apply, val_main_v64_apply, outDot1, outRow10, val_main_call1_v0_apply, val_main_call1_cst_apply]
  rfl

/-! ## The first normalisation -/

/-- The mean column of the rectified pre-activation: in row `n`, the row's mean. -/
theorem outMean1 (n : Fin 100000) :
    val_main_v69 (F := Ideal) x0 x1 x2 x3 x4 x5 x6 x7 x8 x9 x10 (ix2 n (0 : Fin 1)) = mean (fun k => val_main_v65 (F := Ideal) x0 x1 x2 x3 x4 x5 x6 x7 x8 x9 x10 (ix2 n k)) := by
  have hidx : ∀ k : Fin 64, idx_main_v66 (idx_main_v67 (ix2 n (0 : Fin 1))) k = ix2 n k := fun k =>
    funext fun a => Fin.ext (by match a with | ⟨0, _⟩ => rfl | ⟨1, _⟩ => rfl)
  rw [val_main_v69_apply, val_main_v67_apply, val_main_v66_apply, val_main_v68_apply, val_main_cst_12_apply, val_main_cst_11_apply]
  simp only [hidx, Ideal.hostDivf_def, Ideal.ofBits_def, Ideal.ofBits_zero_f32, zero_add]
  rfl

/-- The mean column spread over the lanes (its first use). -/
theorem outBc70 (n : Fin 100000) (j : Fin 64) :
    val_main_v70 (F := Ideal) x0 x1 x2 x3 x4 x5 x6 x7 x8 x9 x10 (ix2 n j) = val_main_v69 (F := Ideal) x0 x1 x2 x3 x4 x5 x6 x7 x8 x9 x10 (ix2 n (0 : Fin 1)) := by
  rw [val_main_v70_apply]
  exact congrArg _ (funext fun a => Fin.ext (by match a with | ⟨0, _⟩ => rfl | ⟨1, _⟩ => rfl))

/-- The mean column spread over the lanes (its second use). -/
theorem outBc77 (n : Fin 100000) (j : Fin 64) :
    val_main_v77 (F := Ideal) x0 x1 x2 x3 x4 x5 x6 x7 x8 x9 x10 (ix2 n j) = val_main_v69 (F := Ideal) x0 x1 x2 x3 x4 x5 x6 x7 x8 x9 x10 (ix2 n (0 : Fin 1)) := by
  rw [val_main_v77_apply]
  exact congrArg _ (funext fun a => Fin.ext (by match a with | ⟨0, _⟩ => rfl | ⟨1, _⟩ => rfl))

/-- The reciprocal root of variance plus offset, spread over the lanes. -/
theorem outRstd1 (n : Fin 100000) (j : Fin 64) :
    val_main_v82 (F := Ideal) x0 x1 x2 x3 x4 x5 x6 x7 x8 x9 x10 (ix2 n j) = Ideal.rsqrt (mean (fun k => val_main_v72 (F := Ideal) x0 x1 x2 x3 x4 x5 x6 x7 x8 x9 x10 (ix2 n k)) + epsW) := by
  have hidx : ∀ k : Fin 64, idx_main_v73 (idx_main_v74 (idx_main_v82 (ix2 n j))) k = ix2 n k := fun k =>
    funext fun a => Fin.ext (by match a with | ⟨0, _⟩ => rfl | ⟨1, _⟩ => rfl)
  rw [val_main_v82_apply, val_main_v81_apply, val_main_v80_apply, val_main_v76_apply, val_main_v74_apply, val_main_v73_apply,
    val_main_v75_apply, val_main_cst_14_apply, val_main_cst_13_apply, val_main_v79_apply, val_main_cst_15_apply]
  simp only [hidx, Ideal.hostDivf_def, Ideal.hostUnary_rsqrt_def, Ideal.addf_def, Ideal.ofBits_def, Ideal.ofBits_zero_f32, zero_add]
  rfl

/-- The first normalisation's result at `(n, j)`. -/
theorem outLn1 (n : Fin 100000) (j : Fin 64) :
    val_main_v89 (F := Ideal) x0 x1 x2 x3 x4 x5 x6 x7 x8 x9 x10 x11 x12 (ix2 n j)
      = layerNorm (fun k => val_main_v65 (F := Ideal) x0 x1 x2 x3 x4 x5 x6 x7 x8 x9 x10 (ix2 n k)) (fun j => x11 (ix1 j)) (fun j => x12 (ix1 j)) j := by
  simp only [val_main_v89_apply, val_main_v86_apply, val_main_v83_apply, val_main_v78_apply, val_main_v72_apply, val_main_v71_apply,
    outBc70, outBc77, outMean1, outRstd1, outRow11, outRow12, Ideal.addf_def, Ideal.mulf_def, Ideal.subf_def]
  rfl

/-! ## The second linear map and the second normalisation -/

/-- The second pre-activation at `(n, j)`. -/
theorem outPre2 (n : Fin 100000) (j : Fin 64) :
    val_main_v93 (F := Ideal) x0 x1 x2 x3 x4 x5 x6 x7 x8 x9 x10 x11 x12 x13 x14 (ix2 n j)
      = nodePre2 (fun k => val_main_v89 (F := Ideal) x0 x1 x2 x3 x4 x5 x6 x7 x8 x9 x10 x11 x12 (ix2 n k)) (fun k j => x13 (ix2 k j)) (fun j => x14 (ix1 j)) j := by
  rw [val_main_v93_apply, outDot2, outRow14]
  rfl

/-- The mean column of the second pre-activation. -/
theorem outMean2 (n : Fin 100000) :
    val_main_v97 (F := Ideal) x0 x1 x2 x3 x4 x5 x6 x7 x8 x9 x10 x11 x12 x13 x14 (ix2 n (0 : Fin 1)) = mean (fun k => val_main_v93 (F := Ideal) x0 x1 x2 x3 x4 x5 x6 x7 x8 x9 x10 x11 x12 x13 x14 (ix2 n k)) := by
  have hidx : ∀ k : Fin 64, idx_main_v94 (idx_main_v95 (ix2 n (0 : Fin 1))) k = ix2 n k := fun k =>
    funext fun a => Fin.ext (by match a with | ⟨0, _⟩ => rfl | ⟨1, _⟩ => rfl)
  rw [val_main_v97_apply, val_main_v95_apply, val_main_v94_apply, val_main_v96_apply, val_main_cst_17_apply, val_main_cst_16_apply]
  simp only [hidx, Ideal.hostDivf_def, Ideal.ofBits_def, Ideal.ofBits_zero_f32, zero_add]
  rfl

/-- The mean column spread over the lanes (its first use). -/
theorem outBc98 (n : Fin 100000) (j : Fin 64) :
    val_main_v98 (F := Ideal) x0 x1 x2 x3 x4 x5 x6 x7 x8 x9 x10 x11 x12 x13 x14 (ix2 n j) = val_main_v97 (F := Ideal) x0 x1 x2 x3 x4 x5 x6 x7 x8 x9 x10 x11 x12 x13 x14 (ix2 n (0 : Fin 1)) := by
  rw [val_main_v98_apply]
  exact congrArg _ (funext fun a => Fin.ext (by match a with | ⟨0, _⟩ => rfl | ⟨1, _⟩ => rfl))

/-- The mean column spread over the lanes (its second use). -/
theorem outBc105 (n : Fin 100000) (j : Fin 64) :
    val_main_v105 (F := Ideal) x0 x1 x2 x3 x4 x5 x6 x7 x8 x9 x10 x11 x12 x13 x14 (ix2 n j) = val_main_v97 (F := Ideal) x0 x1 x2 x3 x4 x5 x6 x7 x8 x9 x10 x11 x12 x13 x14 (ix2 n (0 : Fin 1)) := by
  rw [val_main_v105_apply]
  exact congrArg _ (funext fun a => Fin.ext (by match a with | ⟨0, _⟩ => rfl | ⟨1, _⟩ => rfl))

/-- The reciprocal root of variance plus offset, spread over the lanes. -/
theorem outRstd2 (n : Fin 100000) (j : Fin 64) :
    val_main_v110 (F := Ideal) x0 x1 x2 x3 x4 x5 x6 x7 x8 x9 x10 x11 x12 x13 x14 (ix2 n j) = Ideal.rsqrt (mean (fun k => val_main_v100 (F := Ideal) x0 x1 x2 x3 x4 x5 x6 x7 x8 x9 x10 x11 x12 x13 x14 (ix2 n k)) + epsW) := by
  have hidx : ∀ k : Fin 64, idx_main_v101 (idx_main_v102 (idx_main_v110 (ix2 n j))) k = ix2 n k := fun k =>
    funext fun a => Fin.ext (by match a with | ⟨0, _⟩ => rfl | ⟨1, _⟩ => rfl)
  rw [val_main_v110_apply, val_main_v109_apply, val_main_v108_apply, val_main_v104_apply, val_main_v102_apply, val_main_v101_apply,
    val_main_v103_apply, val_main_cst_19_apply, val_main_cst_18_apply, val_main_v107_apply, val_main_cst_20_apply]
  simp only [hidx, Ideal.hostDivf_def, Ideal.hostUnary_rsqrt_def, Ideal.addf_def, Ideal.ofBits_def, Ideal.ofBits_zero_f32, zero_add]
  rfl

/-- The second normalisation's result at `(n, j)`. -/
theorem outLn2 (n : Fin 100000) (j : Fin 64) :
    val_main_v117 (F := Ideal) x0 x1 x2 x3 x4 x5 x6 x7 x8 x9 x10 x11 x12 x13 x14 x15 x16 (ix2 n j)
      = layerNorm (fun k => val_main_v93 (F := Ideal) x0 x1 x2 x3 x4 x5 x6 x7 x8 x9 x10 x11 x12 x13 x14 (ix2 n k)) (fun j => x15 (ix1 j)) (fun j => x16 (ix1 j)) j := by
  simp only [val_main_v117_apply, val_main_v114_apply, val_main_v111_apply, val_main_v106_apply, val_main_v100_apply, val_main_v99_apply,
    outBc98, outBc105, outMean2, outRstd2, outRow15, outRow16, Ideal.addf_def, Ideal.mulf_def, Ideal.subf_def]
  rfl

/-! ## The six statements -/

/-- Entry `(n, j)` of the reference's result from row `n` of its joined array and of the node features. -/
theorem out_apply (n : Fin 100000) (j : Fin 64) :
    val_main_v118 (F := Ideal) x0 x1 x2 x3 x4 x5 x6 x7 x8 x9 x10 x11 x12 x13 x14 x15 x16 (ix2 n j)
      = nodeRowJoined (fun k => val_main_v60 (F := Ideal) x0 x1 x2 x3 x4 x5 x6 x7 x8 (ix2 n k)) (fun k => x0 (ix2 n k))
          (fun k j => x9 (ix2 k j)) (fun j => x10 (ix1 j)) (fun j => x11 (ix1 j)) (fun j => x12 (ix1 j))
          (fun k j => x13 (ix2 k j)) (fun j => x14 (ix1 j)) (fun j => x15 (ix1 j)) (fun j => x16 (ix1 j)) j := by
  rw [val_main_v118_apply, outLn2]
  simp only [outPre2, outLn1, outRelu]
  rfl

/-- Entries 0–63 of a joined row are the node's features. -/
theorem nodeJoined_x (n : Fin 100000) (k : Fin 64) :
    val_main_v60 (F := Ideal) x0 x1 x2 x3 x4 x5 x6 x7 x8 (ix2 n (⟨k.val, by omega⟩ : Fin 129)) = x0 (ix2 n k) := by
  unfold val_main_v60
  refine concatenate_apply_piece (1 : Fin S100000x129.rank)
    [⟨S100000x64, x0⟩, ⟨S100000x64, val_main_v52 (F := Ideal) x0 x1 x2 x5 x6 x7 x8⟩, ⟨S100000x1, val_main_v59 (F := Ideal) x3 x4⟩]
    concatenates_S100000x64_S100000x64_S100000x1_S100000x129_d1 _
    0 (by simp) S100000x64 x0 rfl rfl 0 rfl (ix2 n k) (fun b hb => ?_) ?_
  · match b with
    | ⟨0, _⟩ => rfl
    | ⟨1, _⟩ => exact absurd rfl hb
  · exact Nat.zero_add _

/-- Entries 64–127 of a joined row are the node's mean message. -/
theorem nodeJoined_msg (n : Fin 100000) (k : Fin 64) :
    val_main_v60 (F := Ideal) x0 x1 x2 x3 x4 x5 x6 x7 x8 (ix2 n (⟨64 + k.val, by omega⟩ : Fin 129))
      = val_main_v52 (F := Ideal) x0 x1 x2 x5 x6 x7 x8 (ix2 n k) := by
  unfold val_main_v60
  refine concatenate_apply_piece (1 : Fin S100000x129.rank)
    [⟨S100000x64, x0⟩, ⟨S100000x64, val_main_v52 (F := Ideal) x0 x1 x2 x5 x6 x7 x8⟩, ⟨S100000x1, val_main_v59 (F := Ideal) x3 x4⟩]
    concatenates_S100000x64_S100000x64_S100000x1_S100000x129_d1 _
    1 (by simp) S100000x64 (val_main_v52 (F := Ideal) x0 x1 x2 x5 x6 x7 x8) rfl rfl 64 rfl (ix2 n k) (fun b hb => ?_) ?_
  · match b with
    | ⟨0, _⟩ => rfl
    | ⟨1, _⟩ => exact absurd rfl hb
  · rfl

/-- Entry 128 of a joined row is the gathered scalar. -/
theorem nodeJoined_u (n : Fin 100000) :
    val_main_v60 (F := Ideal) x0 x1 x2 x3 x4 x5 x6 x7 x8 (ix2 n (⟨128, by omega⟩ : Fin 129))
      = val_main_v59 (F := Ideal) x3 x4 (ix2 n (0 : Fin 1)) := by
  unfold val_main_v60
  refine concatenate_apply_piece (1 : Fin S100000x129.rank)
    [⟨S100000x64, x0⟩, ⟨S100000x64, val_main_v52 (F := Ideal) x0 x1 x2 x5 x6 x7 x8⟩, ⟨S100000x1, val_main_v59 (F := Ideal) x3 x4⟩]
    concatenates_S100000x64_S100000x64_S100000x1_S100000x129_d1 _
    2 (by simp) S100000x1 (val_main_v59 (F := Ideal) x3 x4) rfl rfl 128 rfl (ix2 n (0 : Fin 1)) (fun b hb => ?_) ?_
  · match b with
    | ⟨0, _⟩ => rfl
    | ⟨1, _⟩ => exact absurd rfl hb
  · rfl

/-- The mean message: the summed message over the count taken as at least one. -/
theorem meanMsg_apply (n : Fin 100000) (k : Fin 64) :
    val_main_v52 (F := Ideal) x0 x1 x2 x5 x6 x7 x8 (ix2 n k)
      = meanMsg (fun k => val_main_v43 (F := Ideal) x0 x1 x2 x5 x6 x7 x8 (ix2 n k)) (val_main_v47 (F := Ideal) x1 (ix1 n)) k := by
  have hidx : idx_main_v50 (idx_main_v51 (ix2 n k)) = ix1 n :=
    funext fun a => Fin.ext (by match a with | ⟨0, _⟩ => rfl)
  rw [val_main_v52_apply, val_main_v51_apply, val_main_v50_apply, val_main_v49_apply, val_main_v48_apply, val_main_cst_8_apply, hidx]
  rfl

/-- The scalar gathered from the one-entry table is that entry, whatever the index says. -/
theorem scalar_apply (n : Fin 100000) :
    val_main_v59 (F := Ideal) x3 x4 (ix2 n (0 : Fin 1)) = x3 (ix2 (0 : Fin 1) (0 : Fin 1)) := by
  unfold val_main_v59 Host.gather
  exact congrArg x3 (outIdx11_eq _ _)

end

end Cert.ReferenceIdeal.Rows

end
-- ==== Proof.Bridge.lean ====
/-
  The two programs compute one function: the array the kernel program's node region leaves is the reference's
  result at the same argument arrays, entry by entry over the extended reals.

  Edge stage.  Both programs gather the source nodes' features with one index computation and one clamping gather, so
  the gathered arrays are one array.  Entry `(e, j)` of the kernel's message array is the message row of row `e` with
  the first linear map as two 64-term products; the reference's is the same row with one 128-term product over the
  joined row; a sum over the joined index is the two sums added, so the message arrays are one array.
  Between the stages both programs scatter-add the messages, and ones, along one and the same destination index
  array into zeros: equal operands, so the summed messages and the counts are the same arrays.  The global scalar is
  read per node from a one-entry table by a clamping gather: every node reads that entry, in both programs.
  Node stage.  Entry `(n, j)` of the kernel's result is the node row of row `n`, the first linear map as three
  products over the packed lanes; the reference's is the same row with one 129-term product over the joined row whose
  middle piece is the mean message; again the joined sum splits.  No step needs an entry to be finite.
-/
import proofs.«418484_j28518582846165_3_alg».proof.Proof.KernelIdeal.WholeRun
import proofs.«418484_j28518582846165_3_alg».proof.Proof.KernelIdeal.EdgeValue
import proofs.«418484_j28518582846165_3_alg».proof.Proof.KernelIdeal.NodeValue
import proofs.«418484_j28518582846165_3_alg».proof.Proof.KernelIdeal.HostValues
import proofs.«418484_j28518582846165_3_alg».proof.Proof.RefEdge
import proofs.«418484_j28518582846165_3_alg».proof.Proof.RefNode

set_option maxRecDepth 16384

noncomputable section

namespace Cert.Bridge

open Cert.KernelIdeal Cert.KernelIdeal.Gen Cert.KernelIdeal.Regions Cert.KernelIdeal.Values Cert.RowSpec
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- An argument array of the kernel program as launched. -/
abbrev arg (r : Ref sig .tc) : Buf (Elt Ideal) ((c.tc : Thread nD τ).loc r) := m ((c.tc : Thread nD τ).loc r)

/-! ## Buffers no segment before a point writes hold their launch contents there -/

theorem at1 (r : Ref sig .tc) (h0 : r ∉ hostOps0_W) : V1 m c r = arg m c r := V1_of m c r h0
theorem at2 (outs : Outs (F := Ideal)) (r : Ref sig .tc) (h0 : r ∉ hostOps0_W) (hE : r ∉ ([main_v17] : List (Ref sig .tc))) :
    V2 m outs c r = arg m c r := (V2_of m outs c r hE).trans (at1 m c r h0)
theorem at3 (outs : Outs (F := Ideal)) (r : Ref sig .tc) (h0 : r ∉ hostOps0_W) (hE : r ∉ ([main_v17] : List (Ref sig .tc)))
    (h1 : r ∉ hostOps1_W) : V3 m outs c r = arg m c r := (V3_of m outs c r h1).trans (at2 m c outs r h0 hE)
theorem at4 (outs : Outs (F := Ideal)) (r : Ref sig .tc) (h0 : r ∉ hostOps0_W) (hE : r ∉ ([main_v17] : List (Ref sig .tc)))
    (h1 : r ∉ hostOps1_W) (h2 : r ∉ hostOps1_1_W) : V4 m outs c r = arg m c r :=
  (V4_of m outs c r h2).trans (at3 m c outs r h0 hE h1)
theorem at5 (outs : Outs (F := Ideal)) (r : Ref sig .tc) (h0 : r ∉ hostOps0_W) (hE : r ∉ ([main_v17] : List (Ref sig .tc)))
    (h1 : r ∉ hostOps1_W) (h2 : r ∉ hostOps1_1_W) (h3 : r ∉ hostOps1_2_W) : V5 m outs c r = arg m c r :=
  (V5_of m outs c r h3).trans (at4 m c outs r h0 hE h1 h2)

/-! ## The edge stage -/

/-- The reference's gathered source features, edge messages, summed messages and counts at the kernel's arguments. -/
abbrev refSrc : S1200000x64.Idx → EReal :=
  Cert.ReferenceIdeal.Read.val_main_v10 (F := Ideal) (arg m c main_arg0) (arg m c main_arg1)
abbrev refMsgs : S1200000x64.Idx → EReal :=
  Cert.ReferenceIdeal.Read.val_main_v40 (F := Ideal) (arg m c main_arg0) (arg m c main_arg1) (arg m c main_arg2) (arg m c main_arg5)
    (arg m c main_arg6) (arg m c main_arg7) (arg m c main_arg8)
abbrev refSummed : S100000x64.Idx → EReal :=
  Cert.ReferenceIdeal.Read.val_main_v43 (F := Ideal) (arg m c main_arg0) (arg m c main_arg1) (arg m c main_arg2) (arg m c main_arg5)
    (arg m c main_arg6) (arg m c main_arg7) (arg m c main_arg8)
abbrev refCount : S100000.Idx → EReal :=
  Cert.ReferenceIdeal.Read.val_main_v47 (F := Ideal) (arg m c main_arg1)

/-- Both programs make the gather's index column the same way. -/
theorem srcIdx_eq (x1 : S2x1200000.Idx → BitVec 32) : srcIdx x1 = Cert.ReferenceIdeal.Read.val_main_v9 (F := Ideal) x1 := rfl

/-- The gathered source features are one array. -/
theorem src_eq : (entryE m c main_v11 : S1200000x64.Idx → EReal) = refSrc m c := by
  show (after hostOps0 (V0 m c) main_v11 : S1200000x64.Idx → EReal) = _
  rw [srcFeat_eq (V0 m c), srcIdx_eq]
  rfl

/-- The message row depends on its seven arguments only through their values. -/
theorem edgeRow_congr {xg xg' ea ea' : Fin 64 → EReal} {wa wa' wb wb' : Fin 64 → Fin 64 → EReal} {b1 b1' g1 g1' be1 be1' : Fin 64 → EReal}
    (h1 : xg = xg') (h2 : ea = ea') (h3 : wa = wa') (h4 : wb = wb') (h5 : b1 = b1') (h6 : g1 = g1') (h7 : be1 = be1') :
    edgeRow xg ea wa wb b1 g1 be1 = edgeRow xg' ea' wa' wb' b1' g1' be1' := by
  subst h1 h2 h3 h4 h5 h6 h7; rfl

/-- Entry `(e, j)` of the kernel's message array, from the edge region's entry contents. -/
theorem msgs_apply (e : Fin 1200000) (j : Fin 64) : edgeMsgs (entryE m) c (ix2 e j)
    = edgeRow (fun k => (entryE m c main_v11 : S1200000x64.Idx → EReal) (ix2 e k)) (fun k => (entryE m c main_arg2 : S1200000x64.Idx → EReal) (ix2 e k))
        (fun k j => (entryE m c main_v12 : S64x64.Idx → EReal) (ix2 k j)) (fun k j => (entryE m c main_v13 : S64x64.Idx → EReal) (ix2 k j))
        (fun j => (entryE m c main_v14 : S1x64.Idx → EReal) (ix2 (0 : Fin 1) j)) (fun j => (entryE m c main_v15 : S1x64.Idx → EReal) (ix2 (0 : Fin 1) j))
        (fun j => (entryE m c main_v16 : S1x64.Idx → EReal) (ix2 (0 : Fin 1) j)) j := rfl

/-- The edge messages are one array. -/
theorem msgs_eq : edgeMsgs (entryE m) c = refMsgs m c := by
  funext i
  obtain ⟨e, j, rfl⟩ : ∃ (e : Fin 1200000) (j : Fin 64), i = ix2 e j := ⟨i 0, i 1, eq_ix2 i⟩
  have hR := Cert.ReferenceIdeal.Rows.msg_apply (arg m c main_arg0) (arg m c main_arg1) (arg m c main_arg2) (arg m c main_arg5)
    (arg m c main_arg6) (arg m c main_arg7) (arg m c main_arg8) e j
  have hJ := edgeRowJoined_eq
    (fun k => Cert.ReferenceIdeal.Read.val_main_v11 (F := Ideal) (arg m c main_arg0) (arg m c main_arg1) (arg m c main_arg2) (ix2 e k))
    (fun k j => (arg m c main_arg5 : S128x64.Idx → EReal) (ix2 k j))
    (fun k => refSrc m c (ix2 e k)) (fun k => (arg m c main_arg2 : S1200000x64.Idx → EReal) (ix2 e k))
    (fun k j => (arg m c main_arg5 : S128x64.Idx → EReal) (ix2 (⟨k.val, by omega⟩ : Fin 128) j))
    (fun k j => (arg m c main_arg5 : S128x64.Idx → EReal) (ix2 (⟨64 + k.val, by omega⟩ : Fin 128) j))
    (fun j => (arg m c main_arg6 : S64.Idx → EReal) (ix1 j)) (fun j => (arg m c main_arg7 : S64.Idx → EReal) (ix1 j))
    (fun j => (arg m c main_arg8 : S64.Idx → EReal) (ix1 j))
    (fun k => Cert.ReferenceIdeal.Rows.joined_left _ _ _ e k) (fun k => Cert.ReferenceIdeal.Rows.joined_right _ _ _ e k)
    (fun k j => rfl) (fun k j => rfl)
  refine Eq.trans ?_ (hR.trans (congrFun hJ j)).symm
  rw [msgs_apply]
  refine congrFun (edgeRow_congr ?_ ?_ ?_ ?_ ?_ ?_ ?_) j
  · exact funext fun k => congrFun (src_eq m c) (ix2 e k)
  · exact funext fun k => congrFun (at1 m c main_arg2 (by decide)) (ix2 e k)
  · exact funext fun k => funext fun j => w1a_apply (V0 m c) k j
  · exact funext fun k => funext fun j => w1b_apply (V0 m c) k j
  · exact funext fun j => b1_apply (V0 m c) j
  · exact funext fun j => g1_apply (V0 m c) j
  · exact funext fun j => be1_apply (V0 m c) j

/-! ## Between the stages -/

/-- What the edge region leaves in its output array is the reference's message array. -/
theorem left_msgs : (V2 m (leftE m) c main_v17 : S1200000x64.Idx → EReal) = refMsgs m c := by
  have h : V2 m (leftE m) c main_v17 = (edgeDat (entryE m) c).arrAt 7 cfg0.N := by
    show Function.update (V1 m c) (Proc.devRef .tc main_v17) (leftE m 2 main_v17 c) (Proc.devRef .tc main_v17) = _
    rw [Function.update_self]
    unfold leftE
    exact Pipeline.withArrays_arr spec0 launch0.win.arr_inj c _ _ 7
  rw [h, edge_final, msgs_eq]

/-- The destination indices after the edge region are the reference's. -/
theorem left_dst : (V2 m (leftE m) c main_v3 : S1200000.Idx → BitVec 32) = dstIdx (arg m c main_arg1) := by
  rw [V2_of m (leftE m) c main_v3 (by decide)]
  exact dst_eq (V0 m c)

/-- The summed messages are one array. -/
theorem summed_eq' : (V4 m (leftE m) c main_v21 : S100000x64.Idx → EReal) = refSummed m c := by
  rw [V4_of m (leftE m) c main_v21 (by decide)]
  show (after hostOps1 (V2 m (leftE m) c) main_v21 : S100000x64.Idx → EReal) = _
  rw [summed_eq (V2 m (leftE m) c), left_msgs, left_dst]
  rfl

/-- The counts are one array. -/
theorem count_eq (n : Fin 100000) : (V4 m (leftE m) c main_v26 : S100000x1.Idx → EReal) (ix2 n (0 : Fin 1)) = refCount m c (ix1 n) := by
  rw [V4_of m (leftE m) c main_v26 (by decide)]
  show (after hostOps1 (V2 m (leftE m) c) main_v26 : S100000x1.Idx → EReal) (ix2 n (0 : Fin 1)) = _
  rw [count_apply (V2 m (leftE m) c) n, left_dst]
  rfl

/-- Every node reads the one entry of the scalar's table. -/
theorem scalar_eq (n : Fin 100000) : (V4 m (leftE m) c main_v28 : S100000.Idx → EReal) (ix1 n)
    = (arg m c main_arg3 : S1x1.Idx → EReal) (ix2 (0 : Fin 1) (0 : Fin 1)) := by
  show (after hostOps1_1 (V3 m (leftE m) c) main_v28 : S100000.Idx → EReal) (ix1 n) = _
  rw [Cert.KernelIdeal.Values.scalar_apply (V3 m (leftE m) c) n]
  show (after hostOps1 (V2 m (leftE m) c) main_v27 : S1.Idx → EReal) (ix1 (0 : Fin 1)) = _
  rw [table_apply (V2 m (leftE m) c)]
  exact congrFun (at2 m c (leftE m) main_arg3 (by decide) (by decide)) _

/-! ## The node stage -/

/-- The node row depends on its arguments only through their values. -/
theorem nodeRow_congr {x x' s s' : Fin 64 → EReal} {cnt cnt' u u' : EReal} {wa wa' wb wb' : Fin 64 → Fin 64 → EReal}
    {wu wu' b2 b2' g2 g2' be2 be2' : Fin 64 → EReal} {w3 w3' : Fin 64 → Fin 64 → EReal} {b3 b3' g3 g3' be3 be3' : Fin 64 → EReal}
    (h1 : x = x') (h2 : s = s') (h3 : cnt = cnt') (h4 : u = u') (h5 : wa = wa') (h6 : wb = wb') (h7 : wu = wu') (h8 : b2 = b2')
    (h9 : g2 = g2') (h10 : be2 = be2') (h11 : w3 = w3') (h12 : b3 = b3') (h13 : g3 = g3') (h14 : be3 = be3') :
    nodeRow x s cnt u wa wb wu b2 g2 be2 w3 b3 g3 be3 = nodeRow x' s' cnt' u' wa' wb' wu' b2' g2' be2' w3' b3' g3' be3' := by
  subst h1 h2 h3 h4 h5 h6 h7 h8 h9 h10 h11 h12 h13 h14; rfl

/-- Entry `(n, j)` of the kernel's result array, from the node region's entry contents. -/
theorem new_apply (n : Fin 100000) (j : Fin 64) : nodeNew (entryN m) c (ix2 n j)
    = nodeRow (fun k => (entryN m c main_arg0 : S100000x64.Idx → EReal) (ix2 n k))
        (fun k => (entryN m c main_v30 : S100000x66.Idx → EReal) (ix2 n (⟨k.val, by omega⟩ : Fin 66)))
        ((entryN m c main_v30 : S100000x66.Idx → EReal) (ix2 n (64 : Fin 66))) ((entryN m c main_v30 : S100000x66.Idx → EReal) (ix2 n (65 : Fin 66)))
        (fun k j => (entryN m c main_v31 : S64x64.Idx → EReal) (ix2 k j)) (fun k j => (entryN m c main_v32 : S64x64.Idx → EReal) (ix2 k j))
        (fun j => (entryN m c main_v33 : S1x64.Idx → EReal) (ix2 (0 : Fin 1) j)) (fun j => (entryN m c main_v34 : S1x64.Idx → EReal) (ix2 (0 : Fin 1) j))
        (fun j => (entryN m c main_v35 : S1x64.Idx → EReal) (ix2 (0 : Fin 1) j)) (fun j => (entryN m c main_v36 : S1x64.Idx → EReal) (ix2 (0 : Fin 1) j))
        (fun k j => (entryN m c main_arg13 : S64x64.Idx → EReal) (ix2 k j)) (fun j => (entryN m c main_v37 : S1x64.Idx → EReal) (ix2 (0 : Fin 1) j))
        (fun j => (entryN m c main_v38 : S1x64.Idx → EReal) (ix2 (0 : Fin 1) j)) (fun j => (entryN m c main_v39 : S1x64.Idx → EReal) (ix2 (0 : Fin 1) j)) j := rfl

/-- The reference's mean message of node `n` at the kernel's arguments. -/
abbrev refMean (n : Fin 100000) : Fin 64 → EReal := fun k =>
  Cert.ReferenceIdeal.Read.val_main_v52 (F := Ideal) (arg m c main_arg0) (arg m c main_arg1) (arg m c main_arg2) (arg m c main_arg5)
    (arg m c main_arg6) (arg m c main_arg7) (arg m c main_arg8) (ix2 n k)

theorem refMean_eq (n : Fin 100000) : refMean m c n = meanMsg (fun k => refSummed m c (ix2 n k)) (refCount m c (ix1 n)) :=
  funext fun k => Cert.ReferenceIdeal.Rows.meanMsg_apply _ _ _ _ _ _ _ n k

/-- Entry `(n, j)` of the reference's result at the kernel's arguments, as the node row of the three-product form. -/
theorem ref_apply (n : Fin 100000) (j : Fin 64) :
    Cert.ReferenceIdeal.Read.val_main_v118 (F := Ideal) (arg m c main_arg0) (arg m c main_arg1) (arg m c main_arg2) (arg m c main_arg3)
        (arg m c main_arg4) (arg m c main_arg5) (arg m c main_arg6) (arg m c main_arg7) (arg m c main_arg8) (arg m c main_arg9)
        (arg m c main_arg10) (arg m c main_arg11) (arg m c main_arg12) (arg m c main_arg13) (arg m c main_arg14) (arg m c main_arg15)
        (arg m c main_arg16) (ix2 n j)
      = nodeRow (fun k => (arg m c main_arg0 : S100000x64.Idx → EReal) (ix2 n k)) (fun k => refSummed m c (ix2 n k)) (refCount m c (ix1 n))
          ((arg m c main_arg3 : S1x1.Idx → EReal) (ix2 (0 : Fin 1) (0 : Fin 1)))
          (fun k j => (arg m c main_arg9 : S129x64.Idx → EReal) (ix2 (⟨k.val, by omega⟩ : Fin 129) j))
          (fun k j => (arg m c main_arg9 : S129x64.Idx → EReal) (ix2 (⟨64 + k.val, by omega⟩ : Fin 129) j))
          (fun j => (arg m c main_arg9 : S129x64.Idx → EReal) (ix2 (⟨128, by omega⟩ : Fin 129) j))
          (fun j => (arg m c main_arg10 : S64.Idx → EReal) (ix1 j)) (fun j => (arg m c main_arg11 : S64.Idx → EReal) (ix1 j))
          (fun j => (arg m c main_arg12 : S64.Idx → EReal) (ix1 j)) (fun k j => (arg m c main_arg13 : S64x64.Idx → EReal) (ix2 k j))
          (fun j => (arg m c main_arg14 : S64.Idx → EReal) (ix1 j)) (fun j => (arg m c main_arg15 : S64.Idx → EReal) (ix1 j))
          (fun j => (arg m c main_arg16 : S64.Idx → EReal) (ix1 j)) j := by
  have hR := Cert.ReferenceIdeal.Rows.out_apply (arg m c main_arg0) (arg m c main_arg1) (arg m c main_arg2) (arg m c main_arg3)
    (arg m c main_arg4) (arg m c main_arg5) (arg m c main_arg6) (arg m c main_arg7) (arg m c main_arg8) (arg m c main_arg9)
    (arg m c main_arg10) (arg m c main_arg11) (arg m c main_arg12) (arg m c main_arg13) (arg m c main_arg14) (arg m c main_arg15)
    (arg m c main_arg16) n j
  have hJ := nodeRowJoined_eq
    (fun k => Cert.ReferenceIdeal.Read.val_main_v60 (F := Ideal) (arg m c main_arg0) (arg m c main_arg1) (arg m c main_arg2) (arg m c main_arg3)
      (arg m c main_arg4) (arg m c main_arg5) (arg m c main_arg6) (arg m c main_arg7) (arg m c main_arg8) (ix2 n k))
    (fun k j => (arg m c main_arg9 : S129x64.Idx → EReal) (ix2 k j))
    (fun k => (arg m c main_arg0 : S100000x64.Idx → EReal) (ix2 n k)) (refMean m c n)
    ((arg m c main_arg3 : S1x1.Idx → EReal) (ix2 (0 : Fin 1) (0 : Fin 1)))
    (fun k j => (arg m c main_arg9 : S129x64.Idx → EReal) (ix2 (⟨k.val, by omega⟩ : Fin 129) j))
    (fun k j => (arg m c main_arg9 : S129x64.Idx → EReal) (ix2 (⟨64 + k.val, by omega⟩ : Fin 129) j))
    (fun j => (arg m c main_arg9 : S129x64.Idx → EReal) (ix2 (⟨128, by omega⟩ : Fin 129) j))
    (fun j => (arg m c main_arg10 : S64.Idx → EReal) (ix1 j)) (fun j => (arg m c main_arg11 : S64.Idx → EReal) (ix1 j))
    (fun j => (arg m c main_arg12 : S64.Idx → EReal) (ix1 j)) (fun k j => (arg m c main_arg13 : S64x64.Idx → EReal) (ix2 k j))
    (fun j => (arg m c main_arg14 : S64.Idx → EReal) (ix1 j)) (fun j => (arg m c main_arg15 : S64.Idx → EReal) (ix1 j))
    (fun j => (arg m c main_arg16 : S64.Idx → EReal) (ix1 j))
    (fun k => Cert.ReferenceIdeal.Rows.nodeJoined_x _ _ _ _ _ _ _ _ _ n k)
    (fun k => Cert.ReferenceIdeal.Rows.nodeJoined_msg _ _ _ _ _ _ _ _ _ n k)
    ((Cert.ReferenceIdeal.Rows.nodeJoined_u _ _ _ _ _ _ _ _ _ n).trans (Cert.ReferenceIdeal.Rows.scalar_apply _ _ n))
    (fun k j => rfl) (fun k j => rfl) (fun j => rfl)
  rw [hR, congrFun hJ j, refMean_eq]
  rfl

/-- THE RESULT: what the node region leaves in its output array is the reference's result at the kernel's argument
    arrays. -/
theorem result_eq : (nodeDat (entryN m) c).arrAt 12 cfg1.N
    = Cert.ReferenceIdeal.Read.val_main_v118 (F := Ideal) (arg m c main_arg0) (arg m c main_arg1) (arg m c main_arg2) (arg m c main_arg3)
        (arg m c main_arg4) (arg m c main_arg5) (arg m c main_arg6) (arg m c main_arg7) (arg m c main_arg8) (arg m c main_arg9)
        (arg m c main_arg10) (arg m c main_arg11) (arg m c main_arg12) (arg m c main_arg13) (arg m c main_arg14) (arg m c main_arg15)
        (arg m c main_arg16) := by
  rw [node_final]
  funext i
  obtain ⟨n, j, rfl⟩ : ∃ (n : Fin 100000) (j : Fin 64), i = ix2 n j := ⟨i 0, i 1, eq_ix2 i⟩
  rw [ref_apply, new_apply]
  refine congrFun (nodeRow_congr ?_ ?_ ?_ ?_ ?_ ?_ ?_ ?_ ?_ ?_ ?_ ?_ ?_ ?_) j
  · exact funext fun k => congrFun (at5 m c (leftE m) main_arg0 (by decide) (by decide) (by decide) (by decide) (by decide)) (ix2 n k)
  · refine funext fun k => ?_
    show (after hostOps1_2 (V4 m (leftE m) c) main_v30 : S100000x66.Idx → EReal) (ix2 n (⟨k.val, by omega⟩ : Fin 66)) = _
    rw [packed_msg (V4 m (leftE m) c) n k]
    exact congrFun (summed_eq' m c) (ix2 n k)
  · show (after hostOps1_2 (V4 m (leftE m) c) main_v30 : S100000x66.Idx → EReal) (ix2 n (64 : Fin 66)) = _
    rw [packed_count (V4 m (leftE m) c) n]
    exact count_eq m c n
  · show (after hostOps1_2 (V4 m (leftE m) c) main_v30 : S100000x66.Idx → EReal) (ix2 n (65 : Fin 66)) = _
    rw [packed_scalar (V4 m (leftE m) c) n]
    exact scalar_eq m c n
  · exact funext fun k => funext fun j =>
      (w2a_apply (V4 m (leftE m) c) k j).trans (congrFun (at4 m c (leftE m) main_arg9 (by decide) (by decide) (by decide) (by decide)) _)
  · exact funext fun k => funext fun j =>
      (w2b_apply (V4 m (leftE m) c) k j).trans (congrFun (at4 m c (leftE m) main_arg9 (by decide) (by decide) (by decide) (by decide)) _)
  · exact funext fun j =>
      (w2u_apply (V4 m (leftE m) c) j).trans (congrFun (at4 m c (leftE m) main_arg9 (by decide) (by decide) (by decide) (by decide)) _)
  · exact funext fun j =>
      (b2_apply (V4 m (leftE m) c) j).trans (congrFun (at4 m c (leftE m) main_arg10 (by decide) (by decide) (by decide) (by decide)) _)
  · exact funext fun j =>
      (g2_apply (V4 m (leftE m) c) j).trans (congrFun (at4 m c (leftE m) main_arg11 (by decide) (by decide) (by decide) (by decide)) _)
  · exact funext fun j =>
      (be2_apply (V4 m (leftE m) c) j).trans (congrFun (at4 m c (leftE m) main_arg12 (by decide) (by decide) (by decide) (by decide)) _)
  · exact funext fun k => funext fun j =>
      congrFun (at5 m c (leftE m) main_arg13 (by decide) (by decide) (by decide) (by decide) (by decide)) (ix2 k j)
  · exact funext fun j =>
      (b3_apply (V4 m (leftE m) c) j).trans (congrFun (at4 m c (leftE m) main_arg14 (by decide) (by decide) (by decide) (by decide)) _)
  · exact funext fun j =>
      (g3_apply (V4 m (leftE m) c) j).trans (congrFun (at4 m c (leftE m) main_arg15 (by decide) (by decide) (by decide) (by decide)) _)
  · exact funext fun j =>
      (be3_apply (V4 m (leftE m) c) j).trans (congrFun (at4 m c (leftE m) main_arg16 (by decide) (by decide) (by decide) (by decide)) _)

end Cert.Bridge

end
-- ==== Proof.lean ====
/-
  A graph network's node update (gather the source nodes' features per edge, a linear map with rectifier and layer
  normalisation per edge, the messages averaged per destination node, two linear maps with layer normalisations per
  node, a residual) as two pipelined kernels among host operations, against the same update written with plain array
  operations: over the extended reals the two programs return the same array at every admitted input, and each runs
  to its end without fault leaving its arguments as launched.

  The kernel program is six segments.  Its run — every unscoped buffer's final contents named — is one launch over
  the segments (module KernelIdeal/WholeRun, stated at any float instance, and its word-level copy Kernel/WholeRun);
  the two regions' halves of it are EdgeRegion and NodeRegion.  What each region's output array holds is read entry by
  entry (EdgePayload, NodePayload: the bodies' values at an index; EdgeValue, NodeValue: the blocks laid into the
  arrays), what the host operations hold likewise (HostValues); the reference is read operation by operation
  (RefEdge, RefNode, over the generated reading of its run); Bridge joins the two: the kernel splits each linear map
  over a joined row into a product per piece, and a finite sum over the joined index is the sum of the pieces' sums.
  Only commutativity and associativity of addition are used, so the precondition is never opened.
-/
import proofs.«418484_j28518582846165_3_alg».proof.Defs
import proofs.«418484_j28518582846165_3_alg».proof.Proof.Gen.Kernel
import proofs.«418484_j28518582846165_3_alg».proof.Proof.Gen.KernelIdeal
import proofs.«418484_j28518582846165_3_alg».proof.Proof.Gen.ReferenceIdeal
import proofs.«418484_j28518582846165_3_alg».proof.Proof.Gen.Pre_finite_inputs
import proofs.«418484_j28518582846165_3_alg».proof.Proof.Gen.ReferenceIdeal.Run
import proofs.«418484_j28518582846165_3_alg».proof.Proof.Gen.ReferenceIdeal.Read
import proofs.«418484_j28518582846165_3_alg».proof.Proof.Kernel.WholeRun
import proofs.«418484_j28518582846165_3_alg».proof.Proof.KernelIdeal.WholeRun
import proofs.«418484_j28518582846165_3_alg».proof.Proof.Bridge
import Idealize.ShloMosaic.Adequacy
import Idealize.ShloMosaic.Init

noncomputable section

namespace Cert.Proof

open Idealize.ShloMosaic Idealize.SL.Sem

/-- The word-level kernel program runs to its end and leaves its arguments as launched. -/
theorem frame_k : Cert.frame_Kernel := fun m ρ _ =>
  Cert.Kernel.Regions.frame (F := Bits) m ρ

/-- So does the idealized kernel program. -/
theorem frame_ki : Cert.frame_KernelIdeal := fun m ρ _ =>
  Cert.KernelIdeal.Regions.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories agreeing on the arguments both idealized programs end with the same result array: the kernel
    program's is what its node region's write-backs leave, which is the reference's result at the same arguments. -/
theorem algebraic : Cert.algebraic_KernelIdeal_ReferenceIdeal := by
  intro m ρ m' ρ' _ hagree
  refine ⟨fun c => (Cert.KernelIdeal.Regions.nodeDat (Cert.KernelIdeal.Regions.entryN m) c).arrAt 12 Cert.KernelIdeal.cfg1.N,
    Cert.KernelIdeal.Regions.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [Cert.ReferenceIdeal.Read.val_main_v118_eq, h0, h1, h2, h3, h4, h5, h6, h7, h8, h9, h10, h11, h12, h13, h14, h15, h16]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
